-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x16 : Shape := ⟨2, ![65536, 16]⟩
abbrev S_ : Shape := ⟨0, ![]⟩

class Facts : Prop where
  bcast_S_S65536x16 : S_.BroadcastsInDim S65536x16 (![] : Fin 0 → Fin S65536x16.rank)
  reducesTo_S65536x16_S_d0_1 : S65536x16.ReducesTo [0, 1] S_
  h_S_ : 0 < S_.numel

variable [Facts]

def fn {F : FTy → Type} [FloatOps F] (main_arg0 : FVec F S65536x16 .f32) (main_arg1 : FVec F S65536x16 .f32) : IVec S_ 1 :=
  let main_v0 : FVec F S65536x16 .f32 := Host.absf main_arg0
  let main_cst : FVec F S_ .f32 := constant S_ .f32 0x7F800000#32
  let main_v1 : FVec F S65536x16 .f32 := broadcastInDim S65536x16 ![] bcast_S_S65536x16 main_cst
  let main_v2 : IVec S65536x16 1 := cmpf .olt main_v0 main_v1
  let main_c : IVec S_ 1 := constantI S_ 1 1#1
  let main_v3 : IVec S_ 1 := (fun x v => Host.reduce IntOp.andi x v reducesTo_S65536x16_S_d0_1 h_S_) main_v2 main_c
  let main_v4 : FVec F S65536x16 .f32 := Host.absf main_arg1
  let main_cst_0 : FVec F S_ .f32 := constant S_ .f32 0x7F800000#32
  let main_v5 : FVec F S65536x16 .f32 := broadcastInDim S65536x16 ![] bcast_S_S65536x16 main_cst_0
  let main_v6 : IVec S65536x16 1 := cmpf .olt main_v4 main_v5
  let main_c_1 : IVec S_ 1 := constantI S_ 1 1#1
  let main_v7 : IVec S_ 1 := (fun x v => Host.reduce IntOp.andi x v reducesTo_S65536x16_S_d0_1 h_S_) main_v6 main_c_1
  let main_v8 : IVec S_ 1 := andi main_v3 main_v7
  main_v8
-- ==== Kernel.lean ====
abbrev S65536x16 : Shape := ⟨2, ![65536, 16]⟩
abbrev S65536x696 : Shape := ⟨2, ![65536, 696]⟩
abbrev S1024x16 : Shape := ⟨2, ![1024, 16]⟩
abbrev S1024x696 : Shape := ⟨2, ![1024, 696]⟩
abbrev S1024x136 : Shape := ⟨2, ![1024, 136]⟩
abbrev S1024x15 : Shape := ⟨2, ![1024, 15]⟩
abbrev S1024x1 : Shape := ⟨2, ![1024, 1]⟩
abbrev S1024x14 : Shape := ⟨2, ![1024, 14]⟩
abbrev S1024x13 : Shape := ⟨2, ![1024, 13]⟩
abbrev S1024x12 : Shape := ⟨2, ![1024, 12]⟩
abbrev S1024x11 : Shape := ⟨2, ![1024, 11]⟩
abbrev S1024x10 : Shape := ⟨2, ![1024, 10]⟩
abbrev S1024x9 : Shape := ⟨2, ![1024, 9]⟩
abbrev S1024x8 : Shape := ⟨2, ![1024, 8]⟩
abbrev S1024x7 : Shape := ⟨2, ![1024, 7]⟩
abbrev S1024x6 : Shape := ⟨2, ![1024, 6]⟩
abbrev S1024x5 : Shape := ⟨2, ![1024, 5]⟩
abbrev S1024x4 : Shape := ⟨2, ![1024, 4]⟩
abbrev S1024x3 : Shape := ⟨2, ![1024, 3]⟩
abbrev S1024x2 : Shape := ⟨2, ![1024, 2]⟩

abbrev nBuf : Space → Nat
  | .hbm => 4
  | .vmem => 10
  | .smem => 0
  | _ => 0

abbrev bufTy : (tb : Table) → Fin (tcTables nBuf tb) → BufTy
  | .hbm, ⟨0, _⟩ => ⟨S65536x16, .f32⟩
  | .hbm, ⟨1, _⟩ => ⟨S65536x16, .f32⟩
  | .hbm, ⟨2, _⟩ => ⟨S65536x696, .f32⟩
  | .hbm, ⟨3, _⟩ => ⟨S65536x696, .f32⟩
  | .local _ .vmem, ⟨0, _⟩ => ⟨S1024x16, .f32⟩
  | .local _ .vmem, ⟨1, _⟩ => ⟨S1024x16, .f32⟩
  | .local _ .vmem, ⟨2, _⟩ => ⟨S1024x16, .f32⟩
  | .local _ .vmem, ⟨3, _⟩ => ⟨S1024x16, .f32⟩
  | .local _ .vmem, ⟨4, _⟩ => ⟨S1024x696, .f32⟩
  | .local _ .vmem, ⟨5, _⟩ => ⟨S1024x696, .f32⟩
  | .local _ .vmem, ⟨6, _⟩ => ⟨S1024x696, .f32⟩
  | .local _ .vmem, ⟨7, _⟩ => ⟨S1024x696, .f32⟩
  | .local _ .vmem, ⟨8, _⟩ => ⟨S1024x136, .f32⟩
  | .local _ .vmem, ⟨9, _⟩ => ⟨S1024x136, .f32⟩
  | _, _ => ⟨S65536x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x696 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x696 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1024x16_S1024x16_0_0 : ∀ a, (![0, 0] : Fin 2 → Nat) a + S1024x16.size a ≤ S1024x16.size a
  h_S1024x16 : 0 < S1024x16.numel
  inb_S1024x136_S1024x16_0_0 : ∀ a, (![0, 0] : Fin 2 → Nat) a + S1024x16.size a ≤ S1024x136.size a
  shapeCasts_S1024x16_S1024x16 : S1024x16.ShapeCasts S1024x16
  slices_S1024x16_o0_1_S1024x15 : S1024x16.Slices ![0, 1] S1024x15
  slices_S1024x16_o0_0_S1024x1 : S1024x16.Slices ![0, 0] S1024x1
  shapeCasts_S1024x1_S1024x1 : S1024x1.ShapeCasts S1024x1
  broadcasts_S1024x1_S1024x15 : S1024x1.Broadcasts S1024x15
  inb_S1024x136_S1024x15_0_16 : ∀ a, (![0, 16] : Fin 2 → Nat) a + S1024x15.size a ≤ S1024x136.size a
  h_S1024x15 : 0 < S1024x15.numel
  shapeCasts_S1024x15_S1024x15 : S1024x15.ShapeCasts S1024x15
  slices_S1024x16_o0_2_S1024x14 : S1024x16.Slices ![0, 2] S1024x14
  slices_S1024x16_o0_1_S1024x1 : S1024x16.Slices ![0, 1] S1024x1
  broadcasts_S1024x1_S1024x14 : S1024x1.Broadcasts S1024x14
  inb_S1024x136_S1024x14_0_31 : ∀ a, (![0, 31] : Fin 2 → Nat) a + S1024x14.size a ≤ S1024x136.size a
  h_S1024x14 : 0 < S1024x14.numel
  shapeCasts_S1024x14_S1024x14 : S1024x14.ShapeCasts S1024x14
  slices_S1024x16_o0_3_S1024x13 : S1024x16.Slices ![0, 3] S1024x13
  slices_S1024x16_o0_2_S1024x1 : S1024x16.Slices ![0, 2] S1024x1
  broadcasts_S1024x1_S1024x13 : S1024x1.Broadcasts S1024x13
  inb_S1024x136_S1024x13_0_45 : ∀ a, (![0, 45] : Fin 2 → Nat) a + S1024x13.size a ≤ S1024x136.size a
  h_S1024x13 : 0 < S1024x13.numel
  shapeCasts_S1024x13_S1024x13 : S1024x13.ShapeCasts S1024x13
  slices_S1024x16_o0_4_S1024x12 : S1024x16.Slices ![0, 4] S1024x12
  slices_S1024x16_o0_3_S1024x1 : S1024x16.Slices ![0, 3] S1024x1
  broadcasts_S1024x1_S1024x12 : S1024x1.Broadcasts S1024x12
  inb_S1024x136_S1024x12_0_58 : ∀ a, (![0, 58] : Fin 2 → Nat) a + S1024x12.size a ≤ S1024x136.size a
  h_S1024x12 : 0 < S1024x12.numel
  shapeCasts_S1024x12_S1024x12 : S1024x12.ShapeCasts S1024x12
  slices_S1024x16_o0_5_S1024x11 : S1024x16.Slices ![0, 5] S1024x11
  slices_S1024x16_o0_4_S1024x1 : S1024x16.Slices ![0, 4] S1024x1
  broadcasts_S1024x1_S1024x11 : S1024x1.Broadcasts S1024x11
  inb_S1024x136_S1024x11_0_70 : ∀ a, (![0, 70] : Fin 2 → Nat) a + S1024x11.size a ≤ S1024x136.size a
  h_S1024x11 : 0 < S1024x11.numel
  shapeCasts_S1024x11_S1024x11 : S1024x11.ShapeCasts S1024x11
  slices_S1024x16_o0_6_S1024x10 : S1024x16.Slices ![0, 6] S1024x10
  slices_S1024x16_o0_5_S1024x1 : S1024x16.Slices ![0, 5] S1024x1
  broadcasts_S1024x1_S1024x10 : S1024x1.Broadcasts S1024x10
  inb_S1024x136_S1024x10_0_81 : ∀ a, (![0, 81] : Fin 2 → Nat) a + S1024x10.size a ≤ S1024x136.size a
  h_S1024x10 : 0 < S1024x10.numel
  shapeCasts_S1024x10_S1024x10 : S1024x10.ShapeCasts S1024x10
  slices_S1024x16_o0_7_S1024x9 : S1024x16.Slices ![0, 7] S1024x9
  slices_S1024x16_o0_6_S1024x1 : S1024x16.Slices ![0, 6] S1024x1
  broadcasts_S1024x1_S1024x9 : S1024x1.Broadcasts S1024x9
  inb_S1024x136_S1024x9_0_91 : ∀ a, (![0, 91] : Fin 2 → Nat) a + S1024x9.size a ≤ S1024x136.size a
  h_S1024x9 : 0 < S1024x9.numel
  shapeCasts_S1024x9_S1024x9 : S1024x9.ShapeCasts S1024x9
  slices_S1024x16_o0_8_S1024x8 : S1024x16.Slices ![0, 8] S1024x8
  slices_S1024x16_o0_7_S1024x1 : S1024x16.Slices ![0, 7] S1024x1
  broadcasts_S1024x1_S1024x8 : S1024x1.Broadcasts S1024x8
  inb_S1024x136_S1024x8_0_100 : ∀ a, (![0, 100] : Fin 2 → Nat) a + S1024x8.size a ≤ S1024x136.size a
  h_S1024x8 : 0 < S1024x8.numel
  shapeCasts_S1024x8_S1024x8 : S1024x8.ShapeCasts S1024x8
  slices_S1024x16_o0_9_S1024x7 : S1024x16.Slices ![0, 9] S1024x7
  slices_S1024x16_o0_8_S1024x1 : S1024x16.Slices ![0, 8] S1024x1
  broadcasts_S1024x1_S1024x7 : S1024x1.Broadcasts S1024x7
  inb_S1024x136_S1024x7_0_108 : ∀ a, (![0, 108] : Fin 2 → Nat) a + S1024x7.size a ≤ S1024x136.size a
  h_S1024x7 : 0 < S1024x7.numel
  shapeCasts_S1024x7_S1024x7 : S1024x7.ShapeCasts S1024x7
  slices_S1024x16_o0_10_S1024x6 : S1024x16.Slices ![0, 10] S1024x6
  slices_S1024x16_o0_9_S1024x1 : S1024x16.Slices ![0, 9] S1024x1
  broadcasts_S1024x1_S1024x6 : S1024x1.Broadcasts S1024x6
  inb_S1024x136_S1024x6_0_115 : ∀ a, (![0, 115] : Fin 2 → Nat) a + S1024x6.size a ≤ S1024x136.size a
  h_S1024x6 : 0 < S1024x6.numel
  shapeCasts_S1024x6_S1024x6 : S1024x6.ShapeCasts S1024x6
  slices_S1024x16_o0_11_S1024x5 : S1024x16.Slices ![0, 11] S1024x5
  slices_S1024x16_o0_10_S1024x1 : S1024x16.Slices ![0, 10] S1024x1
  broadcasts_S1024x1_S1024x5 : S1024x1.Broadcasts S1024x5
  inb_S1024x136_S1024x5_0_121 : ∀ a, (![0, 121] : Fin 2 → Nat) a + S1024x5.size a ≤ S1024x136.size a
  h_S1024x5 : 0 < S1024x5.numel
  shapeCasts_S1024x5_S1024x5 : S1024x5.ShapeCasts S1024x5
  slices_S1024x16_o0_12_S1024x4 : S1024x16.Slices ![0, 12] S1024x4
  slices_S1024x16_o0_11_S1024x1 : S1024x16.Slices ![0, 11] S1024x1
  broadcasts_S1024x1_S1024x4 : S1024x1.Broadcasts S1024x4
  inb_S1024x136_S1024x4_0_126 : ∀ a, (![0, 126] : Fin 2 → Nat) a + S1024x4.size a ≤ S1024x136.size a
  h_S1024x4 : 0 < S1024x4.numel
  shapeCasts_S1024x4_S1024x4 : S1024x4.ShapeCasts S1024x4
  slices_S1024x16_o0_13_S1024x3 : S1024x16.Slices ![0, 13] S1024x3
  slices_S1024x16_o0_12_S1024x1 : S1024x16.Slices ![0, 12] S1024x1
  broadcasts_S1024x1_S1024x3 : S1024x1.Broadcasts S1024x3
  inb_S1024x136_S1024x3_0_130 : ∀ a, (![0, 130] : Fin 2 → Nat) a + S1024x3.size a ≤ S1024x136.size a
  h_S1024x3 : 0 < S1024x3.numel
  shapeCasts_S1024x3_S1024x3 : S1024x3.ShapeCasts S1024x3
  slices_S1024x16_o0_14_S1024x2 : S1024x16.Slices ![0, 14] S1024x2
  slices_S1024x16_o0_13_S1024x1 : S1024x16.Slices ![0, 13] S1024x1
  broadcasts_S1024x1_S1024x2 : S1024x1.Broadcasts S1024x2
  inb_S1024x136_S1024x2_0_133 : ∀ a, (![0, 133] : Fin 2 → Nat) a + S1024x2.size a ≤ S1024x136.size a
  h_S1024x2 : 0 < S1024x2.numel
  shapeCasts_S1024x2_S1024x2 : S1024x2.ShapeCasts S1024x2
  slices_S1024x16_o0_15_S1024x1 : S1024x16.Slices ![0, 15] S1024x1
  slices_S1024x16_o0_14_S1024x1 : S1024x16.Slices ![0, 14] S1024x1
  inb_S1024x136_S1024x1_0_135 : ∀ a, (![0, 135] : Fin 2 → Nat) a + S1024x1.size a ≤ S1024x136.size a
  h_S1024x1 : 0 < S1024x1.numel
  inb_S1024x136_S1024x136_0_0 : ∀ a, (![0, 0] : Fin 2 → Nat) a + S1024x136.size a ≤ S1024x136.size a
  h_S1024x136 : 0 < S1024x136.numel
  inb_S1024x696_S1024x136_0_0 : ∀ a, (![0, 0] : Fin 2 → Nat) a + S1024x136.size a ≤ S1024x696.size a
  slices_S1024x136_o0_31_S1024x14 : S1024x136.Slices ![0, 31] S1024x14
  slices_S1024x136_o0_16_S1024x1 : S1024x136.Slices ![0, 16] S1024x1
  inb_S1024x696_S1024x14_0_136 : ∀ a, (![0, 136] : Fin 2 → Nat) a + S1024x14.size a ≤ S1024x696.size a
  slices_S1024x136_o0_45_S1024x13 : S1024x136.Slices ![0, 45] S1024x13
  slices_S1024x136_o0_17_S1024x1 : S1024x136.Slices ![0, 17] S1024x1
  inb_S1024x696_S1024x13_0_150 : ∀ a, (![0, 150] : Fin 2 → Nat) a + S1024x13.size a ≤ S1024x696.size a
  slices_S1024x136_o0_58_S1024x12 : S1024x136.Slices ![0, 58] S1024x12
  slices_S1024x136_o0_18_S1024x1 : S1024x136.Slices ![0, 18] S1024x1
  inb_S1024x696_S1024x12_0_163 : ∀ a, (![0, 163] : Fin 2 → Nat) a + S1024x12.size a ≤ S1024x696.size a
  slices_S1024x136_o0_70_S1024x11 : S1024x136.Slices ![0, 70] S1024x11
  slices_S1024x136_o0_19_S1024x1 : S1024x136.Slices ![0, 19] S1024x1
  inb_S1024x696_S1024x11_0_175 : ∀ a, (![0, 175] : Fin 2 → Nat) a + S1024x11.size a ≤ S1024x696.size a
  slices_S1024x136_o0_81_S1024x10 : S1024x136.Slices ![0, 81] S1024x10
  slices_S1024x136_o0_20_S1024x1 : S1024x136.Slices ![0, 20] S1024x1
  inb_S1024x696_S1024x10_0_186 : ∀ a, (![0, 186] : Fin 2 → Nat) a + S1024x10.size a ≤ S1024x696.size a
  slices_S1024x136_o0_91_S1024x9 : S1024x136.Slices ![0, 91] S1024x9
  slices_S1024x136_o0_21_S1024x1 : S1024x136.Slices ![0, 21] S1024x1
  inb_S1024x696_S1024x9_0_196 : ∀ a, (![0, 196] : Fin 2 → Nat) a + S1024x9.size a ≤ S1024x696.size a
  slices_S1024x136_o0_100_S1024x8 : S1024x136.Slices ![0, 100] S1024x8
  slices_S1024x136_o0_22_S1024x1 : S1024x136.Slices ![0, 22] S1024x1
  inb_S1024x696_S1024x8_0_205 : ∀ a, (![0, 205] : Fin 2 → Nat) a + S1024x8.size a ≤ S1024x696.size a
  slices_S1024x136_o0_108_S1024x7 : S1024x136.Slices ![0, 108] S1024x7
  slices_S1024x136_o0_23_S1024x1 : S1024x136.Slices ![0, 23] S1024x1
  inb_S1024x696_S1024x7_0_213 : ∀ a, (![0, 213] : Fin 2 → Nat) a + S1024x7.size a ≤ S1024x696.size a
  slices_S1024x136_o0_115_S1024x6 : S1024x136.Slices ![0, 115] S1024x6
  slices_S1024x136_o0_24_S1024x1 : S1024x136.Slices ![0, 24] S1024x1
  inb_S1024x696_S1024x6_0_220 : ∀ a, (![0, 220] : Fin 2 → Nat) a + S1024x6.size a ≤ S1024x696.size a
  slices_S1024x136_o0_121_S1024x5 : S1024x136.Slices ![0, 121] S1024x5
  slices_S1024x136_o0_25_S1024x1 : S1024x136.Slices ![0, 25] S1024x1
  inb_S1024x696_S1024x5_0_226 : ∀ a, (![0, 226] : Fin 2 → Nat) a + S1024x5.size a ≤ S1024x696.size a
  slices_S1024x136_o0_126_S1024x4 : S1024x136.Slices ![0, 126] S1024x4
  slices_S1024x136_o0_26_S1024x1 : S1024x136.Slices ![0, 26] S1024x1
  inb_S1024x696_S1024x4_0_231 : ∀ a, (![0, 231] : Fin 2 → Nat) a + S1024x4.size a ≤ S1024x696.size a
  slices_S1024x136_o0_130_S1024x3 : S1024x136.Slices ![0, 130] S1024x3
  slices_S1024x136_o0_27_S1024x1 : S1024x136.Slices ![0, 27] S1024x1
  inb_S1024x696_S1024x3_0_235 : ∀ a, (![0, 235] : Fin 2 → Nat) a + S1024x3.size a ≤ S1024x696.size a
  slices_S1024x136_o0_133_S1024x2 : S1024x136.Slices ![0, 133] S1024x2
  slices_S1024x136_o0_28_S1024x1 : S1024x136.Slices ![0, 28] S1024x1
  inb_S1024x696_S1024x2_0_238 : ∀ a, (![0, 238] : Fin 2 → Nat) a + S1024x2.size a ≤ S1024x696.size a
  slices_S1024x136_o0_135_S1024x1 : S1024x136.Slices ![0, 135] S1024x1
  slices_S1024x136_o0_29_S1024x1 : S1024x136.Slices ![0, 29] S1024x1
  inb_S1024x696_S1024x1_0_240 : ∀ a, (![0, 240] : Fin 2 → Nat) a + S1024x1.size a ≤ S1024x696.size a
  slices_S1024x136_o0_31_S1024x1 : S1024x136.Slices ![0, 31] S1024x1
  inb_S1024x696_S1024x13_0_241 : ∀ a, (![0, 241] : Fin 2 → Nat) a + S1024x13.size a ≤ S1024x696.size a
  slices_S1024x136_o0_32_S1024x1 : S1024x136.Slices ![0, 32] S1024x1
  inb_S1024x696_S1024x12_0_254 : ∀ a, (![0, 254] : Fin 2 → Nat) a + S1024x12.size a ≤ S1024x696.size a
  slices_S1024x136_o0_33_S1024x1 : S1024x136.Slices ![0, 33] S1024x1
  inb_S1024x696_S1024x11_0_266 : ∀ a, (![0, 266] : Fin 2 → Nat) a + S1024x11.size a ≤ S1024x696.size a
  slices_S1024x136_o0_34_S1024x1 : S1024x136.Slices ![0, 34] S1024x1
  inb_S1024x696_S1024x10_0_277 : ∀ a, (![0, 277] : Fin 2 → Nat) a + S1024x10.size a ≤ S1024x696.size a
  slices_S1024x136_o0_35_S1024x1 : S1024x136.Slices ![0, 35] S1024x1
  inb_S1024x696_S1024x9_0_287 : ∀ a, (![0, 287] : Fin 2 → Nat) a + S1024x9.size a ≤ S1024x696.size a
  slices_S1024x136_o0_36_S1024x1 : S1024x136.Slices ![0, 36] S1024x1
  inb_S1024x696_S1024x8_0_296 : ∀ a, (![0, 296] : Fin 2 → Nat) a + S1024x8.size a ≤ S1024x696.size a
  slices_S1024x136_o0_37_S1024x1 : S1024x136.Slices ![0, 37] S1024x1
  inb_S1024x696_S1024x7_0_304 : ∀ a, (![0, 304] : Fin 2 → Nat) a + S1024x7.size a ≤ S1024x696.size a
  slices_S1024x136_o0_38_S1024x1 : S1024x136.Slices ![0, 38] S1024x1
  inb_S1024x696_S1024x6_0_311 : ∀ a, (![0, 311] : Fin 2 → Nat) a + S1024x6.size a ≤ S1024x696.size a
  slices_S1024x136_o0_39_S1024x1 : S1024x136.Slices ![0, 39] S1024x1
  inb_S1024x696_S1024x5_0_317 : ∀ a, (![0, 317] : Fin 2 → Nat) a + S1024x5.size a ≤ S1024x696.size a
  slices_S1024x136_o0_40_S1024x1 : S1024x136.Slices ![0, 40] S1024x1
  inb_S1024x696_S1024x4_0_322 : ∀ a, (![0, 322] : Fin 2 → Nat) a + S1024x4.size a ≤ S1024x696.size a
  slices_S1024x136_o0_41_S1024x1 : S1024x136.Slices ![0, 41] S1024x1
  inb_S1024x696_S1024x3_0_326 : ∀ a, (![0, 326] : Fin 2 → Nat) a + S1024x3.size a ≤ S1024x696.size a
  slices_S1024x136_o0_42_S1024x1 : S1024x136.Slices ![0, 42] S1024x1
  inb_S1024x696_S1024x2_0_329 : ∀ a, (![0, 329] : Fin 2 → Nat) a + S1024x2.size a ≤ S1024x696.size a
  slices_S1024x136_o0_43_S1024x1 : S1024x136.Slices ![0, 43] S1024x1
  inb_S1024x696_S1024x1_0_331 : ∀ a, (![0, 331] : Fin 2 → Nat) a + S1024x1.size a ≤ S1024x696.size a
  slices_S1024x136_o0_45_S1024x1 : S1024x136.Slices ![0, 45] S1024x1
  inb_S1024x696_S1024x12_0_332 : ∀ a, (![0, 332] : Fin 2 → Nat) a + S1024x12.size a ≤ S1024x696.size a
  slices_S1024x136_o0_46_S1024x1 : S1024x136.Slices ![0, 46] S1024x1
  inb_S1024x696_S1024x11_0_344 : ∀ a, (![0, 344] : Fin 2 → Nat) a + S1024x11.size a ≤ S1024x696.size a
  slices_S1024x136_o0_47_S1024x1 : S1024x136.Slices ![0, 47] S1024x1
  inb_S1024x696_S1024x10_0_355 : ∀ a, (![0, 355] : Fin 2 → Nat) a + S1024x10.size a ≤ S1024x696.size a
  slices_S1024x136_o0_48_S1024x1 : S1024x136.Slices ![0, 48] S1024x1
  inb_S1024x696_S1024x9_0_365 : ∀ a, (![0, 365] : Fin 2 → Nat) a + S1024x9.size a ≤ S1024x696.size a
  slices_S1024x136_o0_49_S1024x1 : S1024x136.Slices ![0, 49] S1024x1
  inb_S1024x696_S1024x8_0_374 : ∀ a, (![0, 374] : Fin 2 → Nat) a + S1024x8.size a ≤ S1024x696.size a
  slices_S1024x136_o0_50_S1024x1 : S1024x136.Slices ![0, 50] S1024x1
  inb_S1024x696_S1024x7_0_382 : ∀ a, (![0, 382] : Fin 2 → Nat) a + S1024x7.size a ≤ S1024x696.size a
  slices_S1024x136_o0_51_S1024x1 : S1024x136.Slices ![0, 51] S1024x1
  inb_S1024x696_S1024x6_0_389 : ∀ a, (![0, 389] : Fin 2 → Nat) a + S1024x6.size a ≤ S1024x696.size a
  slices_S1024x136_o0_52_S1024x1 : S1024x136.Slices ![0, 52] S1024x1
  inb_S1024x696_S1024x5_0_395 : ∀ a, (![0, 395] : Fin 2 → Nat) a + S1024x5.size a ≤ S1024x696.size a
  slices_S1024x136_o0_53_S1024x1 : S1024x136.Slices ![0, 53] S1024x1
  inb_S1024x696_S1024x4_0_400 : ∀ a, (![0, 400] : Fin 2 → Nat) a + S1024x4.size a ≤ S1024x696.size a
  slices_S1024x136_o0_54_S1024x1 : S1024x136.Slices ![0, 54] S1024x1
  inb_S1024x696_S1024x3_0_404 : ∀ a, (![0, 404] : Fin 2 → Nat) a + S1024x3.size a ≤ S1024x696.size a
  slices_S1024x136_o0_55_S1024x1 : S1024x136.Slices ![0, 55] S1024x1
  inb_S1024x696_S1024x2_0_407 : ∀ a, (![0, 407] : Fin 2 → Nat) a + S1024x2.size a ≤ S1024x696.size a
  slices_S1024x136_o0_56_S1024x1 : S1024x136.Slices ![0, 56] S1024x1
  inb_S1024x696_S1024x1_0_409 : ∀ a, (![0, 409] : Fin 2 → Nat) a + S1024x1.size a ≤ S1024x696.size a
  slices_S1024x136_o0_58_S1024x1 : S1024x136.Slices ![0, 58] S1024x1
  inb_S1024x696_S1024x11_0_410 : ∀ a, (![0, 410] : Fin 2 → Nat) a + S1024x11.size a ≤ S1024x696.size a
  slices_S1024x136_o0_59_S1024x1 : S1024x136.Slices ![0, 59] S1024x1
  inb_S1024x696_S1024x10_0_421 : ∀ a, (![0, 421] : Fin 2 → Nat) a + S1024x10.size a ≤ S1024x696.size a
  slices_S1024x136_o0_60_S1024x1 : S1024x136.Slices ![0, 60] S1024x1
  inb_S1024x696_S1024x9_0_431 : ∀ a, (![0, 431] : Fin 2 → Nat) a + S1024x9.size a ≤ S1024x696.size a
  slices_S1024x136_o0_61_S1024x1 : S1024x136.Slices ![0, 61] S1024x1
  inb_S1024x696_S1024x8_0_440 : ∀ a, (![0, 440] : Fin 2 → Nat) a + S1024x8.size a ≤ S1024x696.size a
  slices_S1024x136_o0_62_S1024x1 : S1024x136.Slices ![0, 62] S1024x1
  inb_S1024x696_S1024x7_0_448 : ∀ a, (![0, 448] : Fin 2 → Nat) a + S1024x7.size a ≤ S1024x696.size a
  slices_S1024x136_o0_63_S1024x1 : S1024x136.Slices ![0, 63] S1024x1
  inb_S1024x696_S1024x6_0_455 : ∀ a, (![0, 455] : Fin 2 → Nat) a + S1024x6.size a ≤ S1024x696.size a
  slices_S1024x136_o0_64_S1024x1 : S1024x136.Slices ![0, 64] S1024x1
  inb_S1024x696_S1024x5_0_461 : ∀ a, (![0, 461] : Fin 2 → Nat) a + S1024x5.size a ≤ S1024x696.size a
  slices_S1024x136_o0_65_S1024x1 : S1024x136.Slices ![0, 65] S1024x1
  inb_S1024x696_S1024x4_0_466 : ∀ a, (![0, 466] : Fin 2 → Nat) a + S1024x4.size a ≤ S1024x696.size a
  slices_S1024x136_o0_66_S1024x1 : S1024x136.Slices ![0, 66] S1024x1
  inb_S1024x696_S1024x3_0_470 : ∀ a, (![0, 470] : Fin 2 → Nat) a + S1024x3.size a ≤ S1024x696.size a
  slices_S1024x136_o0_67_S1024x1 : S1024x136.Slices ![0, 67] S1024x1
  inb_S1024x696_S1024x2_0_473 : ∀ a, (![0, 473] : Fin 2 → Nat) a + S1024x2.size a ≤ S1024x696.size a
  slices_S1024x136_o0_68_S1024x1 : S1024x136.Slices ![0, 68] S1024x1
  inb_S1024x696_S1024x1_0_475 : ∀ a, (![0, 475] : Fin 2 → Nat) a + S1024x1.size a ≤ S1024x696.size a
  slices_S1024x136_o0_70_S1024x1 : S1024x136.Slices ![0, 70] S1024x1
  inb_S1024x696_S1024x10_0_476 : ∀ a, (![0, 476] : Fin 2 → Nat) a + S1024x10.size a ≤ S1024x696.size a
  slices_S1024x136_o0_71_S1024x1 : S1024x136.Slices ![0, 71] S1024x1
  inb_S1024x696_S1024x9_0_486 : ∀ a, (![0, 486] : Fin 2 → Nat) a + S1024x9.size a ≤ S1024x696.size a
  slices_S1024x136_o0_72_S1024x1 : S1024x136.Slices ![0, 72] S1024x1
  inb_S1024x696_S1024x8_0_495 : ∀ a, (![0, 495] : Fin 2 → Nat) a + S1024x8.size a ≤ S1024x696.size a
  slices_S1024x136_o0_73_S1024x1 : S1024x136.Slices ![0, 73] S1024x1
  inb_S1024x696_S1024x7_0_503 : ∀ a, (![0, 503] : Fin 2 → Nat) a + S1024x7.size a ≤ S1024x696.size a
  slices_S1024x136_o0_74_S1024x1 : S1024x136.Slices ![0, 74] S1024x1
  inb_S1024x696_S1024x6_0_510 : ∀ a, (![0, 510] : Fin 2 → Nat) a + S1024x6.size a ≤ S1024x696.size a
  slices_S1024x136_o0_75_S1024x1 : S1024x136.Slices ![0, 75] S1024x1
  inb_S1024x696_S1024x5_0_516 : ∀ a, (![0, 516] : Fin 2 → Nat) a + S1024x5.size a ≤ S1024x696.size a
  slices_S1024x136_o0_76_S1024x1 : S1024x136.Slices ![0, 76] S1024x1
  inb_S1024x696_S1024x4_0_521 : ∀ a, (![0, 521] : Fin 2 → Nat) a + S1024x4.size a ≤ S1024x696.size a
  slices_S1024x136_o0_77_S1024x1 : S1024x136.Slices ![0, 77] S1024x1
  inb_S1024x696_S1024x3_0_525 : ∀ a, (![0, 525] : Fin 2 → Nat) a + S1024x3.size a ≤ S1024x696.size a
  slices_S1024x136_o0_78_S1024x1 : S1024x136.Slices ![0, 78] S1024x1
  inb_S1024x696_S1024x2_0_528 : ∀ a, (![0, 528] : Fin 2 → Nat) a + S1024x2.size a ≤ S1024x696.size a
  slices_S1024x136_o0_79_S1024x1 : S1024x136.Slices ![0, 79] S1024x1
  inb_S1024x696_S1024x1_0_530 : ∀ a, (![0, 530] : Fin 2 → Nat) a + S1024x1.size a ≤ S1024x696.size a
  slices_S1024x136_o0_81_S1024x1 : S1024x136.Slices ![0, 81] S1024x1
  inb_S1024x696_S1024x9_0_531 : ∀ a, (![0, 531] : Fin 2 → Nat) a + S1024x9.size a ≤ S1024x696.size a
  slices_S1024x136_o0_82_S1024x1 : S1024x136.Slices ![0, 82] S1024x1
  inb_S1024x696_S1024x8_0_540 : ∀ a, (![0, 540] : Fin 2 → Nat) a + S1024x8.size a ≤ S1024x696.size a
  slices_S1024x136_o0_83_S1024x1 : S1024x136.Slices ![0, 83] S1024x1
  inb_S1024x696_S1024x7_0_548 : ∀ a, (![0, 548] : Fin 2 → Nat) a + S1024x7.size a ≤ S1024x696.size a
  slices_S1024x136_o0_84_S1024x1 : S1024x136.Slices ![0, 84] S1024x1
  inb_S1024x696_S1024x6_0_555 : ∀ a, (![0, 555] : Fin 2 → Nat) a + S1024x6.size a ≤ S1024x696.size a
  slices_S1024x136_o0_85_S1024x1 : S1024x136.Slices ![0, 85] S1024x1
  inb_S1024x696_S1024x5_0_561 : ∀ a, (![0, 561] : Fin 2 → Nat) a + S1024x5.size a ≤ S1024x696.size a
  slices_S1024x136_o0_86_S1024x1 : S1024x136.Slices ![0, 86] S1024x1
  inb_S1024x696_S1024x4_0_566 : ∀ a, (![0, 566] : Fin 2 → Nat) a + S1024x4.size a ≤ S1024x696.size a
  slices_S1024x136_o0_87_S1024x1 : S1024x136.Slices ![0, 87] S1024x1
  inb_S1024x696_S1024x3_0_570 : ∀ a, (![0, 570] : Fin 2 → Nat) a + S1024x3.size a ≤ S1024x696.size a
  slices_S1024x136_o0_88_S1024x1 : S1024x136.Slices ![0, 88] S1024x1
  inb_S1024x696_S1024x2_0_573 : ∀ a, (![0, 573] : Fin 2 → Nat) a + S1024x2.size a ≤ S1024x696.size a
  slices_S1024x136_o0_89_S1024x1 : S1024x136.Slices ![0, 89] S1024x1
  inb_S1024x696_S1024x1_0_575 : ∀ a, (![0, 575] : Fin 2 → Nat) a + S1024x1.size a ≤ S1024x696.size a
  slices_S1024x136_o0_91_S1024x1 : S1024x136.Slices ![0, 91] S1024x1
  inb_S1024x696_S1024x8_0_576 : ∀ a, (![0, 576] : Fin 2 → Nat) a + S1024x8.size a ≤ S1024x696.size a
  slices_S1024x136_o0_92_S1024x1 : S1024x136.Slices ![0, 92] S1024x1
  inb_S1024x696_S1024x7_0_584 : ∀ a, (![0, 584] : Fin 2 → Nat) a + S1024x7.size a ≤ S1024x696.size a
  slices_S1024x136_o0_93_S1024x1 : S1024x136.Slices ![0, 93] S1024x1
  inb_S1024x696_S1024x6_0_591 : ∀ a, (![0, 591] : Fin 2 → Nat) a + S1024x6.size a ≤ S1024x696.size a
  slices_S1024x136_o0_94_S1024x1 : S1024x136.Slices ![0, 94] S1024x1
  inb_S1024x696_S1024x5_0_597 : ∀ a, (![0, 597] : Fin 2 → Nat) a + S1024x5.size a ≤ S1024x696.size a
  slices_S1024x136_o0_95_S1024x1 : S1024x136.Slices ![0, 95] S1024x1
  inb_S1024x696_S1024x4_0_602 : ∀ a, (![0, 602] : Fin 2 → Nat) a + S1024x4.size a ≤ S1024x696.size a
  slices_S1024x136_o0_96_S1024x1 : S1024x136.Slices ![0, 96] S1024x1
  inb_S1024x696_S1024x3_0_606 : ∀ a, (![0, 606] : Fin 2 → Nat) a + S1024x3.size a ≤ S1024x696.size a
  slices_S1024x136_o0_97_S1024x1 : S1024x136.Slices ![0, 97] S1024x1
  inb_S1024x696_S1024x2_0_609 : ∀ a, (![0, 609] : Fin 2 → Nat) a + S1024x2.size a ≤ S1024x696.size a
  slices_S1024x136_o0_98_S1024x1 : S1024x136.Slices ![0, 98] S1024x1
  inb_S1024x696_S1024x1_0_611 : ∀ a, (![0, 611] : Fin 2 → Nat) a + S1024x1.size a ≤ S1024x696.size a
  slices_S1024x136_o0_100_S1024x1 : S1024x136.Slices ![0, 100] S1024x1
  inb_S1024x696_S1024x7_0_612 : ∀ a, (![0, 612] : Fin 2 → Nat) a + S1024x7.size a ≤ S1024x696.size a
  slices_S1024x136_o0_101_S1024x1 : S1024x136.Slices ![0, 101] S1024x1
  inb_S1024x696_S1024x6_0_619 : ∀ a, (![0, 619] : Fin 2 → Nat) a + S1024x6.size a ≤ S1024x696.size a
  slices_S1024x136_o0_102_S1024x1 : S1024x136.Slices ![0, 102] S1024x1
  inb_S1024x696_S1024x5_0_625 : ∀ a, (![0, 625] : Fin 2 → Nat) a + S1024x5.size a ≤ S1024x696.size a
  slices_S1024x136_o0_103_S1024x1 : S1024x136.Slices ![0, 103] S1024x1
  inb_S1024x696_S1024x4_0_630 : ∀ a, (![0, 630] : Fin 2 → Nat) a + S1024x4.size a ≤ S1024x696.size a
  slices_S1024x136_o0_104_S1024x1 : S1024x136.Slices ![0, 104] S1024x1
  inb_S1024x696_S1024x3_0_634 : ∀ a, (![0, 634] : Fin 2 → Nat) a + S1024x3.size a ≤ S1024x696.size a
  slices_S1024x136_o0_105_S1024x1 : S1024x136.Slices ![0, 105] S1024x1
  inb_S1024x696_S1024x2_0_637 : ∀ a, (![0, 637] : Fin 2 → Nat) a + S1024x2.size a ≤ S1024x696.size a
  slices_S1024x136_o0_106_S1024x1 : S1024x136.Slices ![0, 106] S1024x1
  inb_S1024x696_S1024x1_0_639 : ∀ a, (![0, 639] : Fin 2 → Nat) a + S1024x1.size a ≤ S1024x696.size a
  slices_S1024x136_o0_108_S1024x1 : S1024x136.Slices ![0, 108] S1024x1
  inb_S1024x696_S1024x6_0_640 : ∀ a, (![0, 640] : Fin 2 → Nat) a + S1024x6.size a ≤ S1024x696.size a
  slices_S1024x136_o0_109_S1024x1 : S1024x136.Slices ![0, 109] S1024x1
  inb_S1024x696_S1024x5_0_646 : ∀ a, (![0, 646] : Fin 2 → Nat) a + S1024x5.size a ≤ S1024x696.size a
  slices_S1024x136_o0_110_S1024x1 : S1024x136.Slices ![0, 110] S1024x1
  inb_S1024x696_S1024x4_0_651 : ∀ a, (![0, 651] : Fin 2 → Nat) a + S1024x4.size a ≤ S1024x696.size a
  slices_S1024x136_o0_111_S1024x1 : S1024x136.Slices ![0, 111] S1024x1
  inb_S1024x696_S1024x3_0_655 : ∀ a, (![0, 655] : Fin 2 → Nat) a + S1024x3.size a ≤ S1024x696.size a
  slices_S1024x136_o0_112_S1024x1 : S1024x136.Slices ![0, 112] S1024x1
  inb_S1024x696_S1024x2_0_658 : ∀ a, (![0, 658] : Fin 2 → Nat) a + S1024x2.size a ≤ S1024x696.size a
  slices_S1024x136_o0_113_S1024x1 : S1024x136.Slices ![0, 113] S1024x1
  inb_S1024x696_S1024x1_0_660 : ∀ a, (![0, 660] : Fin 2 → Nat) a + S1024x1.size a ≤ S1024x696.size a
  slices_S1024x136_o0_115_S1024x1 : S1024x136.Slices ![0, 115] S1024x1
  inb_S1024x696_S1024x5_0_661 : ∀ a, (![0, 661] : Fin 2 → Nat) a + S1024x5.size a ≤ S1024x696.size a
  slices_S1024x136_o0_116_S1024x1 : S1024x136.Slices ![0, 116] S1024x1
  inb_S1024x696_S1024x4_0_666 : ∀ a, (![0, 666] : Fin 2 → Nat) a + S1024x4.size a ≤ S1024x696.size a
  slices_S1024x136_o0_117_S1024x1 : S1024x136.Slices ![0, 117] S1024x1
  inb_S1024x696_S1024x3_0_670 : ∀ a, (![0, 670] : Fin 2 → Nat) a + S1024x3.size a ≤ S1024x696.size a
  slices_S1024x136_o0_118_S1024x1 : S1024x136.Slices ![0, 118] S1024x1
  inb_S1024x696_S1024x2_0_673 : ∀ a, (![0, 673] : Fin 2 → Nat) a + S1024x2.size a ≤ S1024x696.size a
  slices_S1024x136_o0_119_S1024x1 : S1024x136.Slices ![0, 119] S1024x1
  inb_S1024x696_S1024x1_0_675 : ∀ a, (![0, 675] : Fin 2 → Nat) a + S1024x1.size a ≤ S1024x696.size a
  slices_S1024x136_o0_121_S1024x1 : S1024x136.Slices ![0, 121] S1024x1
  inb_S1024x696_S1024x4_0_676 : ∀ a, (![0, 676] : Fin 2 → Nat) a + S1024x4.size a ≤ S1024x696.size a
  slices_S1024x136_o0_122_S1024x1 : S1024x136.Slices ![0, 122] S1024x1
  inb_S1024x696_S1024x3_0_680 : ∀ a, (![0, 680] : Fin 2 → Nat) a + S1024x3.size a ≤ S1024x696.size a
  slices_S1024x136_o0_123_S1024x1 : S1024x136.Slices ![0, 123] S1024x1
  inb_S1024x696_S1024x2_0_683 : ∀ a, (![0, 683] : Fin 2 → Nat) a + S1024x2.size a ≤ S1024x696.size a
  slices_S1024x136_o0_124_S1024x1 : S1024x136.Slices ![0, 124] S1024x1
  inb_S1024x696_S1024x1_0_685 : ∀ a, (![0, 685] : Fin 2 → Nat) a + S1024x1.size a ≤ S1024x696.size a
  slices_S1024x136_o0_126_S1024x1 : S1024x136.Slices ![0, 126] S1024x1
  inb_S1024x696_S1024x3_0_686 : ∀ a, (![0, 686] : Fin 2 → Nat) a + S1024x3.size a ≤ S1024x696.size a
  slices_S1024x136_o0_127_S1024x1 : S1024x136.Slices ![0, 127] S1024x1
  inb_S1024x696_S1024x2_0_689 : ∀ a, (![0, 689] : Fin 2 → Nat) a + S1024x2.size a ≤ S1024x696.size a
  slices_S1024x136_o0_128_S1024x1 : S1024x136.Slices ![0, 128] S1024x1
  inb_S1024x696_S1024x1_0_691 : ∀ a, (![0, 691] : Fin 2 → Nat) a + S1024x1.size a ≤ S1024x696.size a
  slices_S1024x136_o0_130_S1024x1 : S1024x136.Slices ![0, 130] S1024x1
  inb_S1024x696_S1024x2_0_692 : ∀ a, (![0, 692] : Fin 2 → Nat) a + S1024x2.size a ≤ S1024x696.size a
  slices_S1024x136_o0_131_S1024x1 : S1024x136.Slices ![0, 131] S1024x1
  inb_S1024x696_S1024x1_0_694 : ∀ a, (![0, 694] : Fin 2 → Nat) a + S1024x1.size a ≤ S1024x696.size a
  slices_S1024x136_o0_133_S1024x1 : S1024x136.Slices ![0, 133] S1024x1
  inb_S1024x696_S1024x1_0_695 : ∀ a, (![0, 695] : Fin 2 → Nat) a + S1024x1.size a ≤ S1024x696.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S65536x16.size a
  hwx0_0 : ∀ i : grid0.Coords, EltTy.bits .f32 = 32 ∨ (Rect.block (s := S65536x16) S1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S65536x16.size a
  hwx0_1 : ∀ i : grid0.Coords, EltTy.bits .f32 = 32 ∨ (Rect.block (s := S65536x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x696.size a ≤ S65536x696.size a
  hwx0_2 : ∀ i : grid0.Coords, EltTy.bits .f32 = 32 ∨ (Rect.block (s := S65536x696) S1024x696.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x696.size a ≤ S65536x696.size a
  hwx0_3 : ∀ i : grid0.Coords, EltTy.bits .f32 = 32 ∨ (Rect.block (s := S65536x696) S1024x696.size (cc0_transform_3 i) (hinb0_3 i)).WholeWords (EltTy.packing .f32)

variable [Facts₀]

abbrev win0_0 : Pipeline.Window sig grid0 :=
  Pipeline.Window.ofSpec (Memref.whole main_arg0) S1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x696.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x696.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x16 : Shape := ⟨2, ![65536, 16]⟩
abbrev S120 : Shape := ⟨1, ![120]⟩
abbrev S560 : Shape := ⟨1, ![560]⟩
abbrev S_ : Shape := ⟨0, ![]⟩
abbrev S120x1 : Shape := ⟨2, ![120, 1]⟩
abbrev S65536x120 : Shape := ⟨2, ![65536, 120]⟩
abbrev S65536x136 : Shape := ⟨2, ![65536, 136]⟩
abbrev S560x1 : Shape := ⟨2, ![560, 1]⟩
abbrev S65536x560 : Shape := ⟨2, ![65536, 560]⟩
abbrev S65536x696 : Shape := ⟨2, ![65536, 696]⟩

abbrev nBuf : Space → Nat
  | .hbm => 120
  | .vmem => 0
  | .smem => 0
  | _ => 0

abbrev bufTy : (tb : Table) → Fin (tcTables nBuf tb) → BufTy
  | .hbm, ⟨0, _⟩ => ⟨S65536x16, .f32⟩
  | .hbm, ⟨1, _⟩ => ⟨S65536x16, .f32⟩
  | .hbm, ⟨2, _⟩ => ⟨S120, .i32⟩
  | .hbm, ⟨3, _⟩ => ⟨S120, .i1⟩
  | .hbm, ⟨4, _⟩ => ⟨S120, .i1⟩
  | .hbm, ⟨5, _⟩ => ⟨S120, .i32⟩
  | .hbm, ⟨6, _⟩ => ⟨S120, .i1⟩
  | .hbm, ⟨7, _⟩ => ⟨S120, .i1⟩
  | .hbm, ⟨8, _⟩ => ⟨S560, .i32⟩
  | .hbm, ⟨9, _⟩ => ⟨S560, .i1⟩
  | .hbm, ⟨10, _⟩ => ⟨S560, .i1⟩
  | .hbm, ⟨11, _⟩ => ⟨S560, .i32⟩
  | .hbm, ⟨12, _⟩ => ⟨S560, .i1⟩
  | .hbm, ⟨13, _⟩ => ⟨S560, .i1⟩
  | .hbm, ⟨14, _⟩ => ⟨S_, .i32⟩
  | .hbm, ⟨15, _⟩ => ⟨S120, .i32⟩
  | .hbm, ⟨16, _⟩ => ⟨S120, .i32⟩
  | .hbm, ⟨17, _⟩ => ⟨S120, .i32⟩
  | .hbm, ⟨18, _⟩ => ⟨S120x1, .i32⟩
  | .hbm, ⟨19, _⟩ => ⟨S65536x120, .f32⟩
  | .hbm, ⟨20, _⟩ => ⟨S_, .i32⟩
  | .hbm, ⟨21, _⟩ => ⟨S120, .i32⟩
  | .hbm, ⟨22, _⟩ => ⟨S120, .i32⟩
  | .hbm, ⟨23, _⟩ => ⟨S120, .i32⟩
  | .hbm, ⟨24, _⟩ => ⟨S120x1, .i32⟩
  | .hbm, ⟨25, _⟩ => ⟨S65536x120, .f32⟩
  | .hbm, ⟨26, _⟩ => ⟨S_, .i32⟩
  | .hbm, ⟨27, _⟩ => ⟨S120, .i32⟩
  | .hbm, ⟨28, _⟩ => ⟨S120, .i32⟩
  | .hbm, ⟨29, _⟩ => ⟨S120, .i32⟩
  | .hbm, ⟨30, _⟩ => ⟨S120x1, .i32⟩
  | .hbm, ⟨31, _⟩ => ⟨S65536x120, .f32⟩
  | .hbm, ⟨32, _⟩ => ⟨S_, .i32⟩
  | .hbm, ⟨33, _⟩ => ⟨S120, .i32⟩
  | .hbm, ⟨34, _⟩ => ⟨S120, .i32⟩
  | .hbm, ⟨35, _⟩ => ⟨S120, .i32⟩
  | .hbm, ⟨36, _⟩ => ⟨S120x1, .i32⟩
  | .hbm, ⟨37, _⟩ => ⟨S65536x120, .f32⟩
  | .hbm, ⟨38, _⟩ => ⟨S65536x120, .f32⟩
  | .hbm, ⟨39, _⟩ => ⟨S_, .f32⟩
  | .hbm, ⟨40, _⟩ => ⟨S65536x120, .f32⟩
  | .hbm, ⟨41, _⟩ => ⟨S65536x120, .f32⟩
  | .hbm, ⟨42, _⟩ => ⟨S65536x120, .f32⟩
  | .hbm, ⟨43, _⟩ => ⟨S65536x120, .f32⟩
  | .hbm, ⟨44, _⟩ => ⟨S_, .f32⟩
  | .hbm, ⟨45, _⟩ => ⟨S65536x120, .f32⟩
  | .hbm, ⟨46, _⟩ => ⟨S65536x120, .f32⟩
  | .hbm, ⟨47, _⟩ => ⟨S65536x120, .f32⟩
  | .hbm, ⟨48, _⟩ => ⟨S65536x120, .f32⟩
  | .hbm, ⟨49, _⟩ => ⟨S_, .f32⟩
  | .hbm, ⟨50, _⟩ => ⟨S65536x120, .f32⟩
  | .hbm, ⟨51, _⟩ => ⟨S65536x120, .f32⟩
  | .hbm, ⟨52, _⟩ => ⟨S65536x120, .f32⟩
  | .hbm, ⟨53, _⟩ => ⟨S65536x120, .f32⟩
  | .hbm, ⟨54, _⟩ => ⟨S_, .f32⟩
  | .hbm, ⟨55, _⟩ => ⟨S65536x120, .f32⟩
  | .hbm, ⟨56, _⟩ => ⟨S65536x120, .f32⟩
  | .hbm, ⟨57, _⟩ => ⟨S65536x120, .f32⟩
  | .hbm, ⟨58, _⟩ => ⟨S65536x120, .i1⟩
  | .hbm, ⟨59, _⟩ => ⟨S65536x120, .i1⟩
  | .hbm, ⟨60, _⟩ => ⟨S65536x120, .i1⟩
  | .hbm, ⟨61, _⟩ => ⟨S65536x120, .i1⟩
  | .hbm, ⟨62, _⟩ => ⟨S65536x120, .i1⟩
  | .hbm, ⟨63, _⟩ => ⟨S65536x120, .f32⟩
  | .hbm, ⟨64, _⟩ => ⟨S65536x120, .f32⟩
  | .hbm, ⟨65, _⟩ => ⟨S65536x136, .f32⟩
  | .hbm, ⟨66, _⟩ => ⟨S65536x136, .f32⟩
  | .hbm, ⟨67, _⟩ => ⟨S_, .i32⟩
  | .hbm, ⟨68, _⟩ => ⟨S560, .i32⟩
  | .hbm, ⟨69, _⟩ => ⟨S560, .i32⟩
  | .hbm, ⟨70, _⟩ => ⟨S560, .i32⟩
  | .hbm, ⟨71, _⟩ => ⟨S560x1, .i32⟩
  | .hbm, ⟨72, _⟩ => ⟨S65536x560, .f32⟩
  | .hbm, ⟨73, _⟩ => ⟨S_, .i32⟩
  | .hbm, ⟨74, _⟩ => ⟨S560, .i32⟩
  | .hbm, ⟨75, _⟩ => ⟨S560, .i32⟩
  | .hbm, ⟨76, _⟩ => ⟨S560, .i32⟩
  | .hbm, ⟨77, _⟩ => ⟨S560x1, .i32⟩
  | .hbm, ⟨78, _⟩ => ⟨S65536x560, .f32⟩
  | .hbm, ⟨79, _⟩ => ⟨S_, .i32⟩
  | .hbm, ⟨80, _⟩ => ⟨S560, .i32⟩
  | .hbm, ⟨81, _⟩ => ⟨S560, .i32⟩
  | .hbm, ⟨82, _⟩ => ⟨S560, .i32⟩
  | .hbm, ⟨83, _⟩ => ⟨S560x1, .i32⟩
  | .hbm, ⟨84, _⟩ => ⟨S65536x560, .f32⟩
  | .hbm, ⟨85, _⟩ => ⟨S_, .i32⟩
  | .hbm, ⟨86, _⟩ => ⟨S560, .i32⟩
  | .hbm, ⟨87, _⟩ => ⟨S560, .i32⟩
  | .hbm, ⟨88, _⟩ => ⟨S560, .i32⟩
  | .hbm, ⟨89, _⟩ => ⟨S560x1, .i32⟩
  | .hbm, ⟨90, _⟩ => ⟨S65536x560, .f32⟩
  | .hbm, ⟨91, _⟩ => ⟨S65536x560, .f32⟩
  | .hbm, ⟨92, _⟩ => ⟨S_, .f32⟩
  | .hbm, ⟨93, _⟩ => ⟨S65536x560, .f32⟩
  | .hbm, ⟨94, _⟩ => ⟨S65536x560, .f32⟩
  | .hbm, ⟨95, _⟩ => ⟨S65536x560, .f32⟩
  | .hbm, ⟨96, _⟩ => ⟨S65536x560, .f32⟩
  | .hbm, ⟨97, _⟩ => ⟨S_, .f32⟩
  | .hbm, ⟨98, _⟩ => ⟨S65536x560, .f32⟩
  | .hbm, ⟨99, _⟩ => ⟨S65536x560, .f32⟩
  | .hbm, ⟨100, _⟩ => ⟨S65536x560, .f32⟩
  | .hbm, ⟨101, _⟩ => ⟨S65536x560, .f32⟩
  | .hbm, ⟨102, _⟩ => ⟨S_, .f32⟩
  | .hbm, ⟨103, _⟩ => ⟨S65536x560, .f32⟩
  | .hbm, ⟨104, _⟩ => ⟨S65536x560, .f32⟩
  | .hbm, ⟨105, _⟩ => ⟨S65536x560, .f32⟩
  | .hbm, ⟨106, _⟩ => ⟨S65536x560, .f32⟩
  | .hbm, ⟨107, _⟩ => ⟨S_, .f32⟩
  | .hbm, ⟨108, _⟩ => ⟨S65536x560, .f32⟩
  | .hbm, ⟨109, _⟩ => ⟨S65536x560, .f32⟩
  | .hbm, ⟨110, _⟩ => ⟨S65536x560, .f32⟩
  | .hbm, ⟨111, _⟩ => ⟨S65536x560, .i1⟩
  | .hbm, ⟨112, _⟩ => ⟨S65536x560, .i1⟩
  | .hbm, ⟨113, _⟩ => ⟨S65536x560, .i1⟩
  | .hbm, ⟨114, _⟩ => ⟨S65536x560, .i1⟩
  | .hbm, ⟨115, _⟩ => ⟨S65536x560, .i1⟩
  | .hbm, ⟨116, _⟩ => ⟨S65536x560, .f32⟩
  | .hbm, ⟨117, _⟩ => ⟨S65536x560, .f32⟩
  | .hbm, ⟨118, _⟩ => ⟨S65536x696, .f32⟩
  | .hbm, ⟨119, _⟩ => ⟨S65536x696, .f32⟩
  | _, _ => ⟨S65536x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_c_7 : Ref sig .tc := ⟨.hbm, 10, rfl⟩
abbrev main_c_8 : Ref sig .tc := ⟨.hbm, 11, rfl⟩
abbrev main_c_9 : Ref sig .tc := ⟨.hbm, 12, rfl⟩
abbrev main_c_10 : Ref sig .tc := ⟨.hbm, 13, rfl⟩
abbrev main_c_11 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c_12 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_13 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_15 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_16 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_17 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_18 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_19 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_20 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_21 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_22 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_23 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_24 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_25 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩

abbrev nD : Nat := 1
abbrev τ : Topo := Topo.v7x

variable {F : FTy → Type} [FloatOps F]

class Facts₀ : Prop where
  bcast_S_S120 : S_.BroadcastsInDim S120 (![] : Fin 0 → Fin S120.rank)
  bcast_S120_S120x1_0 : S120.BroadcastsInDim S120x1 (![0] : Fin 1 → Fin S120x1.rank)
  bcast_S_S65536x120 : S_.BroadcastsInDim S65536x120 (![] : Fin 0 → Fin S65536x120.rank)
  concatenates_S65536x16_S65536x120_S65536x136_d1 : Shape.Concatenates [S65536x16, S65536x120] S65536x136 1
  bcast_S_S560 : S_.BroadcastsInDim S560 (![] : Fin 0 → Fin S560.rank)
  bcast_S560_S560x1_0 : S560.BroadcastsInDim S560x1 (![0] : Fin 1 → Fin S560x1.rank)
  bcast_S_S65536x560 : S_.BroadcastsInDim S65536x560 (![] : Fin 0 → Fin S65536x560.rank)
  concatenates_S65536x136_S65536x560_S65536x696_d1 : Shape.Concatenates [S65536x136, S65536x560] S65536x696 1
  gather_S65536x16_S120x1_S65536x120_0_1_n_n_1_1_655361_wf : GatherDims.WF S65536x16 S120x1 S65536x120 [0] [1] [] [1] [] 1 ![65536, 1]
  gather_S65536x136_S560x1_S65536x560_0_1_n_n_1_1_655361_wf : GatherDims.WF S65536x136 S560x1 S65536x560 [0] [1] [] [1] [] 1 ![65536, 1]

variable [Facts₀]

def gather_S65536x16_S120x1_S65536x120_0_1_n_n_1_1_655361 : GatherDims S65536x16 S120x1 S65536x120 where
  offsetDims := [0]
  collapsedSliceDims := [1]
  operandBatchingDims := []
  startIndicesBatchingDims := []
  startIndexMap := [1]
  indexVectorDim := 1
  sliceSizes := ![65536, 1]
  wf := gather_S65536x16_S120x1_S65536x120_0_1_n_n_1_1_655361_wf
def gather_S65536x136_S560x1_S65536x560_0_1_n_n_1_1_655361 : GatherDims S65536x136 S560x1 S65536x560 where
  offsetDims := [0]
  collapsedSliceDims := [1]
  operandBatchingDims := []
  startIndicesBatchingDims := []
  startIndexMap := [1]
  indexVectorDim := 1
  sliceSizes := ![65536, 1]
  wf := gather_S65536x136_S560x1_S65536x560_0_1_n_n_1_1_655361_wf

class Facts : Prop extends Facts₀ where

variable [Facts]
-- ==== Proof.IntervalMin.lean ====
/-
  The interval minimum under the admissible order K_{α,β}, and the subset table built from it.

  An interval is a pair (l, u).  Its two reference points are  K_c(l, u) = l + c · (u − l)  for the
  two constants α and β.  Of a left interval (ll, lu) and a right interval (rl, ru) the RIGHT one is
  taken when  K_α(right) < K_α(left),  or the two K_α points are equal and  K_β(right) ≤ K_β(left);
  otherwise the left one is kept.

  A row of the result lists the minima over all subsets of at most three of sixteen columns, in the
  order: the sixteen singletons, then the 120 pairs, then the 560 triples.  A pair's entry is the
  minimum of two singletons, a triple's entry the minimum of two pairs; WHICH two is given by index
  tables (`pairLeft`, `pairRight` into the sixteen columns; `tripleLeft`, `tripleRight` into the 136
  entries of the first two levels).  The tables are parameters here: nothing in this file depends on
  their contents.

  Everything is stated for an arbitrary float instance: the two programs apply the same operations
  in the same order, so no law of arithmetic is used anywhere.
-/
import Idealize.ShloMosaic.PureOps

noncomputable section

namespace Cert.IntervalMin

open Idealize.ShloMosaic

variable {F : FTy → Type} [FloatOps F]

/-- The constant α of the order, as the 32-bit pattern both programs carry. -/
def alpha : F .f32 := FloatOps.ofBits .f32 0x3ECCCCCD#32
/-- The constant β of the order's tie-break, as the 32-bit pattern both programs carry. -/
def beta : F .f32 := FloatOps.ofBits .f32 0x3F19999A#32

/-- The reference point  l + c · (u − l)  of the interval (l, u). -/
def point (c l u : F .f32) : F .f32 := FloatOps.addf l (FloatOps.mulf c (FloatOps.subf u l))

/-- The bit that says the right interval is taken. -/
def takeRight (ll lu rl ru : F .f32) : BitVec 1 :=
  IntOp.ori (FloatOps.cmpf .olt (point alpha rl ru) (point alpha ll lu))
    (IntOp.andi (FloatOps.cmpf .oeq (point alpha rl ru) (point alpha ll lu))
      (FloatOps.cmpf .ole (point beta rl ru) (point beta ll lu)))

/-- The lower end of the minimum of the two intervals. -/
def minLo (ll lu rl ru : F .f32) : F .f32 := Scalar.select (takeRight ll lu rl ru) rl ll
/-- The upper end of the minimum of the two intervals. -/
def minHi (ll lu rl ru : F .f32) : F .f32 := Scalar.select (takeRight ll lu rl ru) ru lu

section Rows

variable (pairLeft pairRight : Fin 120 → Fin 16) (tripleLeft tripleRight : Fin 560 → Fin 136)

/-- Entry `q` of the first two levels, lower ends: a column itself below sixteen, else the pair's minimum. -/
def lo2 (a b : Fin 16 → F .f32) (q : Fin 136) : F .f32 :=
  if h : q.val < 16 then a ⟨q.val, h⟩
  else minLo (a (pairLeft ⟨q.val - 16, by omega⟩)) (b (pairLeft ⟨q.val - 16, by omega⟩))
    (a (pairRight ⟨q.val - 16, by omega⟩)) (b (pairRight ⟨q.val - 16, by omega⟩))

/-- Entry `q` of the first two levels, upper ends. -/
def hi2 (a b : Fin 16 → F .f32) (q : Fin 136) : F .f32 :=
  if h : q.val < 16 then b ⟨q.val, h⟩
  else minHi (a (pairLeft ⟨q.val - 16, by omega⟩)) (b (pairLeft ⟨q.val - 16, by omega⟩))
    (a (pairRight ⟨q.val - 16, by omega⟩)) (b (pairRight ⟨q.val - 16, by omega⟩))

/-- Entry `q` of the whole row, lower ends: the first two levels below 136, else the triple's minimum,
    taken of two entries of the first two levels. -/
def lo3 (a b : Fin 16 → F .f32) (q : Fin 696) : F .f32 :=
  if h : q.val < 136 then lo2 pairLeft pairRight a b ⟨q.val, h⟩
  else minLo (lo2 pairLeft pairRight a b (tripleLeft ⟨q.val - 136, by omega⟩))
    (hi2 pairLeft pairRight a b (tripleLeft ⟨q.val - 136, by omega⟩))
    (lo2 pairLeft pairRight a b (tripleRight ⟨q.val - 136, by omega⟩))
    (hi2 pairLeft pairRight a b (tripleRight ⟨q.val - 136, by omega⟩))

/-- Entry `q` of the whole row, upper ends. -/
def hi3 (a b : Fin 16 → F .f32) (q : Fin 696) : F .f32 :=
  if h : q.val < 136 then hi2 pairLeft pairRight a b ⟨q.val, h⟩
  else minHi (lo2 pairLeft pairRight a b (tripleLeft ⟨q.val - 136, by omega⟩))
    (hi2 pairLeft pairRight a b (tripleLeft ⟨q.val - 136, by omega⟩))
    (lo2 pairLeft pairRight a b (tripleRight ⟨q.val - 136, by omega⟩))
    (hi2 pairLeft pairRight a b (tripleRight ⟨q.val - 136, by omega⟩))

end Rows

end Cert.IntervalMin

end
-- ==== Proof.Tables.lean ====
/-
  The index tables of the subset enumeration, read off the reference program's four literal index
  constants, and the result as ONE function of the two argument arrays.

  A start index is a 32-bit word; a gather reads it as a signed number and clamps it into the operand's
  columns, so a table entry is that clamped column.  `pairLeft q`, `pairRight q` are the two singleton
  columns whose minimum is pair number `q`; `tripleLeft q`, `tripleRight q` the two entries of the first
  two levels (sixteen singletons then 120 pairs) whose minimum is triple number `q`.

  `specLo R xl xu` and `specHi R xl xu` are the lower and upper ends of every subset's minimum, for
  arrays of `R` rows: entry (r, q) depends only on row r of the two arguments.  The same definition
  serves one block of rows (R = 1024) and the whole arrays (R = 65536).
-/
import proofs.«163430_j66640712564831_1_alg».proof.ReferenceIdeal
import proofs.«163430_j66640712564831_1_alg».proof.Proof.IntervalMin
import Idealize.ShloMosaic.Lib.ValueIdx

noncomputable section

namespace Cert.Tables

open Idealize.ShloMosaic Idealize.ShloMosaic.ValueIdx Cert.IntervalMin

/-- A 32-bit start index read signed and clamped into the columns `0 … K − 1`. -/
def clampCol (K : Nat) (hK : 0 < K) (v : BitVec 32) : Fin K := ⟨min v.toInt.toNat (K - 1), by omega⟩

/-- The left singleton of pair `q`. -/
def pairLeft (q : Fin 120) : Fin 16 := clampCol 16 (by decide) (Cert.ReferenceIdeal.lit0 q)
/-- The right singleton of pair `q`. -/
def pairRight (q : Fin 120) : Fin 16 := clampCol 16 (by decide) (Cert.ReferenceIdeal.lit1 q)
/-- The left entry (among the first 136) of triple `q`. -/
def tripleLeft (q : Fin 560) : Fin 136 := clampCol 136 (by decide) (Cert.ReferenceIdeal.lit2 q)
/-- The right entry (among the first 136) of triple `q`. -/
def tripleRight (q : Fin 560) : Fin 136 := clampCol 136 (by decide) (Cert.ReferenceIdeal.lit3 q)

variable {F : FTy → Type} [FloatOps F]

/-- Row `r` of an array of sixteen columns. -/
def rowOf {R : Nat} (x : (⟨2, ![R, 16]⟩ : Shape).Idx → F .f32) (r : Fin R) : Fin 16 → F .f32 := fun j => x (ix2 r j)

/-- The first two levels (136 entries a row), lower ends, of arrays of `R` rows. -/
def midLo (R : Nat) (xl xu : (⟨2, ![R, 16]⟩ : Shape).Idx → F .f32) : (⟨2, ![R, 136]⟩ : Shape).Idx → F .f32 :=
  fun y => lo2 pairLeft pairRight (rowOf xl ⟨(y 0).val, idx2_lt0 y⟩) (rowOf xu ⟨(y 0).val, idx2_lt0 y⟩) ⟨(y 1).val, idx2_lt1 y⟩
/-- The first two levels, upper ends. -/
def midHi (R : Nat) (xl xu : (⟨2, ![R, 16]⟩ : Shape).Idx → F .f32) : (⟨2, ![R, 136]⟩ : Shape).Idx → F .f32 :=
  fun y => hi2 pairLeft pairRight (rowOf xl ⟨(y 0).val, idx2_lt0 y⟩) (rowOf xu ⟨(y 0).val, idx2_lt0 y⟩) ⟨(y 1).val, idx2_lt1 y⟩

/-- The whole result (696 entries a row), lower ends, of arrays of `R` rows. -/
def specLo (R : Nat) (xl xu : (⟨2, ![R, 16]⟩ : Shape).Idx → F .f32) : (⟨2, ![R, 696]⟩ : Shape).Idx → F .f32 :=
  fun y => lo3 pairLeft pairRight tripleLeft tripleRight (rowOf xl ⟨(y 0).val, idx2_lt0 y⟩) (rowOf xu ⟨(y 0).val, idx2_lt0 y⟩)
    ⟨(y 1).val, idx2_lt1 y⟩
/-- The whole result, upper ends. -/
def specHi (R : Nat) (xl xu : (⟨2, ![R, 16]⟩ : Shape).Idx → F .f32) : (⟨2, ![R, 696]⟩ : Shape).Idx → F .f32 :=
  fun y => hi3 pairLeft pairRight tripleLeft tripleRight (rowOf xl ⟨(y 0).val, idx2_lt0 y⟩) (rowOf xu ⟨(y 0).val, idx2_lt0 y⟩)
    ⟨(y 1).val, idx2_lt1 y⟩

end Cert.Tables

end
-- ==== Proof.BlockRead.lean ====
/-
  Reading a block of 1024 rows at a row and a column.

  A value the kernel body stores is built from its loaded blocks by pointwise arithmetic and three
  re-layings: a slice of columns  o … o + w − 1  of a block, a column broadcast to w columns, and the
  identity change of shape.  Read at row p and column q these are the operand at (p, o + q), at
  (p, 0), and at (p, q).  Pointwise operations read pointwise, for every float instance.

  A store into the columns  c … c + w − 1  of an output block places local entry (p, q) at (p, c + q),
  so what the specification asks of that store is its row's entry number  c + q.
-/
import Idealize.ShloMosaic.PureOps
import Idealize.ShloMosaic.Lib.ValueIdx
import Idealize.ShloMosaic.Lib.Pipeline.Value
import proofs.«163430_j66640712564831_1_alg».proof.Proof.Tables

noncomputable section

namespace Cert.BlockRead

open Idealize.ShloMosaic Idealize.ShloMosaic.ValueIdx Cert.IntervalMin Cert.Tables

section Layout
variable {α : Type}

/-- A slice of columns  o … o + w − 1  stays inside the operand's W columns. -/
theorem slice_cols_lt {R W w o : ℕ} (h : (⟨2, ![R, W]⟩ : Shape).Slices ![0, o] ⟨2, ![R, w]⟩) (q : Fin w) : o + q.val < W := by
  have h1 := h.2 (1 : Fin 2)
  have hq := q.isLt
  have e : (![0, o] : Fin 2 → ℕ) 1 + (⟨2, ![R, w]⟩ : Shape).size ((1 : Fin 2).cast h.1.symm) ≤ (⟨2, ![R, W]⟩ : Shape).size 1 := h1
  have e' : o + w ≤ W := e
  omega

/-- A slice of columns read at (p, q) is the operand at (p, o + q). -/
theorem slice_cols {R W w o : ℕ} (v : (⟨2, ![R, W]⟩ : Shape).Idx → α)
    (h : (⟨2, ![R, W]⟩ : Shape).Slices ![0, o] ⟨2, ![R, w]⟩) (p : Fin R) (q : Fin w) :
    extractStridedSlice ⟨2, ![R, w]⟩ ![0, o] v h (ix2 p q) = v (ix2 p ⟨o + q.val, slice_cols_lt h q⟩) :=
  extractStridedSlice_apply _ v h _ _ fun a => by
    match a with
    | ⟨0, _⟩ => show p.val = 0 + p.val; omega
    | ⟨1, _⟩ => rfl

/-- One column broadcast to w columns reads that column's entry of row p everywhere. -/
theorem bcast_col {R w : ℕ} (u : (⟨2, ![R, 1]⟩ : Shape).Idx → α)
    (h : (⟨2, ![R, 1]⟩ : Shape).Broadcasts ⟨2, ![R, w]⟩) (p : Fin R) (q : Fin w) :
    broadcastTo ⟨2, ![R, w]⟩ u h (ix2 p q) = u (ix2 p 0) :=
  broadcastTo_apply u h _ _ fun a => by
    match a with
    | ⟨0, _⟩ =>
      show p.val = if R = 1 then 0 else p.val
      split
      · have := p.isLt; omega
      · rfl
    | ⟨1, _⟩ => rfl

end Layout

section Pointwise
variable {F : FTy → Type} [FloatOps F] {s : Shape} {φ : FTy} {w : Nat}

theorem addf_at (a b : FVec F s φ) (i : s.Idx) : addf a b i = FloatOps.addf (a i) (b i) := rfl
theorem subf_at (a b : FVec F s φ) (i : s.Idx) : subf a b i = FloatOps.subf (a i) (b i) := rfl
theorem mulf_at (a b : FVec F s φ) (i : s.Idx) : mulf a b i = FloatOps.mulf (a i) (b i) := rfl
theorem andi_at (a b : IVec s w) (i : s.Idx) : andi a b i = IntOp.andi (a i) (b i) := rfl
theorem ori_at (a b : IVec s w) (i : s.Idx) : ori a b i = IntOp.ori (a i) (b i) := rfl

end Pointwise

section Spec
variable {F : FTy → Type} [FloatOps F]

/-- Local entry (p, q) of a store into columns  c … c + w − 1  is entry  c + q  of row p. -/
theorem emb_row {c w : ℕ} (inb : ∀ a, (![0, c] : Fin 2 → ℕ) a + (![1024, w] : Fin 2 → ℕ) a ≤ (⟨2, ![1024, 696]⟩ : Shape).size a)
    (p : Fin 1024) (q : Fin w) :
    (((Rect.unit (s := ⟨2, ![1024, 696]⟩) ![0, c] ![1024, w] inb).emb (ix2 p q)) 0).val = p.val := by
  show 0 + 1 * p.val = p.val; omega

theorem emb_col {c w : ℕ} (inb : ∀ a, (![0, c] : Fin 2 → ℕ) a + (![1024, w] : Fin 2 → ℕ) a ≤ (⟨2, ![1024, 696]⟩ : Shape).size a)
    (p : Fin 1024) (q : Fin w) :
    (((Rect.unit (s := ⟨2, ![1024, 696]⟩) ![0, c] ![1024, w] inb).emb (ix2 p q)) 1).val = c + q.val := by
  show c + 1 * q.val = c + q.val; omega

end Spec

end Cert.BlockRead

end
-- ==== Proof.PieceLemmas.lean ====
/-
  What the specification asks of one store into an output block, for the two kinds of store.

  The first store copies the 136 entries of the first two levels.  Every other store fills the columns
  c … c + w − 1  (c ≥ 136) with the minima of w triples: local entry (p, q) is the minimum of the
  first-two-level entries  a + q  (left) and  b  (right) of row p.  That is the specification's entry
  c + q  of row p as soon as the triple tables say so:  tripleLeft (c + q − 136) = a + q  and
  tripleRight (c + q − 136) = b  for every q < w.
-/
import proofs.«163430_j66640712564831_1_alg».proof.Proof.BlockRead

noncomputable section

namespace Cert.BlockRead

open Idealize.ShloMosaic Idealize.ShloMosaic.ValueIdx Cert.IntervalMin Cert.Tables

variable {F : FTy → Type} [FloatOps F]

/-- Row `p`'s entry of the first two levels, read off the block of them. -/
theorem midLo_at (x0 x1 : (⟨2, ![1024, 16]⟩ : Shape).Idx → F .f32) (p : Fin 1024) (k : Fin 136) :
    midLo 1024 x0 x1 (ix2 p k) = lo2 pairLeft pairRight (rowOf x0 p) (rowOf x1 p) k := rfl
theorem midHi_at (x0 x1 : (⟨2, ![1024, 16]⟩ : Shape).Idx → F .f32) (p : Fin 1024) (k : Fin 136) :
    midHi 1024 x0 x1 (ix2 p k) = hi2 pairLeft pairRight (rowOf x0 p) (rowOf x1 p) k := rfl

/-- The specification at the place a store puts its local entry (p, q): entry  c + q  of row p. -/
theorem specLo_emb {c w : ℕ} (inb : ∀ a, (![0, c] : Fin 2 → ℕ) a + (![1024, w] : Fin 2 → ℕ) a ≤ (⟨2, ![1024, 696]⟩ : Shape).size a)
    (x0 x1 : (⟨2, ![1024, 16]⟩ : Shape).Idx → F .f32) (p : Fin 1024) (q : Fin w) (h : c + q.val < 696) :
    specLo 1024 x0 x1 ((Rect.unit (s := ⟨2, ![1024, 696]⟩) ![0, c] ![1024, w] inb).emb (ix2 p q))
      = lo3 pairLeft pairRight tripleLeft tripleRight (rowOf x0 p) (rowOf x1 p) ⟨c + q.val, h⟩ := by
  unfold specLo
  have e0 : (⟨(((Rect.unit (s := ⟨2, ![1024, 696]⟩) ![0, c] ![1024, w] inb).emb (ix2 p q)) 0).val,
      idx2_lt0 _⟩ : Fin 1024) = p := Fin.ext (emb_row inb p q)
  have e1 : (⟨(((Rect.unit (s := ⟨2, ![1024, 696]⟩) ![0, c] ![1024, w] inb).emb (ix2 p q)) 1).val,
      idx2_lt1 _⟩ : Fin 696) = ⟨c + q.val, h⟩ := Fin.ext (emb_col inb p q)
  rw [e0, e1]

theorem specHi_emb {c w : ℕ} (inb : ∀ a, (![0, c] : Fin 2 → ℕ) a + (![1024, w] : Fin 2 → ℕ) a ≤ (⟨2, ![1024, 696]⟩ : Shape).size a)
    (x0 x1 : (⟨2, ![1024, 16]⟩ : Shape).Idx → F .f32) (p : Fin 1024) (q : Fin w) (h : c + q.val < 696) :
    specHi 1024 x0 x1 ((Rect.unit (s := ⟨2, ![1024, 696]⟩) ![0, c] ![1024, w] inb).emb (ix2 p q))
      = hi3 pairLeft pairRight tripleLeft tripleRight (rowOf x0 p) (rowOf x1 p) ⟨c + q.val, h⟩ := by
  unfold specHi
  have e0 : (⟨(((Rect.unit (s := ⟨2, ![1024, 696]⟩) ![0, c] ![1024, w] inb).emb (ix2 p q)) 0).val,
      idx2_lt0 _⟩ : Fin 1024) = p := Fin.ext (emb_row inb p q)
  have e1 : (⟨(((Rect.unit (s := ⟨2, ![1024, 696]⟩) ![0, c] ![1024, w] inb).emb (ix2 p q)) 1).val,
      idx2_lt1 _⟩ : Fin 696) = ⟨c + q.val, h⟩ := Fin.ext (emb_col inb p q)
  rw [e0, e1]

/-- A triple's entry of a row, lower end: the minimum of the two first-two-level entries the tables name. -/
theorem lo3_triple (a b : Fin 16 → F .f32) (n : ℕ) (hn : n < 696) (h : 136 ≤ n) :
    lo3 pairLeft pairRight tripleLeft tripleRight a b ⟨n, hn⟩
      = minLo (lo2 pairLeft pairRight a b (tripleLeft ⟨n - 136, by omega⟩)) (hi2 pairLeft pairRight a b (tripleLeft ⟨n - 136, by omega⟩))
          (lo2 pairLeft pairRight a b (tripleRight ⟨n - 136, by omega⟩)) (hi2 pairLeft pairRight a b (tripleRight ⟨n - 136, by omega⟩)) := by
  unfold lo3
  rw [dif_neg (by show ¬ n < 136; omega)]

theorem hi3_triple (a b : Fin 16 → F .f32) (n : ℕ) (hn : n < 696) (h : 136 ≤ n) :
    hi3 pairLeft pairRight tripleLeft tripleRight a b ⟨n, hn⟩
      = minHi (lo2 pairLeft pairRight a b (tripleLeft ⟨n - 136, by omega⟩)) (hi2 pairLeft pairRight a b (tripleLeft ⟨n - 136, by omega⟩))
          (lo2 pairLeft pairRight a b (tripleRight ⟨n - 136, by omega⟩)) (hi2 pairLeft pairRight a b (tripleRight ⟨n - 136, by omega⟩)) := by
  unfold hi3
  rw [dif_neg (by show ¬ n < 136; omega)]

/-- A store of w triples' lower ends into the columns  c … c + w − 1. -/
theorem triple_piece_lo {c w a b : ℕ}
    (inb : ∀ d, (![0, c] : Fin 2 → ℕ) d + (![1024, w] : Fin 2 → ℕ) d ≤ (⟨2, ![1024, 696]⟩ : Shape).size d)
    (x0 x1 : (⟨2, ![1024, 16]⟩ : Shape).Idx → F .f32) (Sl Su : (⟨2, ![1024, 136]⟩ : Shape).Idx → F .f32)
    (hSl : Sl = midLo 1024 x0 x1) (hSu : Su = midHi 1024 x0 x1)
    (hc : 136 ≤ c) (hcw : c + w ≤ 696) (ha : a + w ≤ 136) (hb : b < 136)
    (hT : ∀ q : Fin w, (tripleLeft ⟨c + q.val - 136, by omega⟩).val = a + q.val
      ∧ (tripleRight ⟨c + q.val - 136, by omega⟩).val = b)
    (pay : (⟨2, ![1024, w]⟩ : Shape).Idx → F .f32)
    (hpay : ∀ (p : Fin 1024) (q : Fin w), pay (ix2 p q)
      = minLo (Sl (ix2 p ⟨a + q.val, by omega⟩)) (Su (ix2 p ⟨a + q.val, by omega⟩)) (Sl (ix2 p ⟨b, hb⟩)) (Su (ix2 p ⟨b, hb⟩))) :
    ∀ x : (⟨2, ![1024, w]⟩ : Shape).Idx,
      pay x = specLo 1024 x0 x1 ((Rect.unit (s := ⟨2, ![1024, 696]⟩) ![0, c] ![1024, w] inb).emb x) := by
  intro x
  obtain ⟨p, q, rfl⟩ : ∃ (p : Fin 1024) (q : Fin w), x = ix2 p q := ⟨x 0, x 1, eq_ix2 x⟩
  have hq := q.isLt
  rw [hpay, specLo_emb inb x0 x1 p q (by omega), lo3_triple _ _ _ _ (by omega), hSl, hSu]
  have eL : tripleLeft ⟨c + q.val - 136, by omega⟩ = ⟨a + q.val, by omega⟩ := Fin.ext (hT q).1
  have eR : tripleRight ⟨c + q.val - 136, by omega⟩ = ⟨b, hb⟩ := Fin.ext (hT q).2
  rw [eL, eR]
  rfl

/-- A store of w triples' upper ends into the columns  c … c + w − 1. -/
theorem triple_piece_hi {c w a b : ℕ}
    (inb : ∀ d, (![0, c] : Fin 2 → ℕ) d + (![1024, w] : Fin 2 → ℕ) d ≤ (⟨2, ![1024, 696]⟩ : Shape).size d)
    (x0 x1 : (⟨2, ![1024, 16]⟩ : Shape).Idx → F .f32) (Sl Su : (⟨2, ![1024, 136]⟩ : Shape).Idx → F .f32)
    (hSl : Sl = midLo 1024 x0 x1) (hSu : Su = midHi 1024 x0 x1)
    (hc : 136 ≤ c) (hcw : c + w ≤ 696) (ha : a + w ≤ 136) (hb : b < 136)
    (hT : ∀ q : Fin w, (tripleLeft ⟨c + q.val - 136, by omega⟩).val = a + q.val
      ∧ (tripleRight ⟨c + q.val - 136, by omega⟩).val = b)
    (pay : (⟨2, ![1024, w]⟩ : Shape).Idx → F .f32)
    (hpay : ∀ (p : Fin 1024) (q : Fin w), pay (ix2 p q)
      = minHi (Sl (ix2 p ⟨a + q.val, by omega⟩)) (Su (ix2 p ⟨a + q.val, by omega⟩)) (Sl (ix2 p ⟨b, hb⟩)) (Su (ix2 p ⟨b, hb⟩))) :
    ∀ x : (⟨2, ![1024, w]⟩ : Shape).Idx,
      pay x = specHi 1024 x0 x1 ((Rect.unit (s := ⟨2, ![1024, 696]⟩) ![0, c] ![1024, w] inb).emb x) := by
  intro x
  obtain ⟨p, q, rfl⟩ : ∃ (p : Fin 1024) (q : Fin w), x = ix2 p q := ⟨x 0, x 1, eq_ix2 x⟩
  have hq := q.isLt
  rw [hpay, specHi_emb inb x0 x1 p q (by omega), hi3_triple _ _ _ _ (by omega), hSl, hSu]
  have eL : tripleLeft ⟨c + q.val - 136, by omega⟩ = ⟨a + q.val, by omega⟩ := Fin.ext (hT q).1
  have eR : tripleRight ⟨c + q.val - 136, by omega⟩ = ⟨b, hb⟩ := Fin.ext (hT q).2
  rw [eL, eR]
  rfl

/-- The store of the first two levels' lower ends into the columns 0 … 135. -/
theorem copy_piece_lo
    (inb : ∀ d, (![0, 0] : Fin 2 → ℕ) d + (![1024, 136] : Fin 2 → ℕ) d ≤ (⟨2, ![1024, 696]⟩ : Shape).size d)
    (x0 x1 : (⟨2, ![1024, 16]⟩ : Shape).Idx → F .f32) (Sl : (⟨2, ![1024, 136]⟩ : Shape).Idx → F .f32)
    (hSl : Sl = midLo 1024 x0 x1) :
    ∀ x : (⟨2, ![1024, 136]⟩ : Shape).Idx,
      Sl x = specLo 1024 x0 x1 ((Rect.unit (s := ⟨2, ![1024, 696]⟩) ![0, 0] ![1024, 136] inb).emb x) := by
  intro x
  obtain ⟨p, q, rfl⟩ : ∃ (p : Fin 1024) (q : Fin 136), x = ix2 p q := ⟨x 0, x 1, eq_ix2 x⟩
  have hq := q.isLt
  rw [specLo_emb inb x0 x1 p q (by omega), hSl, midLo_at]
  unfold lo3
  rw [dif_pos (by show 0 + q.val < 136; omega)]
  congr 1
  exact Fin.ext (by show q.val = 0 + q.val; omega)

/-- The store of the first two levels' upper ends into the columns 0 … 135. -/
theorem copy_piece_hi
    (inb : ∀ d, (![0, 0] : Fin 2 → ℕ) d + (![1024, 136] : Fin 2 → ℕ) d ≤ (⟨2, ![1024, 696]⟩ : Shape).size d)
    (x0 x1 : (⟨2, ![1024, 16]⟩ : Shape).Idx → F .f32) (Su : (⟨2, ![1024, 136]⟩ : Shape).Idx → F .f32)
    (hSu : Su = midHi 1024 x0 x1) :
    ∀ x : (⟨2, ![1024, 136]⟩ : Shape).Idx,
      Su x = specHi 1024 x0 x1 ((Rect.unit (s := ⟨2, ![1024, 696]⟩) ![0, 0] ![1024, 136] inb).emb x) := by
  intro x
  obtain ⟨p, q, rfl⟩ : ∃ (p : Fin 1024) (q : Fin 136), x = ix2 p q := ⟨x 0, x 1, eq_ix2 x⟩
  have hq := q.isLt
  rw [specHi_emb inb x0 x1 p q (by omega), hSu, midHi_at]
  unfold hi3
  rw [dif_pos (by show 0 + q.val < 136; omega)]
  congr 1
  exact Fin.ext (by show q.val = 0 + q.val; omega)

end Cert.BlockRead

end
-- ==== Proof.OpenStored.lean ====
/-
  Opening a stored value's definition.

  Each value the kernel body stores is a composition of named sub-terms: the store's arithmetic, cut
  into named pieces, over the body's earlier named values.  `open_stored` replaces every such name in
  the goal by its definition, repeatedly, down to the loaded blocks and the two read-backs of the
  scratch blocks, which stay named: those are the variables a store's value is a function OF.
-/
import Lean

namespace Cert.BlockRead

open Lean Elab Tactic Meta

/-- Is `n` the name of a store's arithmetic piece, or of one of the body's named values other than a
    read-back of a scratch block (a name `v…`) or a scratch block's list of stores (`HS…`)? -/
def isStoredName (n : Name) : Bool :=
  match n with
  | .str pre last =>
    last.startsWith "k0_pay" ||
      ((pre.components.getLast? == some `sl) && (last.startsWith "r_" || last.startsWith "cst"))
  | _ => false

/-- Unfold, in the goal, every name `isStoredName` accepts, until none is left. -/
elab "open_stored" : tactic => do
  let g ← getMainGoal
  let mut t ← instantiateMVars (← g.getType)
  for _ in [0:24] do
    let t' ← Meta.deltaExpand t isStoredName
    if t' == t then break
    t := t'
  replaceMainGoal [← g.replaceTargetDefEq t]

end Cert.BlockRead
-- ==== Proof.PieceTactics.lean ====
/-
  Reading a stored value at a row and a column, and matching one store against the specification.

  `stored_at_index` opens the stored value's definition down to the loaded blocks and the scratch
  read-backs, then reads every operation at the index: pointwise operations pointwise, a slice of
  columns at the shifted column, a broadcast column at its row, an identity change of shape as nothing.
  What is left is the scalar arithmetic of the interval minimum on four entries of those blocks.

  `store_of_triples_lo` / `_hi` take the hypothesis that names a store of an output block (the k-th
  entry of the body's list of stores) and show that the store holds what the specification asks of its
  columns: reading the stored value at (p, q) exhibits it as the minimum of the first-two-level entries
  a + q and b of row p, which fixes a and b; the triple tables then say those are the two entries the
  triples  c + q − 136  are made of, by evaluating the tables on the store's few columns.
  `store_of_copy_lo` / `_hi` do the same for the one store that copies the first two levels.
-/
import proofs.«163430_j66640712564831_1_alg».proof.Proof.PieceLemmas
import proofs.«163430_j66640712564831_1_alg».proof.Proof.OpenStored

namespace Cert.BlockRead

open Idealize.ShloMosaic Idealize.ShloMosaic.ValueIdx Cert.IntervalMin

macro "stored_at_index" : tactic => `(tactic| (
  open_stored
  dsimp only
  simp only [select_apply, cmpf_apply, broadcast_apply, addf_at, subf_at, mulf_at, andi_at, ori_at, slice_cols, bcast_col,
    shapeCast_self]))

macro "store_of_triples_lo" hpc:ident hSl:ident hSu:ident : tactic => `(tactic| (
  simp only [List.getElem?_cons_succ, List.getElem?_cons_zero, Option.some.injEq] at $hpc:ident
  subst $hpc:ident
  dsimp only
  refine triple_piece_lo (a := ?_) (b := ?_) _ _ _ _ _ $hSl $hSu ?_ ?_ ?_ ?_ ?_ _ ?_
  rotate_right
  · intro p q
    first | (have hq0 : q = 0 := Fin.fin_one_eq_zero q; subst hq0) | skip
    stored_at_index
    unfold minLo takeRight point alpha beta
    with_reducible rfl
  all_goals decide +kernel))

macro "store_of_triples_hi" hpc:ident hSl:ident hSu:ident : tactic => `(tactic| (
  simp only [List.getElem?_cons_succ, List.getElem?_cons_zero, Option.some.injEq] at $hpc:ident
  subst $hpc:ident
  dsimp only
  refine triple_piece_hi (a := ?_) (b := ?_) _ _ _ _ _ $hSl $hSu ?_ ?_ ?_ ?_ ?_ _ ?_
  rotate_right
  · intro p q
    first | (have hq0 : q = 0 := Fin.fin_one_eq_zero q; subst hq0) | skip
    stored_at_index
    unfold minHi takeRight point alpha beta
    with_reducible rfl
  all_goals decide +kernel))

macro "store_of_copy_lo" hpc:ident hSl:ident : tactic => `(tactic| (
  simp only [List.getElem?_cons_succ, List.getElem?_cons_zero, Option.some.injEq] at $hpc:ident
  subst $hpc:ident
  dsimp only
  exact copy_piece_lo _ _ _ _ $hSl))

macro "store_of_copy_hi" hpc:ident hSu:ident : tactic => `(tactic| (
  simp only [List.getElem?_cons_succ, List.getElem?_cons_zero, Option.some.injEq] at $hpc:ident
  subst $hpc:ident
  dsimp only
  exact copy_piece_hi _ _ _ _ $hSu))

end Cert.BlockRead
-- ==== Proof.Scratch.lean ====
/-
  The first two levels of a block of rows, as the kernel body leaves them in its two scratch blocks.

  The body writes, per row, the sixteen singleton columns and then the 120 pairs in fifteen stores: for
  i = 0 … 14 the store of width 15 − i holds the minima of the columns i + 1 … 15 (left) with column i
  (right).  Lower ends go to the first scratch block, upper ends to the second.  Read back whole, each
  scratch block is the first two levels of the specification for the block's rows: a store into the
  columns  c … c + w − 1  places its local entry (p, q) at (p, c + q), and the pair tables say that
  entry  c + q  of a row is the minimum of exactly those two columns.
-/
import proofs.«163430_j66640712564831_1_alg».proof.Proof.Gen.KernelIdeal.Frame
import proofs.«163430_j66640712564831_1_alg».proof.Proof.PieceTactics

set_option maxRecDepth 16384

noncomputable section

namespace Cert.KernelIdeal.Block

open Cert.KernelIdeal Cert.KernelIdeal.Gen Idealize.ShloMosaic Idealize.ShloMosaic.TcCoe Idealize.ShloMosaic.ValueIdx
open Cert.IntervalMin Cert.Tables Cert.BlockRead
open Idealize.ShloMosaic.Tactic

variable {F : FTy → Type} [FloatOps F]

/-! ## The specification at the place a store into a scratch block puts an entry -/

/-- Local entry (p, q) of a store into columns  c … c + w − 1  of a scratch block sits in row p … -/
theorem scratch_emb_row {c w : ℕ} (inb : ∀ a, (![0, c] : Fin 2 → ℕ) a + (![1024, w] : Fin 2 → ℕ) a ≤ (⟨2, ![1024, 136]⟩ : Shape).size a)
    (p : Fin 1024) (q : Fin w) :
    (((Rect.unit (s := ⟨2, ![1024, 136]⟩) ![0, c] ![1024, w] inb).emb (ix2 p q)) 0).val = p.val := by
  show 0 + 1 * p.val = p.val; omega

/-- … and in column  c + q. -/
theorem scratch_emb_col {c w : ℕ} (inb : ∀ a, (![0, c] : Fin 2 → ℕ) a + (![1024, w] : Fin 2 → ℕ) a ≤ (⟨2, ![1024, 136]⟩ : Shape).size a)
    (p : Fin 1024) (q : Fin w) :
    (((Rect.unit (s := ⟨2, ![1024, 136]⟩) ![0, c] ![1024, w] inb).emb (ix2 p q)) 1).val = c + q.val := by
  show c + 1 * q.val = c + q.val; omega

/-- The first two levels' lower ends there: entry  c + q  of row p. -/
theorem midLo_emb {c w : ℕ} (inb : ∀ a, (![0, c] : Fin 2 → ℕ) a + (![1024, w] : Fin 2 → ℕ) a ≤ (⟨2, ![1024, 136]⟩ : Shape).size a)
    (x0 x1 : (⟨2, ![1024, 16]⟩ : Shape).Idx → F .f32) (p : Fin 1024) (q : Fin w) (h : c + q.val < 136) :
    midLo 1024 x0 x1 ((Rect.unit (s := ⟨2, ![1024, 136]⟩) ![0, c] ![1024, w] inb).emb (ix2 p q))
      = lo2 pairLeft pairRight (rowOf x0 p) (rowOf x1 p) ⟨c + q.val, h⟩ := by
  unfold midLo
  have e0 : (⟨(((Rect.unit (s := ⟨2, ![1024, 136]⟩) ![0, c] ![1024, w] inb).emb (ix2 p q)) 0).val,
      idx2_lt0 _⟩ : Fin 1024) = p := Fin.ext (scratch_emb_row inb p q)
  have e1 : (⟨(((Rect.unit (s := ⟨2, ![1024, 136]⟩) ![0, c] ![1024, w] inb).emb (ix2 p q)) 1).val,
      idx2_lt1 _⟩ : Fin 136) = ⟨c + q.val, h⟩ := Fin.ext (scratch_emb_col inb p q)
  rw [e0, e1]

/-- The first two levels' upper ends there. -/
theorem midHi_emb {c w : ℕ} (inb : ∀ a, (![0, c] : Fin 2 → ℕ) a + (![1024, w] : Fin 2 → ℕ) a ≤ (⟨2, ![1024, 136]⟩ : Shape).size a)
    (x0 x1 : (⟨2, ![1024, 16]⟩ : Shape).Idx → F .f32) (p : Fin 1024) (q : Fin w) (h : c + q.val < 136) :
    midHi 1024 x0 x1 ((Rect.unit (s := ⟨2, ![1024, 136]⟩) ![0, c] ![1024, w] inb).emb (ix2 p q))
      = hi2 pairLeft pairRight (rowOf x0 p) (rowOf x1 p) ⟨c + q.val, h⟩ := by
  unfold midHi
  have e0 : (⟨(((Rect.unit (s := ⟨2, ![1024, 136]⟩) ![0, c] ![1024, w] inb).emb (ix2 p q)) 0).val,
      idx2_lt0 _⟩ : Fin 1024) = p := Fin.ext (scratch_emb_row inb p q)
  have e1 : (⟨(((Rect.unit (s := ⟨2, ![1024, 136]⟩) ![0, c] ![1024, w] inb).emb (ix2 p q)) 1).val,
      idx2_lt1 _⟩ : Fin 136) = ⟨c + q.val, h⟩ := Fin.ext (scratch_emb_col inb p q)
  rw [e0, e1]

/-- A pair's entry of a row, lower end: the minimum of the two columns the pair tables name. -/
theorem lo2_pair (a b : Fin 16 → F .f32) (n : ℕ) (hn : n < 136) (h : 16 ≤ n) :
    lo2 pairLeft pairRight a b ⟨n, hn⟩
      = minLo (a (pairLeft ⟨n - 16, by omega⟩)) (b (pairLeft ⟨n - 16, by omega⟩))
          (a (pairRight ⟨n - 16, by omega⟩)) (b (pairRight ⟨n - 16, by omega⟩)) := by
  unfold lo2
  rw [dif_neg (by show ¬ n < 16; omega)]

theorem hi2_pair (a b : Fin 16 → F .f32) (n : ℕ) (hn : n < 136) (h : 16 ≤ n) :
    hi2 pairLeft pairRight a b ⟨n, hn⟩
      = minHi (a (pairLeft ⟨n - 16, by omega⟩)) (b (pairLeft ⟨n - 16, by omega⟩))
          (a (pairRight ⟨n - 16, by omega⟩)) (b (pairRight ⟨n - 16, by omega⟩)) := by
  unfold hi2
  rw [dif_neg (by show ¬ n < 16; omega)]

/-! ## What the specification asks of one store into a scratch block -/

/-- A store of w pairs' lower ends into the columns  c … c + w − 1: local entry (p, q) is the minimum of
    the columns  a + q  (left) and  b  (right) of row p, and the pair tables name exactly those. -/
theorem pair_piece_lo {c w a b : ℕ}
    (inb : ∀ d, (![0, c] : Fin 2 → ℕ) d + (![1024, w] : Fin 2 → ℕ) d ≤ (⟨2, ![1024, 136]⟩ : Shape).size d)
    (x0 x1 : (⟨2, ![1024, 16]⟩ : Shape).Idx → F .f32)
    (hc : 16 ≤ c) (hcw : c + w ≤ 136) (ha : a + w ≤ 16) (hb : b < 16)
    (hT : ∀ q : Fin w, (pairLeft ⟨c + q.val - 16, by omega⟩).val = a + q.val
      ∧ (pairRight ⟨c + q.val - 16, by omega⟩).val = b)
    (pay : (⟨2, ![1024, w]⟩ : Shape).Idx → F .f32)
    (hpay : ∀ (p : Fin 1024) (q : Fin w), pay (ix2 p q)
      = minLo (x0 (ix2 p ⟨a + q.val, by omega⟩)) (x1 (ix2 p ⟨a + q.val, by omega⟩)) (x0 (ix2 p ⟨b, hb⟩)) (x1 (ix2 p ⟨b, hb⟩))) :
    ∀ x : (⟨2, ![1024, w]⟩ : Shape).Idx,
      pay x = midLo 1024 x0 x1 ((Rect.unit (s := ⟨2, ![1024, 136]⟩) ![0, c] ![1024, w] inb).emb x) := by
  intro x
  obtain ⟨p, q, rfl⟩ : ∃ (p : Fin 1024) (q : Fin w), x = ix2 p q := ⟨x 0, x 1, eq_ix2 x⟩
  have hq := q.isLt
  rw [hpay, midLo_emb inb x0 x1 p q (by omega), lo2_pair _ _ _ _ (by omega)]
  have eL : pairLeft ⟨c + q.val - 16, by omega⟩ = ⟨a + q.val, by omega⟩ := Fin.ext (hT q).1
  have eR : pairRight ⟨c + q.val - 16, by omega⟩ = ⟨b, hb⟩ := Fin.ext (hT q).2
  rw [eL, eR]
  rfl

/-- A store of w pairs' upper ends into the columns  c … c + w − 1. -/
theorem pair_piece_hi {c w a b : ℕ}
    (inb : ∀ d, (![0, c] : Fin 2 → ℕ) d + (![1024, w] : Fin 2 → ℕ) d ≤ (⟨2, ![1024, 136]⟩ : Shape).size d)
    (x0 x1 : (⟨2, ![1024, 16]⟩ : Shape).Idx → F .f32)
    (hc : 16 ≤ c) (hcw : c + w ≤ 136) (ha : a + w ≤ 16) (hb : b < 16)
    (hT : ∀ q : Fin w, (pairLeft ⟨c + q.val - 16, by omega⟩).val = a + q.val
      ∧ (pairRight ⟨c + q.val - 16, by omega⟩).val = b)
    (pay : (⟨2, ![1024, w]⟩ : Shape).Idx → F .f32)
    (hpay : ∀ (p : Fin 1024) (q : Fin w), pay (ix2 p q)
      = minHi (x0 (ix2 p ⟨a + q.val, by omega⟩)) (x1 (ix2 p ⟨a + q.val, by omega⟩)) (x0 (ix2 p ⟨b, hb⟩)) (x1 (ix2 p ⟨b, hb⟩))) :
    ∀ x : (⟨2, ![1024, w]⟩ : Shape).Idx,
      pay x = midHi 1024 x0 x1 ((Rect.unit (s := ⟨2, ![1024, 136]⟩) ![0, c] ![1024, w] inb).emb x) := by
  intro x
  obtain ⟨p, q, rfl⟩ : ∃ (p : Fin 1024) (q : Fin w), x = ix2 p q := ⟨x 0, x 1, eq_ix2 x⟩
  have hq := q.isLt
  rw [hpay, midHi_emb inb x0 x1 p q (by omega), hi2_pair _ _ _ _ (by omega)]
  have eL : pairLeft ⟨c + q.val - 16, by omega⟩ = ⟨a + q.val, by omega⟩ := Fin.ext (hT q).1
  have eR : pairRight ⟨c + q.val - 16, by omega⟩ = ⟨b, hb⟩ := Fin.ext (hT q).2
  rw [eL, eR]
  rfl

/-- The store of the sixteen singleton columns' lower ends into the columns 0 … 15: the first argument's block. -/
theorem single_piece_lo
    (inb : ∀ d, (![0, 0] : Fin 2 → ℕ) d + (![1024, 16] : Fin 2 → ℕ) d ≤ (⟨2, ![1024, 136]⟩ : Shape).size d)
    (x0 x1 : (⟨2, ![1024, 16]⟩ : Shape).Idx → F .f32)
    (pay : (⟨2, ![1024, 16]⟩ : Shape).Idx → F .f32) (hpay : ∀ (p : Fin 1024) (q : Fin 16), pay (ix2 p q) = x0 (ix2 p q)) :
    ∀ x : (⟨2, ![1024, 16]⟩ : Shape).Idx,
      pay x = midLo 1024 x0 x1 ((Rect.unit (s := ⟨2, ![1024, 136]⟩) ![0, 0] ![1024, 16] inb).emb x) := by
  intro x
  obtain ⟨p, q, rfl⟩ : ∃ (p : Fin 1024) (q : Fin 16), x = ix2 p q := ⟨x 0, x 1, eq_ix2 x⟩
  have hq := q.isLt
  rw [hpay, midLo_emb inb x0 x1 p q (by omega)]
  unfold lo2
  rw [dif_pos (by show 0 + q.val < 16; omega)]
  show x0 (ix2 p q) = x0 (ix2 p ⟨0 + q.val, _⟩)
  congr 2
  exact Fin.ext (by show q.val = 0 + q.val; omega)

/-- The store of the sixteen singleton columns' upper ends into the columns 0 … 15: the second argument's block. -/
theorem single_piece_hi
    (inb : ∀ d, (![0, 0] : Fin 2 → ℕ) d + (![1024, 16] : Fin 2 → ℕ) d ≤ (⟨2, ![1024, 136]⟩ : Shape).size d)
    (x0 x1 : (⟨2, ![1024, 16]⟩ : Shape).Idx → F .f32)
    (pay : (⟨2, ![1024, 16]⟩ : Shape).Idx → F .f32) (hpay : ∀ (p : Fin 1024) (q : Fin 16), pay (ix2 p q) = x1 (ix2 p q)) :
    ∀ x : (⟨2, ![1024, 16]⟩ : Shape).Idx,
      pay x = midHi 1024 x0 x1 ((Rect.unit (s := ⟨2, ![1024, 136]⟩) ![0, 0] ![1024, 16] inb).emb x) := by
  intro x
  obtain ⟨p, q, rfl⟩ : ∃ (p : Fin 1024) (q : Fin 16), x = ix2 p q := ⟨x 0, x 1, eq_ix2 x⟩
  have hq := q.isLt
  rw [hpay, midHi_emb inb x0 x1 p q (by omega)]
  unfold hi2
  rw [dif_pos (by show 0 + q.val < 16; omega)]
  show x1 (ix2 p q) = x1 (ix2 p ⟨0 + q.val, _⟩)
  congr 2
  exact Fin.ext (by show q.val = 0 + q.val; omega)

/-! ## The loaded blocks -/

theorem origin2 : (![0, 0] : Fin 2 → Nat) = fun _ => 0 := funext fun a => by fin_cases a <;> rfl

/-- A whole staging block read back whole is its contents. -/
theorem load_whole (arg : Memref sig .tc .vmem S1024x16 .f32) (harg : arg.IsWhole) (x : Vec F S1024x16 .f32)
    (inb : ∀ a, (![0, 0] : Fin 2 → ℕ) a + (![1024, 16] : Fin 2 → ℕ) a ≤ S1024x16.size a) :
    View.readAt (Elt F) arg.view (Rect.unit (s := S1024x16) ![0, 0] ![1024, 16] inb).toLoadRect (harg.unread x) = x := by
  simp only [View.readAt_eq_ld, harg.read_unread]
  exact View.ld_unit_zero (S := S1024x16) origin2 _ _

/-- One store of pairs, lower ends: read the stored value at (p, q) down to entries of the two loaded blocks; what
    is left is the interval minimum of two columns, which names the columns; the tables are then decided. -/
macro "store_of_pairs_lo" x0:ident x1:ident : tactic => `(tactic| (
  refine pair_piece_lo (a := ?_) (b := ?_) _ $x0 $x1 ?_ ?_ ?_ ?_ ?_ _ ?_
  rotate_right
  · intro p q
    first | (have hq0 : q = 0 := Fin.fin_one_eq_zero q; subst hq0) | skip
    stored_at_index
    try unfold kernelRun0_A.sl.r
    simp only [load_whole]
    unfold minLo takeRight point alpha beta
    with_reducible rfl
  all_goals decide +kernel))

macro "store_of_pairs_hi" x0:ident x1:ident : tactic => `(tactic| (
  refine pair_piece_hi (a := ?_) (b := ?_) _ $x0 $x1 ?_ ?_ ?_ ?_ ?_ _ ?_
  rotate_right
  · intro p q
    first | (have hq0 : q = 0 := Fin.fin_one_eq_zero q; subst hq0) | skip
    stored_at_index
    try unfold kernelRun0_A.sl.r
    simp only [load_whole]
    unfold minHi takeRight point alpha beta
    with_reducible rfl
  all_goals decide +kernel))

/-! ## The sixteen stores into each scratch block -/

set_option maxHeartbeats 4000000 in
/-- Every store into the first scratch block holds the first two levels' lower ends at its columns. -/
theorem scratchLo_pieces (c : Dev nD) (arg1 : Memref sig .tc .vmem S1024x16 .f32) (harg1 : arg1.IsWhole) (arg2 : Memref sig .tc .vmem S1024x16 .f32) (harg2 : arg2.IsWhole) (x0 x1 : Vec F S1024x16 .f32) :
    ∀ pc ∈ kernelRun0_A.sl.HS0_16 c arg1 harg1 arg2 harg2 x0 x1, ∀ x : pc.1.shape.Idx, pc.2 x = midLo 1024 x0 x1 (pc.1.emb x) := by
  intro pc hpc
  unfold kernelRun0_A.sl.HS0_16 at hpc
  simp only [List.mem_cons, List.mem_nil_iff, or_false] at hpc
  rcases hpc with rfl | rfl | rfl | rfl | rfl | rfl | rfl | rfl | rfl | rfl | rfl | rfl | rfl | rfl | rfl | rfl
  case inr.inr.inr.inr.inr.inr.inr.inr.inr.inr.inr.inr.inr.inr.inr =>
    refine single_piece_lo inb_S1024x136_S1024x16_0_0 x0 x1 _ ?_
    intro p q
    stored_at_index
    simp only [load_whole]
  all_goals (dsimp only; store_of_pairs_lo x0 x1)

set_option maxHeartbeats 4000000 in
/-- Every store into the second scratch block holds the first two levels' upper ends at its columns. -/
theorem scratchHi_pieces (c : Dev nD) (arg1 : Memref sig .tc .vmem S1024x16 .f32) (harg1 : arg1.IsWhole) (arg2 : Memref sig .tc .vmem S1024x16 .f32) (harg2 : arg2.IsWhole) (x0 x1 : Vec F S1024x16 .f32) :
    ∀ pc ∈ kernelRun0_A.sl.HS1_16 c arg1 harg1 arg2 harg2 x0 x1, ∀ x : pc.1.shape.Idx, pc.2 x = midHi 1024 x0 x1 (pc.1.emb x) := by
  intro pc hpc
  unfold kernelRun0_A.sl.HS1_16 at hpc
  simp only [List.mem_cons, List.mem_nil_iff, or_false] at hpc
  rcases hpc with rfl | rfl | rfl | rfl | rfl | rfl | rfl | rfl | rfl | rfl | rfl | rfl | rfl | rfl | rfl | rfl
  case inr.inr.inr.inr.inr.inr.inr.inr.inr.inr.inr.inr.inr.inr.inr =>
    refine single_piece_hi inb_S1024x136_S1024x16_0_0 x0 x1 _ ?_
    intro p q
    stored_at_index
    simp only [load_whole]
  all_goals (dsimp only; store_of_pairs_hi x0 x1)

/-! ## The scratch blocks read back whole -/

/-- The whole block's rectangle reads entry j at j. -/
theorem whole136_idx (j : (Rect.unit (s := S1024x136) ![0, 0] S1024x136.size inb_S1024x136_S1024x136_0_0).shape.Idx) :
    ((Rect.unit (s := S1024x136) ![0, 0] S1024x136.size inb_S1024x136_S1024x136_0_0).toLoadRect.idx j : S1024x136.Idx) = j := by
  funext a
  apply Fin.ext
  match a with
  | ⟨0, _⟩ => show 0 + 1 * (j 0).val = (j 0).val; omega
  | ⟨1, _⟩ => show 0 + 1 * (j 1).val = (j 1).val; omega

/-- The first scratch block, read back whole after the sixteen stores, is the first two levels' lower ends of
    the block's rows. -/
theorem scratchLo_eq (c : Dev nD) (arg1 : Memref sig .tc .vmem S1024x16 .f32) (harg1 : arg1.IsWhole) (arg2 : Memref sig .tc .vmem S1024x16 .f32) (harg2 : arg2.IsWhole) (arg5 : Memref sig .tc .vmem S1024x136 .f32) (x0 x1 : Vec F S1024x16 .f32) :
    kernelRun0_A.sl.v559 c arg1 harg1 arg2 harg2 arg5 x0 x1 = midLo 1024 x0 x1 := by
  unfold kernelRun0_A.sl.v559
  rw [View.readCov_eq_canon']
  funext j
  have hcover := View.cover_of_tiledBy (kernelRun0_A.sl.HS0_16 c arg1 harg1 arg2 harg2 x0 x1) ![1024, 1] (by sl_kernel_rfl)
  show View.canon (kernelRun0_A.sl.HS0_16 c arg1 harg1 arg2 harg2 x0 x1) _ = _
  rw [View.canon_apply_of_pieces (midLo 1024 x0 x1) _ (scratchLo_pieces c arg1 harg1 arg2 harg2 x0 x1) _ (hcover _), whole136_idx]

/-- The second scratch block, read back whole, is the first two levels' upper ends of the block's rows. -/
theorem scratchHi_eq (c : Dev nD) (arg1 : Memref sig .tc .vmem S1024x16 .f32) (harg1 : arg1.IsWhole) (arg2 : Memref sig .tc .vmem S1024x16 .f32) (harg2 : arg2.IsWhole) (arg6 : Memref sig .tc .vmem S1024x136 .f32) (x0 x1 : Vec F S1024x16 .f32) :
    kernelRun0_A.sl.v561 c arg1 harg1 arg2 harg2 arg6 x0 x1 = midHi 1024 x0 x1 := by
  unfold kernelRun0_A.sl.v561
  rw [View.readCov_eq_canon']
  funext j
  have hcover := View.cover_of_tiledBy (kernelRun0_A.sl.HS1_16 c arg1 harg1 arg2 harg2 x0 x1) ![1024, 1] (by sl_kernel_rfl)
  show View.canon (kernelRun0_A.sl.HS1_16 c arg1 harg1 arg2 harg2 x0 x1) _ = _
  rw [View.canon_apply_of_pieces (midHi 1024 x0 x1) _ (scratchHi_pieces c arg1 harg1 arg2 harg2 x0 x1) _ (hcover _), whole136_idx]

end Cert.KernelIdeal.Block

end
-- ==== Proof.StoresLo.lean ====
/-
  The stores of the first output block (the lower ends), taken by their place in the body's list of
  stores (last store first), hold what the specification asks of their columns — given that the two
  scratch read-backs are the first two levels of the block's rows.

  Places 0 … 104 are the 105 stores of triples: for the pair (i, j), i < j < 15, the store fills the
  15 − j columns of the triples (i, j, j+1) … (i, j, 15) with the minima of the pairs (j, j+1) … (j, 15)
  (left, consecutive entries of the first two levels) and the pair (i, j) (right, one entry).
  Place 105 is the store the body makes first: the copy of the first two levels into columns 0 … 135.
-/
import proofs.«163430_j66640712564831_1_alg».proof.Proof.Gen.KernelIdeal.Frame
import proofs.«163430_j66640712564831_1_alg».proof.Proof.PieceTactics

set_option maxRecDepth 16384

noncomputable section

namespace Cert.KernelIdeal.Block

open Cert.KernelIdeal Cert.KernelIdeal.Gen Idealize.ShloMosaic Idealize.ShloMosaic.TcCoe Idealize.ShloMosaic.ValueIdx
open Cert.IntervalMin Cert.Tables Cert.BlockRead

variable {F : FTy → Type} [FloatOps F]

set_option maxHeartbeats 8000000 in
/-- The stores at places 0 … 104: each a store of triples' lower ends. -/
theorem storesLo_triples (c : Dev nD) (i : grid0.Coords) (arg1 : Memref sig .tc .vmem S1024x16 .f32) (harg1 : arg1.IsWhole)
    (arg2 : Memref sig .tc .vmem S1024x16 .f32) (harg2 : arg2.IsWhole) (arg3 : Memref sig .tc .vmem S1024x696 .f32) (harg3 : arg3.IsWhole)
    (arg4 : Memref sig .tc .vmem S1024x696 .f32) (harg4 : arg4.IsWhole) (arg5 : Memref sig .tc .vmem S1024x136 .f32) (harg5 : arg5.IsWhole)
    (arg6 : Memref sig .tc .vmem S1024x136 .f32) (harg6 : arg6.IsWhole) (x0 : Vec F S1024x16 .f32) (x1 : Vec F S1024x16 .f32)
    (hSl : kernelRun0_A.sl.v559 c arg1 harg1 arg2 harg2 arg5 x0 x1 = midLo 1024 x0 x1)
    (hSu : kernelRun0_A.sl.v561 c arg1 harg1 arg2 harg2 arg6 x0 x1 = midHi 1024 x0 x1) :
    ∀ k, k < 105 → ∀ pc, (kernelRun0_A c i arg1 harg1 arg2 harg2 arg3 harg3 arg4 harg4 arg5 harg5 arg6 harg6 x0 x1).1[k]? = some pc →
      ∀ x : pc.1.shape.Idx, pc.2 x = specLo 1024 x0 x1 (pc.1.emb x) := by
  intro k hk pc hpc
  unfold kernelRun0_A at hpc
  dsimp only at hpc
  interval_cases k <;> store_of_triples_lo hpc hSl hSu

/-- The store at place 105, the first the body makes: the copy of the first two levels. -/
theorem storesLo_copy (c : Dev nD) (i : grid0.Coords) (arg1 : Memref sig .tc .vmem S1024x16 .f32) (harg1 : arg1.IsWhole)
    (arg2 : Memref sig .tc .vmem S1024x16 .f32) (harg2 : arg2.IsWhole) (arg3 : Memref sig .tc .vmem S1024x696 .f32) (harg3 : arg3.IsWhole)
    (arg4 : Memref sig .tc .vmem S1024x696 .f32) (harg4 : arg4.IsWhole) (arg5 : Memref sig .tc .vmem S1024x136 .f32) (harg5 : arg5.IsWhole)
    (arg6 : Memref sig .tc .vmem S1024x136 .f32) (harg6 : arg6.IsWhole) (x0 : Vec F S1024x16 .f32) (x1 : Vec F S1024x16 .f32)
    (hSl : kernelRun0_A.sl.v559 c arg1 harg1 arg2 harg2 arg5 x0 x1 = midLo 1024 x0 x1) :
    ∀ pc, (kernelRun0_A c i arg1 harg1 arg2 harg2 arg3 harg3 arg4 harg4 arg5 harg5 arg6 harg6 x0 x1).1[105]? = some pc →
      ∀ x : pc.1.shape.Idx, pc.2 x = specLo 1024 x0 x1 (pc.1.emb x) := by
  intro pc hpc
  unfold kernelRun0_A at hpc
  dsimp only at hpc
  store_of_copy_lo hpc hSl

end Cert.KernelIdeal.Block

end
-- ==== Proof.StoresHi.lean ====
/-
  The stores of the second output block (the upper ends), taken by their place in the body's list of
  stores (last store first), hold what the specification asks of their columns — given that the two
  scratch read-backs are the first two levels of the block's rows.

  The places are those of the first output block: 0 … 104 the 105 stores of triples (for the pair
  (i, j) the upper ends of the minima of the pairs (j, j+1) … (j, 15) with the pair (i, j)), and 105 the
  copy of the first two levels' upper ends into columns 0 … 135.
-/
import proofs.«163430_j66640712564831_1_alg».proof.Proof.Gen.KernelIdeal.Frame
import proofs.«163430_j66640712564831_1_alg».proof.Proof.PieceTactics

set_option maxRecDepth 16384

noncomputable section

namespace Cert.KernelIdeal.Block

open Cert.KernelIdeal Cert.KernelIdeal.Gen Idealize.ShloMosaic Idealize.ShloMosaic.TcCoe Idealize.ShloMosaic.ValueIdx
open Cert.IntervalMin Cert.Tables Cert.BlockRead

variable {F : FTy → Type} [FloatOps F]

set_option maxHeartbeats 8000000 in
/-- The stores at places 0 … 104: each a store of triples' upper ends. -/
theorem storesHi_triples (c : Dev nD) (i : grid0.Coords) (arg1 : Memref sig .tc .vmem S1024x16 .f32) (harg1 : arg1.IsWhole)
    (arg2 : Memref sig .tc .vmem S1024x16 .f32) (harg2 : arg2.IsWhole) (arg3 : Memref sig .tc .vmem S1024x696 .f32) (harg3 : arg3.IsWhole)
    (arg4 : Memref sig .tc .vmem S1024x696 .f32) (harg4 : arg4.IsWhole) (arg5 : Memref sig .tc .vmem S1024x136 .f32) (harg5 : arg5.IsWhole)
    (arg6 : Memref sig .tc .vmem S1024x136 .f32) (harg6 : arg6.IsWhole) (x0 : Vec F S1024x16 .f32) (x1 : Vec F S1024x16 .f32)
    (hSl : kernelRun0_A.sl.v559 c arg1 harg1 arg2 harg2 arg5 x0 x1 = midLo 1024 x0 x1)
    (hSu : kernelRun0_A.sl.v561 c arg1 harg1 arg2 harg2 arg6 x0 x1 = midHi 1024 x0 x1) :
    ∀ k, k < 105 → ∀ pc, (kernelRun0_A c i arg1 harg1 arg2 harg2 arg3 harg3 arg4 harg4 arg5 harg5 arg6 harg6 x0 x1).2.1[k]? = some pc →
      ∀ x : pc.1.shape.Idx, pc.2 x = specHi 1024 x0 x1 (pc.1.emb x) := by
  intro k hk pc hpc
  unfold kernelRun0_A at hpc
  dsimp only at hpc
  interval_cases k <;> store_of_triples_hi hpc hSl hSu

/-- The store at place 105, the first the body makes: the copy of the first two levels. -/
theorem storesHi_copy (c : Dev nD) (i : grid0.Coords) (arg1 : Memref sig .tc .vmem S1024x16 .f32) (harg1 : arg1.IsWhole)
    (arg2 : Memref sig .tc .vmem S1024x16 .f32) (harg2 : arg2.IsWhole) (arg3 : Memref sig .tc .vmem S1024x696 .f32) (harg3 : arg3.IsWhole)
    (arg4 : Memref sig .tc .vmem S1024x696 .f32) (harg4 : arg4.IsWhole) (arg5 : Memref sig .tc .vmem S1024x136 .f32) (harg5 : arg5.IsWhole)
    (arg6 : Memref sig .tc .vmem S1024x136 .f32) (harg6 : arg6.IsWhole) (x0 : Vec F S1024x16 .f32) (x1 : Vec F S1024x16 .f32)
    (hSu : kernelRun0_A.sl.v561 c arg1 harg1 arg2 harg2 arg6 x0 x1 = midHi 1024 x0 x1) :
    ∀ pc, (kernelRun0_A c i arg1 harg1 arg2 harg2 arg3 harg3 arg4 harg4 arg5 harg5 arg6 harg6 x0 x1).2.1[105]? = some pc →
      ∀ x : pc.1.shape.Idx, pc.2 x = specHi 1024 x0 x1 (pc.1.emb x) := by
  intro pc hpc
  unfold kernelRun0_A at hpc
  dsimp only at hpc
  store_of_copy_hi hpc hSu

end Cert.KernelIdeal.Block

end
-- ==== Proof.KernelBlock.lean ====
/-
  One block of rows.  At a grid point the kernel body reads a block of 1024 rows of each argument and
  leaves, in each output's block, the subset minima of those rows: the lower ends in the first output,
  the upper ends in the second.

  An output block is what its 106 stores leave: the copy of the first two levels (columns 0 … 135) and
  105 stores of triples.  Each store holds the specification's entries of its columns, so the block read
  back — the stores' common function wherever a store covers, and they cover the block — is the
  specification of the block's rows.
-/
import proofs.«163430_j66640712564831_1_alg».proof.Proof.Gen.KernelIdeal.Frame
import proofs.«163430_j66640712564831_1_alg».proof.Proof.Tables
import proofs.«163430_j66640712564831_1_alg».proof.Proof.Scratch
import proofs.«163430_j66640712564831_1_alg».proof.Proof.StoresLo
import proofs.«163430_j66640712564831_1_alg».proof.Proof.StoresHi
import Idealize.ShloMosaic.Lib.Pipeline.Value

set_option maxRecDepth 16384

noncomputable section

namespace Cert.KernelIdeal.Block

open Cert.KernelIdeal Cert.KernelIdeal.Gen Idealize.ShloMosaic Idealize.ShloMosaic.TcCoe Cert.Tables

variable {F : FTy → Type} [FloatOps F]

/-- Every store of the first output block holds what the specification asks of its columns. -/
theorem storesLo (c : Dev nD) (i : grid0.Coords) (arg1 : Memref sig .tc .vmem S1024x16 .f32) (harg1 : arg1.IsWhole)
    (arg2 : Memref sig .tc .vmem S1024x16 .f32) (harg2 : arg2.IsWhole) (arg3 : Memref sig .tc .vmem S1024x696 .f32) (harg3 : arg3.IsWhole)
    (arg4 : Memref sig .tc .vmem S1024x696 .f32) (harg4 : arg4.IsWhole) (arg5 : Memref sig .tc .vmem S1024x136 .f32) (harg5 : arg5.IsWhole)
    (arg6 : Memref sig .tc .vmem S1024x136 .f32) (harg6 : arg6.IsWhole) (x0 : Vec F S1024x16 .f32) (x1 : Vec F S1024x16 .f32) :
    ∀ pc ∈ (kernelRun0_A c i arg1 harg1 arg2 harg2 arg3 harg3 arg4 harg4 arg5 harg5 arg6 harg6 x0 x1).1,
      ∀ x : pc.1.shape.Idx, pc.2 x = specLo 1024 x0 x1 (pc.1.emb x) := by
  intro pc hmem
  obtain ⟨k, hk⟩ := List.mem_iff_getElem?.mp hmem
  have hSl := scratchLo_eq c arg1 harg1 arg2 harg2 arg5 x0 x1
  have hSu := scratchHi_eq c arg1 harg1 arg2 harg2 arg6 x0 x1
  have hlt : k < 106 := by
    by_contra hge
    have hlen : (kernelRun0_A c i arg1 harg1 arg2 harg2 arg3 harg3 arg4 harg4 arg5 harg5 arg6 harg6 x0 x1).1.length = 106 := by
      unfold kernelRun0_A; rfl
    rw [List.getElem?_eq_none (by omega)] at hk
    cases hk
  by_cases h105 : k < 105
  · exact storesLo_triples c i arg1 harg1 arg2 harg2 arg3 harg3 arg4 harg4 arg5 harg5 arg6 harg6 x0 x1 hSl hSu k h105 pc hk
  · have hk105 : k = 105 := by omega
    subst hk105
    exact storesLo_copy c i arg1 harg1 arg2 harg2 arg3 harg3 arg4 harg4 arg5 harg5 arg6 harg6 x0 x1 hSl pc hk

/-- Every store of the second output block holds what the specification asks of its columns. -/
theorem storesHi (c : Dev nD) (i : grid0.Coords) (arg1 : Memref sig .tc .vmem S1024x16 .f32) (harg1 : arg1.IsWhole)
    (arg2 : Memref sig .tc .vmem S1024x16 .f32) (harg2 : arg2.IsWhole) (arg3 : Memref sig .tc .vmem S1024x696 .f32) (harg3 : arg3.IsWhole)
    (arg4 : Memref sig .tc .vmem S1024x696 .f32) (harg4 : arg4.IsWhole) (arg5 : Memref sig .tc .vmem S1024x136 .f32) (harg5 : arg5.IsWhole)
    (arg6 : Memref sig .tc .vmem S1024x136 .f32) (harg6 : arg6.IsWhole) (x0 : Vec F S1024x16 .f32) (x1 : Vec F S1024x16 .f32) :
    ∀ pc ∈ (kernelRun0_A c i arg1 harg1 arg2 harg2 arg3 harg3 arg4 harg4 arg5 harg5 arg6 harg6 x0 x1).2.1,
      ∀ x : pc.1.shape.Idx, pc.2 x = specHi 1024 x0 x1 (pc.1.emb x) := by
  intro pc hmem
  obtain ⟨k, hk⟩ := List.mem_iff_getElem?.mp hmem
  have hSl := scratchLo_eq c arg1 harg1 arg2 harg2 arg5 x0 x1
  have hSu := scratchHi_eq c arg1 harg1 arg2 harg2 arg6 x0 x1
  have hlt : k < 106 := by
    by_contra hge
    have hlen : (kernelRun0_A c i arg1 harg1 arg2 harg2 arg3 harg3 arg4 harg4 arg5 harg5 arg6 harg6 x0 x1).2.1.length = 106 := by
      unfold kernelRun0_A; rfl
    rw [List.getElem?_eq_none (by omega)] at hk
    cases hk
  by_cases h105 : k < 105
  · exact storesHi_triples c i arg1 harg1 arg2 harg2 arg3 harg3 arg4 harg4 arg5 harg5 arg6 harg6 x0 x1 hSl hSu k h105 pc hk
  · have hk105 : k = 105 := by omega
    subst hk105
    exact storesHi_copy c i arg1 harg1 arg2 harg2 arg3 harg3 arg4 harg4 arg5 harg5 arg6 harg6 x0 x1 hSu pc hk

/-- What the body leaves in the first output's block: the lower ends of the block's rows' minima. -/
theorem blockLo (c : Dev nD) (i : grid0.Coords) (arg1 : Memref sig .tc .vmem S1024x16 .f32) (harg1 : arg1.IsWhole)
    (arg2 : Memref sig .tc .vmem S1024x16 .f32) (harg2 : arg2.IsWhole) (arg3 : Memref sig .tc .vmem S1024x696 .f32) (harg3 : arg3.IsWhole)
    (arg4 : Memref sig .tc .vmem S1024x696 .f32) (harg4 : arg4.IsWhole) (arg5 : Memref sig .tc .vmem S1024x136 .f32) (harg5 : arg5.IsWhole)
    (arg6 : Memref sig .tc .vmem S1024x136 .f32) (harg6 : arg6.IsWhole) (x0 : Vec F S1024x16 .f32) (x1 : Vec F S1024x16 .f32) :
    out0_A_2 c i arg1 harg1 arg2 harg2 arg3 harg3 arg4 harg4 arg5 harg5 arg6 harg6 x0 x1 = specLo 1024 x0 x1 := by
  unfold out0_A_2
  rw [View.read_writes_junk_eq_canon]
  funext y
  exact View.canon_apply_of_pieces (specLo 1024 x0 x1) _
    (storesLo c i arg1 harg1 arg2 harg2 arg3 harg3 arg4 harg4 arg5 harg5 arg6 harg6 x0 x1) y
    (cover0_A_2 c i arg1 harg1 arg2 harg2 arg3 harg3 arg4 harg4 arg5 harg5 arg6 harg6 x0 x1 y)

/-- What the body leaves in the second output's block: the upper ends. -/
theorem blockHi (c : Dev nD) (i : grid0.Coords) (arg1 : Memref sig .tc .vmem S1024x16 .f32) (harg1 : arg1.IsWhole)
    (arg2 : Memref sig .tc .vmem S1024x16 .f32) (harg2 : arg2.IsWhole) (arg3 : Memref sig .tc .vmem S1024x696 .f32) (harg3 : arg3.IsWhole)
    (arg4 : Memref sig .tc .vmem S1024x696 .f32) (harg4 : arg4.IsWhole) (arg5 : Memref sig .tc .vmem S1024x136 .f32) (harg5 : arg5.IsWhole)
    (arg6 : Memref sig .tc .vmem S1024x136 .f32) (harg6 : arg6.IsWhole) (x0 : Vec F S1024x16 .f32) (x1 : Vec F S1024x16 .f32) :
    out0_A_3 c i arg1 harg1 arg2 harg2 arg3 harg3 arg4 harg4 arg5 harg5 arg6 harg6 x0 x1 = specHi 1024 x0 x1 := by
  unfold out0_A_3
  rw [View.read_writes_junk_eq_canon]
  funext y
  exact View.canon_apply_of_pieces (specHi 1024 x0 x1) _
    (storesHi c i arg1 harg1 arg2 harg2 arg3 harg3 arg4 harg4 arg5 harg5 arg6 harg6 x0 x1) y
    (cover0_A_3 c i arg1 harg1 arg2 harg2 arg3 harg3 arg4 harg4 arg5 harg5 arg6 harg6 x0 x1 y)

end Cert.KernelIdeal.Block

end
-- ==== Proof.KernelFinal.lean ====
/-
  From one block of rows to the whole arrays.

  The grid has 64 points; at point t each window's block is rows  t·1024 … t·1024 + 1023  of its array
  (all columns).  Entry (r, q) of the subset minima depends only on row r of the two arguments, so the
  block of rows of the whole result at point t is the result of the two arguments' blocks of rows.
  Every row r lies in the block of point r / 1024, so the blocks fill each output array, which therefore
  ends holding the subset minima of the whole arguments: lower ends in the first output, upper ends in
  the second.
-/
import proofs.«163430_j66640712564831_1_alg».proof.Proof.Gen.KernelIdeal.Value
import proofs.«163430_j66640712564831_1_alg».proof.Proof.KernelBlock

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.IntervalMin Cert.Tables

variable {F : FTy → Type} [FloatOps F]
variable (m : (ℓ : Loc nD τ sig) → Buf (Elt F) ℓ) (ρ : Dev nD → PrngReg)

/-! ## Rows: an entry of the result reads one row of each argument -/

/-- Lower ends.  If row `(y 0)` of the block arrays is row `(i 0)` of the whole arrays, and `y`, `i` name the
    same column, entry `y` of the block's result is entry `i` of the whole result.  The rows are related
    through the block number `t`: row p of the block is row t·1024 + p of the array. -/
theorem specLo_block (xb0 xb1 : Vec F S1024x16 .f32) (X0 X1 : S65536x16.Idx → Elt F .f32) (t : Nat)
    (hb0 : ∀ (x : S1024x16.Idx) (k : S65536x16.Idx), (k 0).val = t * 1024 + (x 0).val → (k 1).val = (x 1).val → xb0 x = X0 k)
    (hb1 : ∀ (x : S1024x16.Idx) (k : S65536x16.Idx), (k 0).val = t * 1024 + (x 0).val → (k 1).val = (x 1).val → xb1 x = X1 k)
    (y : S1024x696.Idx) (i : S65536x696.Idx) (hi0 : (i 0).val = t * 1024 + (y 0).val) (hi1 : (i 1).val = (y 1).val) :
    specLo 1024 xb0 xb1 y = specLo 65536 X0 X1 i := by
  have e0 : rowOf (R := 1024) xb0 ⟨(y 0).val, idx2_lt0 y⟩ = rowOf (R := 65536) X0 ⟨(i 0).val, idx2_lt0 i⟩ :=
    funext fun j => hb0 _ _ hi0 rfl
  have e1 : rowOf (R := 1024) xb1 ⟨(y 0).val, idx2_lt0 y⟩ = rowOf (R := 65536) X1 ⟨(i 0).val, idx2_lt0 i⟩ :=
    funext fun j => hb1 _ _ hi0 rfl
  have eq : (⟨(y 1).val, idx2_lt1 y⟩ : Fin 696) = ⟨(i 1).val, idx2_lt1 i⟩ := Fin.ext hi1.symm
  show lo3 pairLeft pairRight tripleLeft tripleRight (rowOf (R := 1024) xb0 ⟨(y 0).val, idx2_lt0 y⟩) (rowOf (R := 1024) xb1 ⟨(y 0).val, idx2_lt0 y⟩) ⟨(y 1).val, idx2_lt1 y⟩
    = lo3 pairLeft pairRight tripleLeft tripleRight (rowOf (R := 65536) X0 ⟨(i 0).val, idx2_lt0 i⟩) (rowOf (R := 65536) X1 ⟨(i 0).val, idx2_lt0 i⟩) ⟨(i 1).val, idx2_lt1 i⟩
  rw [e0, e1, eq]

/-- Upper ends: the same, entry by entry. -/
theorem specHi_block (xb0 xb1 : Vec F S1024x16 .f32) (X0 X1 : S65536x16.Idx → Elt F .f32) (t : Nat)
    (hb0 : ∀ (x : S1024x16.Idx) (k : S65536x16.Idx), (k 0).val = t * 1024 + (x 0).val → (k 1).val = (x 1).val → xb0 x = X0 k)
    (hb1 : ∀ (x : S1024x16.Idx) (k : S65536x16.Idx), (k 0).val = t * 1024 + (x 0).val → (k 1).val = (x 1).val → xb1 x = X1 k)
    (y : S1024x696.Idx) (i : S65536x696.Idx) (hi0 : (i 0).val = t * 1024 + (y 0).val) (hi1 : (i 1).val = (y 1).val) :
    specHi 1024 xb0 xb1 y = specHi 65536 X0 X1 i := by
  have e0 : rowOf (R := 1024) xb0 ⟨(y 0).val, idx2_lt0 y⟩ = rowOf (R := 65536) X0 ⟨(i 0).val, idx2_lt0 i⟩ :=
    funext fun j => hb0 _ _ hi0 rfl
  have e1 : rowOf (R := 1024) xb1 ⟨(y 0).val, idx2_lt0 y⟩ = rowOf (R := 65536) X1 ⟨(i 0).val, idx2_lt0 i⟩ :=
    funext fun j => hb1 _ _ hi0 rfl
  have eq : (⟨(y 1).val, idx2_lt1 y⟩ : Fin 696) = ⟨(i 1).val, idx2_lt1 i⟩ := Fin.ext hi1.symm
  show hi3 pairLeft pairRight tripleLeft tripleRight (rowOf (R := 1024) xb0 ⟨(y 0).val, idx2_lt0 y⟩) (rowOf (R := 1024) xb1 ⟨(y 0).val, idx2_lt0 y⟩) ⟨(y 1).val, idx2_lt1 y⟩
    = hi3 pairLeft pairRight tripleLeft tripleRight (rowOf (R := 65536) X0 ⟨(i 0).val, idx2_lt0 i⟩) (rowOf (R := 65536) X1 ⟨(i 0).val, idx2_lt0 i⟩) ⟨(i 1).val, idx2_lt1 i⟩
  rw [e0, e1, eq]

/-! ## The blocks: point t's block is rows t·1024 … of every window's array -/

/-- The four index maps, decided over the 64 points: block number t along the rows, 0 along the columns. -/
theorem index_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry (p, j) of the first argument's block at point t is entry (t·1024 + p, j) of the argument. -/
theorem argLo_block_apply (c : Dev nD) (t : Fin cfg0.N) (x : S1024x16.Idx) (k : S65536x16.Idx)
    (hk0 : (k 0).val = t.val * 1024 + (x 0).val) (hk1 : (k 1).val = (x 1).val) :
    (iblk m c 0 t : Vec F S1024x16 .f32) x = (V m c main_arg0 : S65536x16.Idx → Elt F .f32) k := by
  obtain ⟨a0, a1, -⟩ := index_rows t
  unfold iblk
  rw [View.read_apply]
  show V m c main_arg0 _ = V m c main_arg0 _
  congr 1
  funext a
  apply Fin.ext
  match a with
  | ⟨0, _⟩ => show win0_0.index t (0 : Fin 2) * 1024 + 1 * (x 0).val = (k 0).val; omega
  | ⟨1, _⟩ => show win0_0.index t (1 : Fin 2) * 16 + 1 * (x 1).val = (k 1).val; omega

/-- Entry (p, j) of the second argument's block at point t is entry (t·1024 + p, j) of the argument. -/
theorem argHi_block_apply (c : Dev nD) (t : Fin cfg0.N) (x : S1024x16.Idx) (k : S65536x16.Idx)
    (hk0 : (k 0).val = t.val * 1024 + (x 0).val) (hk1 : (k 1).val = (x 1).val) :
    (iblk m c 1 t : Vec F S1024x16 .f32) x = (V m c main_arg1 : S65536x16.Idx → Elt F .f32) k := by
  obtain ⟨-, -, a0, a1, -⟩ := index_rows t
  unfold iblk
  rw [View.read_apply]
  show V m c main_arg1 _ = V m c main_arg1 _
  congr 1
  funext a
  apply Fin.ext
  match a with
  | ⟨0, _⟩ => show win0_1.index t (0 : Fin 2) * 1024 + 1 * (x 0).val = (k 0).val; omega
  | ⟨1, _⟩ => show win0_1.index t (1 : Fin 2) * 16 + 1 * (x 1).val = (k 1).val; omega

/-! ## The first output: lower ends -/

/-- What point t writes back to the first output is block t of the lower ends of the whole arguments' minima. -/
theorem flushedLo_eq (c : Dev nD) (t : Fin cfg0.N) :
    (dats m 0 c).flushed 2 t = ((cfg0.win 2).blk t).view.read (Elt F) (specLo 65536 (V m c main_arg0) (V m c main_arg1)) := by
  obtain ⟨-, -, -, -, o0, o1, -⟩ := index_rows t
  rw [Value.flushed2_A]
  rw [Block.blockLo c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t)]
  funext j
  exact specLo_block (iblk m c 0 t) (iblk m c 1 t) (V m c main_arg0) (V m c main_arg1) t.val
    (fun x k h0 h1 => argLo_block_apply m c t x k h0 h1) (fun x k h0 h1 => argHi_block_apply m c t x k h0 h1)
    ((cfg0.win 2).xinj (grid0.coords t) j) (((cfg0.win 2).blk t).view.emb j)
    (by show win0_2.index t (0 : Fin 2) * 1024 + 1 * (j 0).val = t.val * 1024 + (j 0).val; omega)
    (by show win0_2.index t (1 : Fin 2) * 696 + 1 * (j 1).val = (j 1).val; omega)

/-- An entry of the first output is in point t's block iff each coordinate is in the block's range. -/
theorem mem_blkLo (t : Fin cfg0.N) (i : S65536x696.Idx) :
    i ∈ ((cfg0.win 2).blk t).view.set ↔ ∀ a : Fin 2, win0_2.index t a * S1024x696.size a ≤ (i a).val ∧ (i a).val < win0_2.index t a * S1024x696.size a + S1024x696.size a := by
  show i ∈ ((View.whole main_v0_0).slice (win0_2.rect t)).set ↔ _
  rw [View.set_slice_whole, Rect.mem_set_unit]
  exact Iff.rfl

/-- Every entry of the first output is in some point's block: row r is in the block of point r / 1024. -/
theorem coverLo (i : S65536x696.Idx) :
    ∃ t : Fin cfg0.N, (cfg0.win 2).flush t = true ∧ i ∈ ((cfg0.win 2).blk t).view.set := by
  have hi0 : (i 0).val < 65536 := (i 0).isLt
  have hi1 : (i 1).val < 696 := (i 1).isLt
  have ht : (i 0).val / 1024 < cfg0.N := lt_of_lt_of_eq (by omega : (i 0).val / 1024 < 64) N_0.symm
  obtain ⟨-, -, -, -, o0, o1, -⟩ := index_rows ⟨(i 0).val / 1024, ht⟩
  have o0' : win0_2.index ⟨(i 0).val / 1024, ht⟩ (0 : Fin 2) = (i 0).val / 1024 := o0
  refine ⟨⟨(i 0).val / 1024, ht⟩, flush0_2 _, ?_⟩
  rw [mem_blkLo]
  intro a
  match a with
  | ⟨0, _⟩ => show win0_2.index ⟨(i 0).val / 1024, ht⟩ (0 : Fin 2) * 1024 ≤ (i 0).val ∧ (i 0).val < win0_2.index ⟨(i 0).val / 1024, ht⟩ (0 : Fin 2) * 1024 + 1024; omega
  | ⟨1, _⟩ => show win0_2.index ⟨(i 0).val / 1024, ht⟩ (1 : Fin 2) * 696 ≤ (i 1).val ∧ (i 1).val < win0_2.index ⟨(i 0).val / 1024, ht⟩ (1 : Fin 2) * 696 + 696; omega

/-- The first output after the run: the lower ends of the subset minima of the whole arguments. -/
theorem finalLo (c : Dev nD) : (dats m 0 c).arrAt 2 cfg0.N = specLo 65536 (m ((c : Thread nD τ).loc main_arg0)) (m ((c : Thread nD τ).loc main_arg1)) :=
  (dats m 0 c).arrAt_eq_of_cover 2 (specLo 65536 (V m c main_arg0) (V m c main_arg1)) (fun t _ => flushedLo_eq m c t) coverLo

/-! ## The second output: upper ends -/

/-- What point t writes back to the second output is block t of the upper ends of the whole arguments' minima. -/
theorem flushedHi_eq (c : Dev nD) (t : Fin cfg0.N) :
    (dats m 0 c).flushed 3 t = ((cfg0.win 3).blk t).view.read (Elt F) (specHi 65536 (V m c main_arg0) (V m c main_arg1)) := by
  obtain ⟨-, -, -, -, -, -, o0, o1⟩ := index_rows t
  rw [Value.flushed3_A]
  rw [Block.blockHi c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t)]
  funext j
  exact specHi_block (iblk m c 0 t) (iblk m c 1 t) (V m c main_arg0) (V m c main_arg1) t.val
    (fun x k h0 h1 => argLo_block_apply m c t x k h0 h1) (fun x k h0 h1 => argHi_block_apply m c t x k h0 h1)
    ((cfg0.win 3).xinj (grid0.coords t) j) (((cfg0.win 3).blk t).view.emb j)
    (by show win0_3.index t (0 : Fin 2) * 1024 + 1 * (j 0).val = t.val * 1024 + (j 0).val; omega)
    (by show win0_3.index t (1 : Fin 2) * 696 + 1 * (j 1).val = (j 1).val; omega)

/-- An entry of the second output is in point t's block iff each coordinate is in the block's range. -/
theorem mem_blkHi (t : Fin cfg0.N) (i : S65536x696.Idx) :
    i ∈ ((cfg0.win 3).blk t).view.set ↔ ∀ a : Fin 2, win0_3.index t a * S1024x696.size a ≤ (i a).val ∧ (i a).val < win0_3.index t a * S1024x696.size a + S1024x696.size a := by
  show i ∈ ((View.whole main_v0_1).slice (win0_3.rect t)).set ↔ _
  rw [View.set_slice_whole, Rect.mem_set_unit]
  exact Iff.rfl

/-- Every entry of the second output is in some point's block: row r is in the block of point r / 1024. -/
theorem coverHi (i : S65536x696.Idx) :
    ∃ t : Fin cfg0.N, (cfg0.win 3).flush t = true ∧ i ∈ ((cfg0.win 3).blk t).view.set := by
  have hi0 : (i 0).val < 65536 := (i 0).isLt
  have hi1 : (i 1).val < 696 := (i 1).isLt
  have ht : (i 0).val / 1024 < cfg0.N := lt_of_lt_of_eq (by omega : (i 0).val / 1024 < 64) N_0.symm
  obtain ⟨-, -, -, -, -, -, o0, o1⟩ := index_rows ⟨(i 0).val / 1024, ht⟩
  have o0' : win0_3.index ⟨(i 0).val / 1024, ht⟩ (0 : Fin 2) = (i 0).val / 1024 := o0
  refine ⟨⟨(i 0).val / 1024, ht⟩, flush0_3 _, ?_⟩
  rw [mem_blkHi]
  intro a
  match a with
  | ⟨0, _⟩ => show win0_3.index ⟨(i 0).val / 1024, ht⟩ (0 : Fin 2) * 1024 ≤ (i 0).val ∧ (i 0).val < win0_3.index ⟨(i 0).val / 1024, ht⟩ (0 : Fin 2) * 1024 + 1024; omega
  | ⟨1, _⟩ => show win0_3.index ⟨(i 0).val / 1024, ht⟩ (1 : Fin 2) * 696 ≤ (i 1).val ∧ (i 1).val < win0_3.index ⟨(i 0).val / 1024, ht⟩ (1 : Fin 2) * 696 + 696; omega

/-- The second output after the run: the upper ends of the subset minima of the whole arguments. -/
theorem finalHi (c : Dev nD) : (dats m 0 c).arrAt 3 cfg0.N = specHi 65536 (m ((c : Thread nD τ).loc main_arg0)) (m ((c : Thread nD τ).loc main_arg1)) :=
  (dats m 0 c).arrAt_eq_of_cover 3 (specHi 65536 (V m c main_arg0) (V m c main_arg1)) (fun t _ => flushedHi_eq m c t) coverHi

/-! ## The run, read -/

/-- Every run ends with the two outputs at the subset minima of the arguments and the arguments unchanged. -/
theorem run : θ_run defs (onTc (τ := τ) (main (F := F))) ⟨m, fun _ => 0, ρ⟩ fun r => ∀ c : Dev nD,
      r.2.mem ((c : Thread nD τ).loc main_v0_0) = specLo 65536 (m ((c : Thread nD τ).loc main_arg0)) (m ((c : Thread nD τ).loc main_arg1))
      ∧ r.2.mem ((c : Thread nD τ).loc main_v0_1) = specHi 65536 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (finalLo m c), (h c).2.1.trans (finalHi m c), (h c).2.2.1, (h c).2.2.2⟩)
    (Value.run_blocks m ρ)

end Cert.KernelIdeal.Final

end
-- ==== Proof.RefTerm.lean ====
/- The reference program's two results as pure terms of its two arguments, built from named
   intermediates: the index vectors the four constant tables give, the gathers along them, the
   bit that says which of two intervals is the smaller in the admissible order, the two arrays of
   136 columns (the 16 given columns followed by the 120 pair minima) and the two arrays of 696
   columns (those 136 followed by the 560 triple minima). Every definition is the program's own
   operation, operand order and constants as printed. -/
import proofs.«163430_j66640712564831_1_alg».proof.ReferenceIdeal

noncomputable section

namespace Cert.ReferenceIdeal.RefTerm

open Idealize.ShloMosaic Idealize.SL.Sem Cert.ReferenceIdeal

variable {F : FTy → Type} [FloatOps F] [Facts]
open Facts₀

/-! ## The four constant tables, as vectors of words -/

/-- Left column of each of the 120 pairs (an index into the 16 given columns). -/
def tabPL : (⟨S120, .i32⟩ : BufTy).Contents (Elt F) := fun i => lit0 (S120.rowMajor i)
/-- Right column of each of the 120 pairs. -/
def tabPR : (⟨S120, .i32⟩ : BufTy).Contents (Elt F) := fun i => lit1 (S120.rowMajor i)
/-- Left operand of each of the 560 triples (an index into the 136 columns of level two). -/
def tabTL : (⟨S560, .i32⟩ : BufTy).Contents (Elt F) := fun i => lit2 (S560.rowMajor i)
/-- Right operand of each of the 560 triples. -/
def tabTR : (⟨S560, .i32⟩ : BufTy).Contents (Elt F) := fun i => lit3 (S560.rowMajor i)

/-! ## Index vectors and gathers -/

/-- The 120×1 start indices a table `c` of 120 words gives: `c` itself (the wrap of negative
    entries, `c + 16`, is selected by a mask that is false everywhere), as one column. -/
def idxP (c : (⟨S120, .i32⟩ : BufTy).Contents (Elt F)) : (⟨S120x1, .i32⟩ : BufTy).Contents (Elt F) :=
  broadcastInDim S120x1 ![0] bcast_S120_S120x1_0
    (select (constantI S120 1 0#1) (addi c (broadcastInDim S120 ![] bcast_S_S120 (constantI S_ 32 16#32))) c)

/-- The 560×1 start indices a table `c` of 560 words gives (the wrap adds 136). -/
def idxT (c : (⟨S560, .i32⟩ : BufTy).Contents (Elt F)) : (⟨S560x1, .i32⟩ : BufTy).Contents (Elt F) :=
  broadcastInDim S560x1 ![0] bcast_S560_S560x1_0
    (select (constantI S560 1 0#1) (addi c (broadcastInDim S560 ![] bcast_S_S560 (constantI S_ 32 136#32))) c)

/-- Column `j` of the result is column `c j` of the 16 columns of `x`, for each of the 120 entries of `c`. -/
def gP (x : (⟨S65536x16, .f32⟩ : BufTy).Contents (Elt F)) (c : (⟨S120, .i32⟩ : BufTy).Contents (Elt F)) :
    (⟨S65536x120, .f32⟩ : BufTy).Contents (Elt F) :=
  Host.gather gather_S65536x16_S120x1_S65536x120_0_1_n_n_1_1_655361 x (idxP c)

/-- Column `j` of the result is column `c j` of the 136 columns of `y`, for each of the 560 entries of `c`. -/
def gT (y : (⟨S65536x136, .f32⟩ : BufTy).Contents (Elt F)) (c : (⟨S560, .i32⟩ : BufTy).Contents (Elt F)) :
    (⟨S65536x560, .f32⟩ : BufTy).Contents (Elt F) :=
  Host.gather gather_S65536x136_S560x1_S65536x560_0_1_n_n_1_1_655361 y (idxT c)

/-! ## The order on intervals, entrywise over a shape -/

/-- The point `l + c·(u − l)` of every interval `[l, u]` of a pair of arrays, `c` a float constant given by its word. -/
def pointV (S : Shape) (bc : S_.BroadcastsInDim S (![] : Fin 0 → Fin S.rank)) (c : BitVec 32)
    (l u : (⟨S, .f32⟩ : BufTy).Contents (Elt F)) : (⟨S, .f32⟩ : BufTy).Contents (Elt F) :=
  addf l (mulf (broadcastInDim S ![] bc (constant S_ .f32 c)) (subf u l))

/-- Entrywise: is the right interval `[rl, ru]` the smaller one? Its point at 0.4 is below the left
    interval's, or the two are equal and its point at 0.6 is not above the left one's. -/
def takeV (S : Shape) (bc : S_.BroadcastsInDim S (![] : Fin 0 → Fin S.rank))
    (ll lu rl ru : (⟨S, .f32⟩ : BufTy).Contents (Elt F)) : (⟨S, .i1⟩ : BufTy).Contents (Elt F) :=
  ori (cmpf .olt (pointV S bc 0x3ECCCCCD#32 rl ru) (pointV S bc 0x3ECCCCCD#32 ll lu))
    (andi (cmpf .oeq (pointV S bc 0x3ECCCCCD#32 rl ru) (pointV S bc 0x3ECCCCCD#32 ll lu))
      (cmpf .ole (pointV S bc 0x3F19999A#32 rl ru) (pointV S bc 0x3F19999A#32 ll lu)))

/-! ## Level two: the 120 pair minima, and the arrays of 136 columns -/

/-- For each pair, whether its right column's interval is the smaller. -/
def take2 (xl xu : (⟨S65536x16, .f32⟩ : BufTy).Contents (Elt F)) : (⟨S65536x120, .i1⟩ : BufTy).Contents (Elt F) :=
  takeV S65536x120 bcast_S_S65536x120 (gP xl tabPL) (gP xu tabPL) (gP xl tabPR) (gP xu tabPR)

/-- Lower ends of the 120 pair minima. -/
def pairLo (xl xu : (⟨S65536x16, .f32⟩ : BufTy).Contents (Elt F)) : (⟨S65536x120, .f32⟩ : BufTy).Contents (Elt F) :=
  select (take2 xl xu) (gP xl tabPR) (gP xl tabPL)

/-- Upper ends of the 120 pair minima. -/
def pairHi (xl xu : (⟨S65536x16, .f32⟩ : BufTy).Contents (Elt F)) : (⟨S65536x120, .f32⟩ : BufTy).Contents (Elt F) :=
  select (take2 xl xu) (gP xu tabPR) (gP xu tabPL)

/-- Lower ends, 136 columns: the 16 given ones, then the 120 pair minima. -/
def midLoArr (xl xu : (⟨S65536x16, .f32⟩ : BufTy).Contents (Elt F)) : (⟨S65536x136, .f32⟩ : BufTy).Contents (Elt F) :=
  concatenate S65536x136 1 [⟨S65536x16, xl⟩, ⟨S65536x120, pairLo xl xu⟩] concatenates_S65536x16_S65536x120_S65536x136_d1

/-- Upper ends, 136 columns. -/
def midHiArr (xl xu : (⟨S65536x16, .f32⟩ : BufTy).Contents (Elt F)) : (⟨S65536x136, .f32⟩ : BufTy).Contents (Elt F) :=
  concatenate S65536x136 1 [⟨S65536x16, xu⟩, ⟨S65536x120, pairHi xl xu⟩] concatenates_S65536x16_S65536x120_S65536x136_d1

/-! ## Level three: the 560 triple minima over arrays of 136 columns, and the arrays of 696 columns -/

/-- For each triple, whether its right operand's interval is the smaller. -/
def take3 (ml mu : (⟨S65536x136, .f32⟩ : BufTy).Contents (Elt F)) : (⟨S65536x560, .i1⟩ : BufTy).Contents (Elt F) :=
  takeV S65536x560 bcast_S_S65536x560 (gT ml tabTL) (gT mu tabTL) (gT ml tabTR) (gT mu tabTR)

/-- Lower ends of the 560 triple minima. -/
def tripLo (ml mu : (⟨S65536x136, .f32⟩ : BufTy).Contents (Elt F)) : (⟨S65536x560, .f32⟩ : BufTy).Contents (Elt F) :=
  select (take3 ml mu) (gT ml tabTR) (gT ml tabTL)

/-- Upper ends of the 560 triple minima. -/
def tripHi (ml mu : (⟨S65536x136, .f32⟩ : BufTy).Contents (Elt F)) : (⟨S65536x560, .f32⟩ : BufTy).Contents (Elt F) :=
  select (take3 ml mu) (gT mu tabTR) (gT mu tabTL)

/-- Lower ends, 696 columns, over given arrays of 136: those 136, then the 560 triple minima. -/
def out3Lo (ml mu : (⟨S65536x136, .f32⟩ : BufTy).Contents (Elt F)) : (⟨S65536x696, .f32⟩ : BufTy).Contents (Elt F) :=
  concatenate S65536x696 1 [⟨S65536x136, ml⟩, ⟨S65536x560, tripLo ml mu⟩] concatenates_S65536x136_S65536x560_S65536x696_d1

/-- Upper ends, 696 columns, over given arrays of 136. -/
def out3Hi (ml mu : (⟨S65536x136, .f32⟩ : BufTy).Contents (Elt F)) : (⟨S65536x696, .f32⟩ : BufTy).Contents (Elt F) :=
  concatenate S65536x696 1 [⟨S65536x136, mu⟩, ⟨S65536x560, tripHi ml mu⟩] concatenates_S65536x136_S65536x560_S65536x696_d1

/-! ## The two results -/

/-- The first result: lower ends of all 696 minima, of the two given arrays of 16 columns. -/
def outLo (xl xu : (⟨S65536x16, .f32⟩ : BufTy).Contents (Elt F)) : (⟨S65536x696, .f32⟩ : BufTy).Contents (Elt F) :=
  out3Lo (midLoArr xl xu) (midHiArr xl xu)

/-- The second result: upper ends of all 696 minima. -/
def outHi (xl xu : (⟨S65536x16, .f32⟩ : BufTy).Contents (Elt F)) : (⟨S65536x696, .f32⟩ : BufTy).Contents (Elt F) :=
  out3Hi (midLoArr xl xu) (midHiArr xl xu)

end Cert.ReferenceIdeal.RefTerm

end
-- ==== Proof.RefOps.lean ====
/- The reference program's 118 operations in order (the two selects of each level are the bodies of
   the program's local functions, listed where they are called), cut after the two arrays of 136
   columns: the first 65 operations compute those from the two arguments, the last 53 compute the
   two results from them. -/
import proofs.«163430_j66640712564831_1_alg».proof.Proof.Gen.ReferenceIdeal
import proofs.«163430_j66640712564831_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 65: the four tables and their masks, the index vectors, the four gathers of the
    16 columns, the order's points and comparisons, the two selects, the two arrays of 136 columns. -/
abbrev opsA : List (HloOp τ sig (Elt F)) :=
  [ nullary main_c (fun i => lit0 (S120.rowMajor i)),
    nullary main_c_0 (constantI S120 1 0#1),
    nullary main_c_1 (constantI S120 1 0#1),
    nullary main_c_2 (fun i => lit1 (S120.rowMajor i)),
    nullary main_c_3 (constantI S120 1 0#1),
    nullary main_c_4 (constantI S120 1 0#1),
    nullary main_c_5 (fun i => lit2 (S560.rowMajor i)),
    nullary main_c_6 (constantI S560 1 0#1),
    nullary main_c_7 (constantI S560 1 0#1),
    nullary main_c_8 (fun i => lit3 (S560.rowMajor i)),
    nullary main_c_9 (constantI S560 1 0#1),
    nullary main_c_10 (constantI S560 1 0#1),
    nullary main_c_11 (constantI S_ 32 16#32),
    unary main_c_11 main_v0 (broadcastInDim S120 ![] bcast_S_S120 : (⟨S_, .i32⟩ : BufTy).Contents (Elt F) → (⟨S120, .i32⟩ : BufTy).Contents (Elt F)),
    binary main_c main_v0 main_v1 (addi : (⟨S120, .i32⟩ : BufTy).Contents (Elt F) → (⟨S120, .i32⟩ : BufTy).Contents (Elt F) → (⟨S120, .i32⟩ : BufTy).Contents (Elt F)),
    ternary main_c_0 main_v1 main_c main_v2 (select : (⟨S120, .i1⟩ : BufTy).Contents (Elt F) → (⟨S120, .i32⟩ : BufTy).Contents (Elt F) → (⟨S120, .i32⟩ : BufTy).Contents (Elt F) → (⟨S120, .i32⟩ : BufTy).Contents (Elt F)),
    unary main_v2 main_v3 (broadcastInDim S120x1 ![0] bcast_S120_S120x1_0 : (⟨S120, .i32⟩ : BufTy).Contents (Elt F) → (⟨S120x1, .i32⟩ : BufTy).Contents (Elt F)),
    binary main_arg0 main_v3 main_v4 ((fun x i => Host.gather gather_S65536x16_S120x1_S65536x120_0_1_n_n_1_1_655361 x i) : (⟨S65536x16, .f32⟩ : BufTy).Contents (Elt F) → (⟨S120x1, .i32⟩ : BufTy).Contents (Elt F) → (⟨S65536x120, .f32⟩ : BufTy).Contents (Elt F)),
    nullary main_c_12 (constantI S_ 32 16#32),
    unary main_c_12 main_v5 (broadcastInDim S120 ![] bcast_S_S120 : (⟨S_, .i32⟩ : BufTy).Contents (Elt F) → (⟨S120, .i32⟩ : BufTy).Contents (Elt F)),
    binary main_c main_v5 main_v6 (addi : (⟨S120, .i32⟩ : BufTy).Contents (Elt F) → (⟨S120, .i32⟩ : BufTy).Contents (Elt F) → (⟨S120, .i32⟩ : BufTy).Contents (Elt F)),
    ternary main_c_1 main_v6 main_c main_v7 (select : (⟨S120, .i1⟩ : BufTy).Contents (Elt F) → (⟨S120, .i32⟩ : BufTy).Contents (Elt F) → (⟨S120, .i32⟩ : BufTy).Contents (Elt F) → (⟨S120, .i32⟩ : BufTy).Contents (Elt F)),
    unary main_v7 main_v8 (broadcastInDim S120x1 ![0] bcast_S120_S120x1_0 : (⟨S120, .i32⟩ : BufTy).Contents (Elt F) → (⟨S120x1, .i32⟩ : BufTy).Contents (Elt F)),
    binary main_arg1 main_v8 main_v9 ((fun x i => Host.gather gather_S65536x16_S120x1_S65536x120_0_1_n_n_1_1_655361 x i) : (⟨S65536x16, .f32⟩ : BufTy).Contents (Elt F) → (⟨S120x1, .i32⟩ : BufTy).Contents (Elt F) → (⟨S65536x120, .f32⟩ : BufTy).Contents (Elt F)),
    nullary main_c_13 (constantI S_ 32 16#32),
    unary main_c_13 main_v10 (broadcastInDim S120 ![] bcast_S_S120 : (⟨S_, .i32⟩ : BufTy).Contents (Elt F) → (⟨S120, .i32⟩ : BufTy).Contents (Elt F)),
    binary main_c_2 main_v10 main_v11 (addi : (⟨S120, .i32⟩ : BufTy).Contents (Elt F) → (⟨S120, .i32⟩ : BufTy).Contents (Elt F) → (⟨S120, .i32⟩ : BufTy).Contents (Elt F)),
    ternary main_c_3 main_v11 main_c_2 main_v12 (select : (⟨S120, .i1⟩ : BufTy).Contents (Elt F) → (⟨S120, .i32⟩ : BufTy).Contents (Elt F) → (⟨S120, .i32⟩ : BufTy).Contents (Elt F) → (⟨S120, .i32⟩ : BufTy).Contents (Elt F)),
    unary main_v12 main_v13 (broadcastInDim S120x1 ![0] bcast_S120_S120x1_0 : (⟨S120, .i32⟩ : BufTy).Contents (Elt F) → (⟨S120x1, .i32⟩ : BufTy).Contents (Elt F)),
    binary main_arg0 main_v13 main_v14 ((fun x i => Host.gather gather_S65536x16_S120x1_S65536x120_0_1_n_n_1_1_655361 x i) : (⟨S65536x16, .f32⟩ : BufTy).Contents (Elt F) → (⟨S120x1, .i32⟩ : BufTy).Contents (Elt F) → (⟨S65536x120, .f32⟩ : BufTy).Contents (Elt F)),
    nullary main_c_14 (constantI S_ 32 16#32),
    unary main_c_14 main_v15 (broadcastInDim S120 ![] bcast_S_S120 : (⟨S_, .i32⟩ : BufTy).Contents (Elt F) → (⟨S120, .i32⟩ : BufTy).Contents (Elt F)),
    binary main_c_2 main_v15 main_v16 (addi : (⟨S120, .i32⟩ : BufTy).Contents (Elt F) → (⟨S120, .i32⟩ : BufTy).Contents (Elt F) → (⟨S120, .i32⟩ : BufTy).Contents (Elt F)),
    ternary main_c_4 main_v16 main_c_2 main_v17 (select : (⟨S120, .i1⟩ : BufTy).Contents (Elt F) → (⟨S120, .i32⟩ : BufTy).Contents (Elt F) → (⟨S120, .i32⟩ : BufTy).Contents (Elt F) → (⟨S120, .i32⟩ : BufTy).Contents (Elt F)),
    unary main_v17 main_v18 (broadcastInDim S120x1 ![0] bcast_S120_S120x1_0 : (⟨S120, .i32⟩ : BufTy).Contents (Elt F) → (⟨S120x1, .i32⟩ : BufTy).Contents (Elt F)),
    binary main_arg1 main_v18 main_v19 ((fun x i => Host.gather gather_S65536x16_S120x1_S65536x120_0_1_n_n_1_1_655361 x i) : (⟨S65536x16, .f32⟩ : BufTy).Contents (Elt F) → (⟨S120x1, .i32⟩ : BufTy).Contents (Elt F) → (⟨S65536x120, .f32⟩ : BufTy).Contents (Elt F)),
    binary main_v9 main_v4 main_v20 (subf : (⟨S65536x120, .f32⟩ : BufTy).Contents (Elt F) → (⟨S65536x120, .f32⟩ : BufTy).Contents (Elt F) → (⟨S65536x120, .f32⟩ : BufTy).Contents (Elt F)),
    nullary main_cst (constant S_ .f32 0x3ECCCCCD#32),
    unary main_cst main_v21 (broadcastInDim S65536x120 ![] bcast_S_S65536x120 : (⟨S_, .f32⟩ : BufTy).Contents (Elt F) → (⟨S65536x120, .f32⟩ : BufTy).Contents (Elt F)),
    binary main_v21 main_v20 main_v22 (mulf : (⟨S65536x120, .f32⟩ : BufTy).Contents (Elt F) → (⟨S65536x120, .f32⟩ : BufTy).Contents (Elt F) → (⟨S65536x120, .f32⟩ : BufTy).Contents (Elt F)),
    binary main_v4 main_v22 main_v23 (addf : (⟨S65536x120, .f32⟩ : BufTy).Contents (Elt F) → (⟨S65536x120, .f32⟩ : BufTy).Contents (Elt F) → (⟨S65536x120, .f32⟩ : BufTy).Contents (Elt F)),
    binary main_v19 main_v14 main_v24 (subf : (⟨S65536x120, .f32⟩ : BufTy).Contents (Elt F) → (⟨S65536x120, .f32⟩ : BufTy).Contents (Elt F) → (⟨S65536x120, .f32⟩ : BufTy).Contents (Elt F)),
    nullary main_cst_15 (constant S_ .f32 0x3ECCCCCD#32),
    unary main_cst_15 main_v25 (broadcastInDim S65536x120 ![] bcast_S_S65536x120 : (⟨S_, .f32⟩ : BufTy).Contents (Elt F) → (⟨S65536x120, .f32⟩ : BufTy).Contents (Elt F)),
    binary main_v25 main_v24 main_v26 (mulf : (⟨S65536x120, .f32⟩ : BufTy).Contents (Elt F) → (⟨S65536x120, .f32⟩ : BufTy).Contents (Elt F) → (⟨S65536x120, .f32⟩ : BufTy).Contents (Elt F)),
    binary main_v14 main_v26 main_v27 (addf : (⟨S65536x120, .f32⟩ : BufTy).Contents (Elt F) → (⟨S65536x120, .f32⟩ : BufTy).Contents (Elt F) → (⟨S65536x120, .f32⟩ : BufTy).Contents (Elt F)),
    binary main_v9 main_v4 main_v28 (subf : (⟨S65536x120, .f32⟩ : BufTy).Contents (Elt F) → (⟨S65536x120, .f32⟩ : BufTy).Contents (Elt F) → (⟨S65536x120, .f32⟩ : BufTy).Contents (Elt F)),
    nullary main_cst_16 (constant S_ .f32 0x3F19999A#32),
    unary main_cst_16 main_v29 (broadcastInDim S65536x120 ![] bcast_S_S65536x120 : (⟨S_, .f32⟩ : BufTy).Contents (Elt F) → (⟨S65536x120, .f32⟩ : BufTy).Contents (Elt F)),
    binary main_v29 main_v28 main_v30 (mulf : (⟨S65536x120, .f32⟩ : BufTy).Contents (Elt F) → (⟨S65536x120, .f32⟩ : BufTy).Contents (Elt F) → (⟨S65536x120, .f32⟩ : BufTy).Contents (Elt F)),
    binary main_v4 main_v30 main_v31 (addf : (⟨S65536x120, .f32⟩ : BufTy).Contents (Elt F) → (⟨S65536x120, .f32⟩ : BufTy).Contents (Elt F) → (⟨S65536x120, .f32⟩ : BufTy).Contents (Elt F)),
    binary main_v19 main_v14 main_v32 (subf : (⟨S65536x120, .f32⟩ : BufTy).Contents (Elt F) → (⟨S65536x120, .f32⟩ : BufTy).Contents (Elt F) → (⟨S65536x120, .f32⟩ : BufTy).Contents (Elt F)),
    nullary main_cst_17 (constant S_ .f32 0x3F19999A#32),
    unary main_cst_17 main_v33 (broadcastInDim S65536x120 ![] bcast_S_S65536x120 : (⟨S_, .f32⟩ : BufTy).Contents (Elt F) → (⟨S65536x120, .f32⟩ : BufTy).Contents (Elt F)),
    binary main_v33 main_v32 main_v34 (mulf : (⟨S65536x120, .f32⟩ : BufTy).Contents (Elt F) → (⟨S65536x120, .f32⟩ : BufTy).Contents (Elt F) → (⟨S65536x120, .f32⟩ : BufTy).Contents (Elt F)),
    binary main_v14 main_v34 main_v35 (addf : (⟨S65536x120, .f32⟩ : BufTy).Contents (Elt F) → (⟨S65536x120, .f32⟩ : BufTy).Contents (Elt F) → (⟨S65536x120, .f32⟩ : BufTy).Contents (Elt F)),
    binary main_v27 main_v23 main_v36 (cmpf .olt : (⟨S65536x120, .f32⟩ : BufTy).Contents (Elt F) → (⟨S65536x120, .f32⟩ : BufTy).Contents (Elt F) → (⟨S65536x120, .i1⟩ : BufTy).Contents (Elt F)),
    binary main_v27 main_v23 main_v37 (cmpf .oeq : (⟨S65536x120, .f32⟩ : BufTy).Contents (Elt F) → (⟨S65536x120, .f32⟩ : BufTy).Contents (Elt F) → (⟨S65536x120, .i1⟩ : BufTy).Contents (Elt F)),
    binary main_v35 main_v31 main_v38 (cmpf .ole : (⟨S65536x120, .f32⟩ : BufTy).Contents (Elt F) → (⟨S65536x120, .f32⟩ : BufTy).Contents (Elt F) → (⟨S65536x120, .i1⟩ : BufTy).Contents (Elt F)),
    binary main_v37 main_v38 main_v39 (andi : (⟨S65536x120, .i1⟩ : BufTy).Contents (Elt F) → (⟨S65536x120, .i1⟩ : BufTy).Contents (Elt F) → (⟨S65536x120, .i1⟩ : BufTy).Contents (Elt F)),
    binary main_v36 main_v39 main_v40 (ori : (⟨S65536x120, .i1⟩ : BufTy).Contents (Elt F) → (⟨S65536x120, .i1⟩ : BufTy).Contents (Elt F) → (⟨S65536x120, .i1⟩ : BufTy).Contents (Elt F)),
    TRef.ternary (.of main_v40 : TRef sig ⟨S65536x120, .i1⟩) (.of main_v14 : TRef sig ⟨S65536x120, .f32⟩) (.of main_v4 : TRef sig ⟨S65536x120, .f32⟩) main_call0.v0 select,
    TRef.ternary (.of main_v40 : TRef sig ⟨S65536x120, .i1⟩) (.of main_v19 : TRef sig ⟨S65536x120, .f32⟩) (.of main_v9 : TRef sig ⟨S65536x120, .f32⟩) main_call1.v0 select,
    binary main_arg0 main_v41 main_v43 ((fun a b => concatenate S65536x136 1 [⟨S65536x16, a⟩, ⟨S65536x120, b⟩] concatenates_S65536x16_S65536x120_S65536x136_d1) : (⟨S65536x16, .f32⟩ : BufTy).Contents (Elt F) → (⟨S65536x120, .f32⟩ : BufTy).Contents (Elt F) → (⟨S65536x136, .f32⟩ : BufTy).Contents (Elt F)),
    binary main_arg1 main_v42 main_v44 ((fun a b => concatenate S65536x136 1 [⟨S65536x16, a⟩, ⟨S65536x120, b⟩] concatenates_S65536x16_S65536x120_S65536x136_d1) : (⟨S65536x16, .f32⟩ : BufTy).Contents (Elt F) → (⟨S65536x120, .f32⟩ : BufTy).Contents (Elt F) → (⟨S65536x136, .f32⟩ : BufTy).Contents (Elt F)) ]

/-- Operations 66 … 118: the same over the arrays of 136 columns and the tables of 560 entries,
    ending in the two arrays of 696 columns. -/
abbrev opsB : List (HloOp τ sig (Elt F)) :=
  [ nullary main_c_18 (constantI S_ 32 136#32),
    unary main_c_18 main_v45 (broadcastInDim S560 ![] bcast_S_S560 : (⟨S_, .i32⟩ : BufTy).Contents (Elt F) → (⟨S560, .i32⟩ : BufTy).Contents (Elt F)),
    binary main_c_5 main_v45 main_v46 (addi : (⟨S560, .i32⟩ : BufTy).Contents (Elt F) → (⟨S560, .i32⟩ : BufTy).Contents (Elt F) → (⟨S560, .i32⟩ : BufTy).Contents (Elt F)),
    ternary main_c_6 main_v46 main_c_5 main_v47 (select : (⟨S560, .i1⟩ : BufTy).Contents (Elt F) → (⟨S560, .i32⟩ : BufTy).Contents (Elt F) → (⟨S560, .i32⟩ : BufTy).Contents (Elt F) → (⟨S560, .i32⟩ : BufTy).Contents (Elt F)),
    unary main_v47 main_v48 (broadcastInDim S560x1 ![0] bcast_S560_S560x1_0 : (⟨S560, .i32⟩ : BufTy).Contents (Elt F) → (⟨S560x1, .i32⟩ : BufTy).Contents (Elt F)),
    binary main_v43 main_v48 main_v49 ((fun x i => Host.gather gather_S65536x136_S560x1_S65536x560_0_1_n_n_1_1_655361 x i) : (⟨S65536x136, .f32⟩ : BufTy).Contents (Elt F) → (⟨S560x1, .i32⟩ : BufTy).Contents (Elt F) → (⟨S65536x560, .f32⟩ : BufTy).Contents (Elt F)),
    nullary main_c_19 (constantI S_ 32 136#32),
    unary main_c_19 main_v50 (broadcastInDim S560 ![] bcast_S_S560 : (⟨S_, .i32⟩ : BufTy).Contents (Elt F) → (⟨S560, .i32⟩ : BufTy).Contents (Elt F)),
    binary main_c_5 main_v50 main_v51 (addi : (⟨S560, .i32⟩ : BufTy).Contents (Elt F) → (⟨S560, .i32⟩ : BufTy).Contents (Elt F) → (⟨S560, .i32⟩ : BufTy).Contents (Elt F)),
    ternary main_c_7 main_v51 main_c_5 main_v52 (select : (⟨S560, .i1⟩ : BufTy).Contents (Elt F) → (⟨S560, .i32⟩ : BufTy).Contents (Elt F) → (⟨S560, .i32⟩ : BufTy).Contents (Elt F) → (⟨S560, .i32⟩ : BufTy).Contents (Elt F)),
    unary main_v52 main_v53 (broadcastInDim S560x1 ![0] bcast_S560_S560x1_0 : (⟨S560, .i32⟩ : BufTy).Contents (Elt F) → (⟨S560x1, .i32⟩ : BufTy).Contents (Elt F)),
    binary main_v44 main_v53 main_v54 ((fun x i => Host.gather gather_S65536x136_S560x1_S65536x560_0_1_n_n_1_1_655361 x i) : (⟨S65536x136, .f32⟩ : BufTy).Contents (Elt F) → (⟨S560x1, .i32⟩ : BufTy).Contents (Elt F) → (⟨S65536x560, .f32⟩ : BufTy).Contents (Elt F)),
    nullary main_c_20 (constantI S_ 32 136#32),
    unary main_c_20 main_v55 (broadcastInDim S560 ![] bcast_S_S560 : (⟨S_, .i32⟩ : BufTy).Contents (Elt F) → (⟨S560, .i32⟩ : BufTy).Contents (Elt F)),
    binary main_c_8 main_v55 main_v56 (addi : (⟨S560, .i32⟩ : BufTy).Contents (Elt F) → (⟨S560, .i32⟩ : BufTy).Contents (Elt F) → (⟨S560, .i32⟩ : BufTy).Contents (Elt F)),
    ternary main_c_9 main_v56 main_c_8 main_v57 (select : (⟨S560, .i1⟩ : BufTy).Contents (Elt F) → (⟨S560, .i32⟩ : BufTy).Contents (Elt F) → (⟨S560, .i32⟩ : BufTy).Contents (Elt F) → (⟨S560, .i32⟩ : BufTy).Contents (Elt F)),
    unary main_v57 main_v58 (broadcastInDim S560x1 ![0] bcast_S560_S560x1_0 : (⟨S560, .i32⟩ : BufTy).Contents (Elt F) → (⟨S560x1, .i32⟩ : BufTy).Contents (Elt F)),
    binary main_v43 main_v58 main_v59 ((fun x i => Host.gather gather_S65536x136_S560x1_S65536x560_0_1_n_n_1_1_655361 x i) : (⟨S65536x136, .f32⟩ : BufTy).Contents (Elt F) → (⟨S560x1, .i32⟩ : BufTy).Contents (Elt F) → (⟨S65536x560, .f32⟩ : BufTy).Contents (Elt F)),
    nullary main_c_21 (constantI S_ 32 136#32),
    unary main_c_21 main_v60 (broadcastInDim S560 ![] bcast_S_S560 : (⟨S_, .i32⟩ : BufTy).Contents (Elt F) → (⟨S560, .i32⟩ : BufTy).Contents (Elt F)),
    binary main_c_8 main_v60 main_v61 (addi : (⟨S560, .i32⟩ : BufTy).Contents (Elt F) → (⟨S560, .i32⟩ : BufTy).Contents (Elt F) → (⟨S560, .i32⟩ : BufTy).Contents (Elt F)),
    ternary main_c_10 main_v61 main_c_8 main_v62 (select : (⟨S560, .i1⟩ : BufTy).Contents (Elt F) → (⟨S560, .i32⟩ : BufTy).Contents (Elt F) → (⟨S560, .i32⟩ : BufTy).Contents (Elt F) → (⟨S560, .i32⟩ : BufTy).Contents (Elt F)),
    unary main_v62 main_v63 (broadcastInDim S560x1 ![0] bcast_S560_S560x1_0 : (⟨S560, .i32⟩ : BufTy).Contents (Elt F) → (⟨S560x1, .i32⟩ : BufTy).Contents (Elt F)),
    binary main_v44 main_v63 main_v64 ((fun x i => Host.gather gather_S65536x136_S560x1_S65536x560_0_1_n_n_1_1_655361 x i) : (⟨S65536x136, .f32⟩ : BufTy).Contents (Elt F) → (⟨S560x1, .i32⟩ : BufTy).Contents (Elt F) → (⟨S65536x560, .f32⟩ : BufTy).Contents (Elt F)),
    binary main_v54 main_v49 main_v65 (subf : (⟨S65536x560, .f32⟩ : BufTy).Contents (Elt F) → (⟨S65536x560, .f32⟩ : BufTy).Contents (Elt F) → (⟨S65536x560, .f32⟩ : BufTy).Contents (Elt F)),
    nullary main_cst_22 (constant S_ .f32 0x3ECCCCCD#32),
    unary main_cst_22 main_v66 (broadcastInDim S65536x560 ![] bcast_S_S65536x560 : (⟨S_, .f32⟩ : BufTy).Contents (Elt F) → (⟨S65536x560, .f32⟩ : BufTy).Contents (Elt F)),
    binary main_v66 main_v65 main_v67 (mulf : (⟨S65536x560, .f32⟩ : BufTy).Contents (Elt F) → (⟨S65536x560, .f32⟩ : BufTy).Contents (Elt F) → (⟨S65536x560, .f32⟩ : BufTy).Contents (Elt F)),
    binary main_v49 main_v67 main_v68 (addf : (⟨S65536x560, .f32⟩ : BufTy).Contents (Elt F) → (⟨S65536x560, .f32⟩ : BufTy).Contents (Elt F) → (⟨S65536x560, .f32⟩ : BufTy).Contents (Elt F)),
    binary main_v64 main_v59 main_v69 (subf : (⟨S65536x560, .f32⟩ : BufTy).Contents (Elt F) → (⟨S65536x560, .f32⟩ : BufTy).Contents (Elt F) → (⟨S65536x560, .f32⟩ : BufTy).Contents (Elt F)),
    nullary main_cst_23 (constant S_ .f32 0x3ECCCCCD#32),
    unary main_cst_23 main_v70 (broadcastInDim S65536x560 ![] bcast_S_S65536x560 : (⟨S_, .f32⟩ : BufTy).Contents (Elt F) → (⟨S65536x560, .f32⟩ : BufTy).Contents (Elt F)),
    binary main_v70 main_v69 main_v71 (mulf : (⟨S65536x560, .f32⟩ : BufTy).Contents (Elt F) → (⟨S65536x560, .f32⟩ : BufTy).Contents (Elt F) → (⟨S65536x560, .f32⟩ : BufTy).Contents (Elt F)),
    binary main_v59 main_v71 main_v72 (addf : (⟨S65536x560, .f32⟩ : BufTy).Contents (Elt F) → (⟨S65536x560, .f32⟩ : BufTy).Contents (Elt F) → (⟨S65536x560, .f32⟩ : BufTy).Contents (Elt F)),
    binary main_v54 main_v49 main_v73 (subf : (⟨S65536x560, .f32⟩ : BufTy).Contents (Elt F) → (⟨S65536x560, .f32⟩ : BufTy).Contents (Elt F) → (⟨S65536x560, .f32⟩ : BufTy).Contents (Elt F)),
    nullary main_cst_24 (constant S_ .f32 0x3F19999A#32),
    unary main_cst_24 main_v74 (broadcastInDim S65536x560 ![] bcast_S_S65536x560 : (⟨S_, .f32⟩ : BufTy).Contents (Elt F) → (⟨S65536x560, .f32⟩ : BufTy).Contents (Elt F)),
    binary main_v74 main_v73 main_v75 (mulf : (⟨S65536x560, .f32⟩ : BufTy).Contents (Elt F) → (⟨S65536x560, .f32⟩ : BufTy).Contents (Elt F) → (⟨S65536x560, .f32⟩ : BufTy).Contents (Elt F)),
    binary main_v49 main_v75 main_v76 (addf : (⟨S65536x560, .f32⟩ : BufTy).Contents (Elt F) → (⟨S65536x560, .f32⟩ : BufTy).Contents (Elt F) → (⟨S65536x560, .f32⟩ : BufTy).Contents (Elt F)),
    binary main_v64 main_v59 main_v77 (subf : (⟨S65536x560, .f32⟩ : BufTy).Contents (Elt F) → (⟨S65536x560, .f32⟩ : BufTy).Contents (Elt F) → (⟨S65536x560, .f32⟩ : BufTy).Contents (Elt F)),
    nullary main_cst_25 (constant S_ .f32 0x3F19999A#32),
    unary main_cst_25 main_v78 (broadcastInDim S65536x560 ![] bcast_S_S65536x560 : (⟨S_, .f32⟩ : BufTy).Contents (Elt F) → (⟨S65536x560, .f32⟩ : BufTy).Contents (Elt F)),
    binary main_v78 main_v77 main_v79 (mulf : (⟨S65536x560, .f32⟩ : BufTy).Contents (Elt F) → (⟨S65536x560, .f32⟩ : BufTy).Contents (Elt F) → (⟨S65536x560, .f32⟩ : BufTy).Contents (Elt F)),
    binary main_v59 main_v79 main_v80 (addf : (⟨S65536x560, .f32⟩ : BufTy).Contents (Elt F) → (⟨S65536x560, .f32⟩ : BufTy).Contents (Elt F) → (⟨S65536x560, .f32⟩ : BufTy).Contents (Elt F)),
    binary main_v72 main_v68 main_v81 (cmpf .olt : (⟨S65536x560, .f32⟩ : BufTy).Contents (Elt F) → (⟨S65536x560, .f32⟩ : BufTy).Contents (Elt F) → (⟨S65536x560, .i1⟩ : BufTy).Contents (Elt F)),
    binary main_v72 main_v68 main_v82 (cmpf .oeq : (⟨S65536x560, .f32⟩ : BufTy).Contents (Elt F) → (⟨S65536x560, .f32⟩ : BufTy).Contents (Elt F) → (⟨S65536x560, .i1⟩ : BufTy).Contents (Elt F)),
    binary main_v80 main_v76 main_v83 (cmpf .ole : (⟨S65536x560, .f32⟩ : BufTy).Contents (Elt F) → (⟨S65536x560, .f32⟩ : BufTy).Contents (Elt F) → (⟨S65536x560, .i1⟩ : BufTy).Contents (Elt F)),
    binary main_v82 main_v83 main_v84 (andi : (⟨S65536x560, .i1⟩ : BufTy).Contents (Elt F) → (⟨S65536x560, .i1⟩ : BufTy).Contents (Elt F) → (⟨S65536x560, .i1⟩ : BufTy).Contents (Elt F)),
    binary main_v81 main_v84 main_v85 (ori : (⟨S65536x560, .i1⟩ : BufTy).Contents (Elt F) → (⟨S65536x560, .i1⟩ : BufTy).Contents (Elt F) → (⟨S65536x560, .i1⟩ : BufTy).Contents (Elt F)),
    TRef.ternary (.of main_v85 : TRef sig ⟨S65536x560, .i1⟩) (.of main_v59 : TRef sig ⟨S65536x560, .f32⟩) (.of main_v49 : TRef sig ⟨S65536x560, .f32⟩) main_call2.v0 select,
    TRef.ternary (.of main_v85 : TRef sig ⟨S65536x560, .i1⟩) (.of main_v64 : TRef sig ⟨S65536x560, .f32⟩) (.of main_v54 : TRef sig ⟨S65536x560, .f32⟩) main_call3.v0 select,
    binary main_v43 main_v86 main_v88 ((fun a b => concatenate S65536x696 1 [⟨S65536x136, a⟩, ⟨S65536x560, b⟩] concatenates_S65536x136_S65536x560_S65536x696_d1) : (⟨S65536x136, .f32⟩ : BufTy).Contents (Elt F) → (⟨S65536x560, .f32⟩ : BufTy).Contents (Elt F) → (⟨S65536x696, .f32⟩ : BufTy).Contents (Elt F)),
    binary main_v44 main_v87 main_v89 ((fun a b => concatenate S65536x696 1 [⟨S65536x136, a⟩, ⟨S65536x560, b⟩] concatenates_S65536x136_S65536x560_S65536x696_d1) : (⟨S65536x136, .f32⟩ : BufTy).Contents (Elt F) → (⟨S65536x560, .f32⟩ : BufTy).Contents (Elt F) → (⟨S65536x696, .f32⟩ : BufTy).Contents (Elt F)) ]

/-- @main's 118 operations, in order. -/
abbrev ops : List (HloOp τ sig (Elt F)) := opsA ++ opsB

/-- The fold over a concatenation is the second list's fold from the first's. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

end Cert.ReferenceIdeal.RefRun

end
-- ==== Proof.RefRunA.lean ====
/- The first 65 operations of the reference program, from any valuation: the two arrays of 136
   columns are `RefTerm.midLoArr` / `RefTerm.midHiArr` of the two arguments, the arguments are
   unchanged, and the two tables of 560 entries and their four all-false masks hold their constants.
   Each is a computation: the fold unrolled, every operation's result read at the buffer asked for
   (its own value at the buffer it writes, what was there at any other), the gathers and the
   concatenations kept folded meanwhile since the equation never looks inside them. -/
import proofs.«163430_j66640712564831_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather concatenate in
set_option maxRecDepth 8192 in
set_option maxHeartbeats 2000000 in
/-- The lower ends, 136 columns: the first argument's 16 columns, then the 120 pair minima's. -/
theorem A_lo (V : Valuation τ sig (Elt F)) :
    after opsA V (main_v43 : DevRef τ sig) = RefTerm.midLoArr (V (main_arg0 : DevRef τ sig)) (V (main_arg1 : DevRef τ sig)) := by
  simp only [after_cons, after_nil]
  rfl

attribute [local irreducible] Host.gather concatenate in
set_option maxRecDepth 8192 in
set_option maxHeartbeats 2000000 in
/-- The upper ends, 136 columns. -/
theorem A_hi (V : Valuation τ sig (Elt F)) :
    after opsA V (main_v44 : DevRef τ sig) = RefTerm.midHiArr (V (main_arg0 : DevRef τ sig)) (V (main_arg1 : DevRef τ sig)) := by
  simp only [after_cons, after_nil]
  rfl

attribute [local irreducible] Host.gather concatenate in
set_option maxRecDepth 8192 in
set_option maxHeartbeats 2000000 in
/-- No operation writes an argument. -/
theorem A_arg0 (V : Valuation τ sig (Elt F)) :
    after opsA V (main_arg0 : DevRef τ sig) = V (main_arg0 : DevRef τ sig) := by
  simp only [after_cons, after_nil]
  rfl

attribute [local irreducible] Host.gather concatenate in
set_option maxRecDepth 8192 in
set_option maxHeartbeats 2000000 in
theorem A_arg1 (V : Valuation τ sig (Elt F)) :
    after opsA V (main_arg1 : DevRef τ sig) = V (main_arg1 : DevRef τ sig) := by
  simp only [after_cons, after_nil]
  rfl

attribute [local irreducible] Host.gather concatenate in
set_option maxRecDepth 8192 in
set_option maxHeartbeats 2000000 in
/-- The table of the triples' left operands, written once and never again. -/
theorem A_c5 (V : Valuation τ sig (Elt F)) :
    after opsA V (main_c_5 : DevRef τ sig) = RefTerm.tabTL := by
  simp only [after_cons, after_nil]
  rfl

attribute [local irreducible] Host.gather concatenate in
set_option maxRecDepth 8192 in
set_option maxHeartbeats 2000000 in
/-- Its wrap mask: false everywhere. -/
theorem A_c6 (V : Valuation τ sig (Elt F)) :
    after opsA V (main_c_6 : DevRef τ sig) = constantI S560 1 0#1 := by
  simp only [after_cons, after_nil]
  rfl

attribute [local irreducible] Host.gather concatenate in
set_option maxRecDepth 8192 in
set_option maxHeartbeats 2000000 in
theorem A_c7 (V : Valuation τ sig (Elt F)) :
    after opsA V (main_c_7 : DevRef τ sig) = constantI S560 1 0#1 := by
  simp only [after_cons, after_nil]
  rfl

attribute [local irreducible] Host.gather concatenate in
set_option maxRecDepth 8192 in
set_option maxHeartbeats 2000000 in
/-- The table of the triples' right operands. -/
theorem A_c8 (V : Valuation τ sig (Elt F)) :
    after opsA V (main_c_8 : DevRef τ sig) = RefTerm.tabTR := by
  simp only [after_cons, after_nil]
  rfl

attribute [local irreducible] Host.gather concatenate in
set_option maxRecDepth 8192 in
set_option maxHeartbeats 2000000 in
theorem A_c9 (V : Valuation τ sig (Elt F)) :
    after opsA V (main_c_9 : DevRef τ sig) = constantI S560 1 0#1 := by
  simp only [after_cons, after_nil]
  rfl

attribute [local irreducible] Host.gather concatenate in
set_option maxRecDepth 8192 in
set_option maxHeartbeats 2000000 in
theorem A_c10 (V : Valuation τ sig (Elt F)) :
    after opsA V (main_c_10 : DevRef τ sig) = constantI S560 1 0#1 := by
  simp only [after_cons, after_nil]
  rfl

end Cert.ReferenceIdeal.RefRun

end
-- ==== Proof.RefRunB.lean ====
/- The second half of the reference program's run, read off for an arbitrary valuation: from the two
   arrays of 136 columns (and the tables of 560 entries with their all-false masks, which the first
   half wrote) its 53 operations leave the two arrays of 696 columns at `RefTerm.out3Lo` /
   `RefTerm.out3Hi` of those two arrays, and the arguments as they were.

   The 53 operations are cut once more: the first 24 are the four gathers of the 136 columns with
   their index vectors (each result is read off by itself: a chain of six operations); the last 29
   are the order's four points, its comparisons, the two selects and the two concatenations, whose
   results are read off over ANY contents of the four gathered arrays, each shared value visited once. -/
import proofs.«163430_j66640712564831_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 66 … 89 (the first 24 of the second half): four times the same six — the wrap constant, its
    spread, the sum, the select on the all-false mask, the column of start indices, the gather — once for each
    of (lower array, left table), (upper array, left table), (lower array, right table), (upper array, right table). -/
abbrev opsB1 : List (HloOp τ sig (Elt F)) :=
  [ nullary main_c_18 (constantI S_ 32 136#32),
    unary main_c_18 main_v45 (broadcastInDim S560 ![] bcast_S_S560 : (⟨S_, .i32⟩ : BufTy).Contents (Elt F) → (⟨S560, .i32⟩ : BufTy).Contents (Elt F)),
    binary main_c_5 main_v45 main_v46 (addi : (⟨S560, .i32⟩ : BufTy).Contents (Elt F) → (⟨S560, .i32⟩ : BufTy).Contents (Elt F) → (⟨S560, .i32⟩ : BufTy).Contents (Elt F)),
    ternary main_c_6 main_v46 main_c_5 main_v47 (select : (⟨S560, .i1⟩ : BufTy).Contents (Elt F) → (⟨S560, .i32⟩ : BufTy).Contents (Elt F) → (⟨S560, .i32⟩ : BufTy).Contents (Elt F) → (⟨S560, .i32⟩ : BufTy).Contents (Elt F)),
    unary main_v47 main_v48 (broadcastInDim S560x1 ![0] bcast_S560_S560x1_0 : (⟨S560, .i32⟩ : BufTy).Contents (Elt F) → (⟨S560x1, .i32⟩ : BufTy).Contents (Elt F)),
    binary main_v43 main_v48 main_v49 ((fun x i => Host.gather gather_S65536x136_S560x1_S65536x560_0_1_n_n_1_1_655361 x i) : (⟨S65536x136, .f32⟩ : BufTy).Contents (Elt F) → (⟨S560x1, .i32⟩ : BufTy).Contents (Elt F) → (⟨S65536x560, .f32⟩ : BufTy).Contents (Elt F)),
    nullary main_c_19 (constantI S_ 32 136#32),
    unary main_c_19 main_v50 (broadcastInDim S560 ![] bcast_S_S560 : (⟨S_, .i32⟩ : BufTy).Contents (Elt F) → (⟨S560, .i32⟩ : BufTy).Contents (Elt F)),
    binary main_c_5 main_v50 main_v51 (addi : (⟨S560, .i32⟩ : BufTy).Contents (Elt F) → (⟨S560, .i32⟩ : BufTy).Contents (Elt F) → (⟨S560, .i32⟩ : BufTy).Contents (Elt F)),
    ternary main_c_7 main_v51 main_c_5 main_v52 (select : (⟨S560, .i1⟩ : BufTy).Contents (Elt F) → (⟨S560, .i32⟩ : BufTy).Contents (Elt F) → (⟨S560, .i32⟩ : BufTy).Contents (Elt F) → (⟨S560, .i32⟩ : BufTy).Contents (Elt F)),
    unary main_v52 main_v53 (broadcastInDim S560x1 ![0] bcast_S560_S560x1_0 : (⟨S560, .i32⟩ : BufTy).Contents (Elt F) → (⟨S560x1, .i32⟩ : BufTy).Contents (Elt F)),
    binary main_v44 main_v53 main_v54 ((fun x i => Host.gather gather_S65536x136_S560x1_S65536x560_0_1_n_n_1_1_655361 x i) : (⟨S65536x136, .f32⟩ : BufTy).Contents (Elt F) → (⟨S560x1, .i32⟩ : BufTy).Contents (Elt F) → (⟨S65536x560, .f32⟩ : BufTy).Contents (Elt F)),
    nullary main_c_20 (constantI S_ 32 136#32),
    unary main_c_20 main_v55 (broadcastInDim S560 ![] bcast_S_S560 : (⟨S_, .i32⟩ : BufTy).Contents (Elt F) → (⟨S560, .i32⟩ : BufTy).Contents (Elt F)),
    binary main_c_8 main_v55 main_v56 (addi : (⟨S560, .i32⟩ : BufTy).Contents (Elt F) → (⟨S560, .i32⟩ : BufTy).Contents (Elt F) → (⟨S560, .i32⟩ : BufTy).Contents (Elt F)),
    ternary main_c_9 main_v56 main_c_8 main_v57 (select : (⟨S560, .i1⟩ : BufTy).Contents (Elt F) → (⟨S560, .i32⟩ : BufTy).Contents (Elt F) → (⟨S560, .i32⟩ : BufTy).Contents (Elt F) → (⟨S560, .i32⟩ : BufTy).Contents (Elt F)),
    unary main_v57 main_v58 (broadcastInDim S560x1 ![0] bcast_S560_S560x1_0 : (⟨S560, .i32⟩ : BufTy).Contents (Elt F) → (⟨S560x1, .i32⟩ : BufTy).Contents (Elt F)),
    binary main_v43 main_v58 main_v59 ((fun x i => Host.gather gather_S65536x136_S560x1_S65536x560_0_1_n_n_1_1_655361 x i) : (⟨S65536x136, .f32⟩ : BufTy).Contents (Elt F) → (⟨S560x1, .i32⟩ : BufTy).Contents (Elt F) → (⟨S65536x560, .f32⟩ : BufTy).Contents (Elt F)),
    nullary main_c_21 (constantI S_ 32 136#32),
    unary main_c_21 main_v60 (broadcastInDim S560 ![] bcast_S_S560 : (⟨S_, .i32⟩ : BufTy).Contents (Elt F) → (⟨S560, .i32⟩ : BufTy).Contents (Elt F)),
    binary main_c_8 main_v60 main_v61 (addi : (⟨S560, .i32⟩ : BufTy).Contents (Elt F) → (⟨S560, .i32⟩ : BufTy).Contents (Elt F) → (⟨S560, .i32⟩ : BufTy).Contents (Elt F)),
    ternary main_c_10 main_v61 main_c_8 main_v62 (select : (⟨S560, .i1⟩ : BufTy).Contents (Elt F) → (⟨S560, .i32⟩ : BufTy).Contents (Elt F) → (⟨S560, .i32⟩ : BufTy).Contents (Elt F) → (⟨S560, .i32⟩ : BufTy).Contents (Elt F)),
    unary main_v62 main_v63 (broadcastInDim S560x1 ![0] bcast_S560_S560x1_0 : (⟨S560, .i32⟩ : BufTy).Contents (Elt F) → (⟨S560x1, .i32⟩ : BufTy).Contents (Elt F)),
    binary main_v44 main_v63 main_v64 ((fun x i => Host.gather gather_S65536x136_S560x1_S65536x560_0_1_n_n_1_1_655361 x i) : (⟨S65536x136, .f32⟩ : BufTy).Contents (Elt F) → (⟨S560x1, .i32⟩ : BufTy).Contents (Elt F) → (⟨S65536x560, .f32⟩ : BufTy).Contents (Elt F)) ]

/-- Operations 90 … 118 (the last 29): the four points of the order, the three comparisons and their
    combination, the two selects, the two concatenations. -/
abbrev opsB2 : List (HloOp τ sig (Elt F)) :=
  [ binary main_v54 main_v49 main_v65 (subf : (⟨S65536x560, .f32⟩ : BufTy).Contents (Elt F) → (⟨S65536x560, .f32⟩ : BufTy).Contents (Elt F) → (⟨S65536x560, .f32⟩ : BufTy).Contents (Elt F)),
    nullary main_cst_22 (constant S_ .f32 0x3ECCCCCD#32),
    unary main_cst_22 main_v66 (broadcastInDim S65536x560 ![] bcast_S_S65536x560 : (⟨S_, .f32⟩ : BufTy).Contents (Elt F) → (⟨S65536x560, .f32⟩ : BufTy).Contents (Elt F)),
    binary main_v66 main_v65 main_v67 (mulf : (⟨S65536x560, .f32⟩ : BufTy).Contents (Elt F) → (⟨S65536x560, .f32⟩ : BufTy).Contents (Elt F) → (⟨S65536x560, .f32⟩ : BufTy).Contents (Elt F)),
    binary main_v49 main_v67 main_v68 (addf : (⟨S65536x560, .f32⟩ : BufTy).Contents (Elt F) → (⟨S65536x560, .f32⟩ : BufTy).Contents (Elt F) → (⟨S65536x560, .f32⟩ : BufTy).Contents (Elt F)),
    binary main_v64 main_v59 main_v69 (subf : (⟨S65536x560, .f32⟩ : BufTy).Contents (Elt F) → (⟨S65536x560, .f32⟩ : BufTy).Contents (Elt F) → (⟨S65536x560, .f32⟩ : BufTy).Contents (Elt F)),
    nullary main_cst_23 (constant S_ .f32 0x3ECCCCCD#32),
    unary main_cst_23 main_v70 (broadcastInDim S65536x560 ![] bcast_S_S65536x560 : (⟨S_, .f32⟩ : BufTy).Contents (Elt F) → (⟨S65536x560, .f32⟩ : BufTy).Contents (Elt F)),
    binary main_v70 main_v69 main_v71 (mulf : (⟨S65536x560, .f32⟩ : BufTy).Contents (Elt F) → (⟨S65536x560, .f32⟩ : BufTy).Contents (Elt F) → (⟨S65536x560, .f32⟩ : BufTy).Contents (Elt F)),
    binary main_v59 main_v71 main_v72 (addf : (⟨S65536x560, .f32⟩ : BufTy).Contents (Elt F) → (⟨S65536x560, .f32⟩ : BufTy).Contents (Elt F) → (⟨S65536x560, .f32⟩ : BufTy).Contents (Elt F)),
    binary main_v54 main_v49 main_v73 (subf : (⟨S65536x560, .f32⟩ : BufTy).Contents (Elt F) → (⟨S65536x560, .f32⟩ : BufTy).Contents (Elt F) → (⟨S65536x560, .f32⟩ : BufTy).Contents (Elt F)),
    nullary main_cst_24 (constant S_ .f32 0x3F19999A#32),
    unary main_cst_24 main_v74 (broadcastInDim S65536x560 ![] bcast_S_S65536x560 : (⟨S_, .f32⟩ : BufTy).Contents (Elt F) → (⟨S65536x560, .f32⟩ : BufTy).Contents (Elt F)),
    binary main_v74 main_v73 main_v75 (mulf : (⟨S65536x560, .f32⟩ : BufTy).Contents (Elt F) → (⟨S65536x560, .f32⟩ : BufTy).Contents (Elt F) → (⟨S65536x560, .f32⟩ : BufTy).Contents (Elt F)),
    binary main_v49 main_v75 main_v76 (addf : (⟨S65536x560, .f32⟩ : BufTy).Contents (Elt F) → (⟨S65536x560, .f32⟩ : BufTy).Contents (Elt F) → (⟨S65536x560, .f32⟩ : BufTy).Contents (Elt F)),
    binary main_v64 main_v59 main_v77 (subf : (⟨S65536x560, .f32⟩ : BufTy).Contents (Elt F) → (⟨S65536x560, .f32⟩ : BufTy).Contents (Elt F) → (⟨S65536x560, .f32⟩ : BufTy).Contents (Elt F)),
    nullary main_cst_25 (constant S_ .f32 0x3F19999A#32),
    unary main_cst_25 main_v78 (broadcastInDim S65536x560 ![] bcast_S_S65536x560 : (⟨S_, .f32⟩ : BufTy).Contents (Elt F) → (⟨S65536x560, .f32⟩ : BufTy).Contents (Elt F)),
    binary main_v78 main_v77 main_v79 (mulf : (⟨S65536x560, .f32⟩ : BufTy).Contents (Elt F) → (⟨S65536x560, .f32⟩ : BufTy).Contents (Elt F) → (⟨S65536x560, .f32⟩ : BufTy).Contents (Elt F)),
    binary main_v59 main_v79 main_v80 (addf : (⟨S65536x560, .f32⟩ : BufTy).Contents (Elt F) → (⟨S65536x560, .f32⟩ : BufTy).Contents (Elt F) → (⟨S65536x560, .f32⟩ : BufTy).Contents (Elt F)),
    binary main_v72 main_v68 main_v81 (cmpf .olt : (⟨S65536x560, .f32⟩ : BufTy).Contents (Elt F) → (⟨S65536x560, .f32⟩ : BufTy).Contents (Elt F) → (⟨S65536x560, .i1⟩ : BufTy).Contents (Elt F)),
    binary main_v72 main_v68 main_v82 (cmpf .oeq : (⟨S65536x560, .f32⟩ : BufTy).Contents (Elt F) → (⟨S65536x560, .f32⟩ : BufTy).Contents (Elt F) → (⟨S65536x560, .i1⟩ : BufTy).Contents (Elt F)),
    binary main_v80 main_v76 main_v83 (cmpf .ole : (⟨S65536x560, .f32⟩ : BufTy).Contents (Elt F) → (⟨S65536x560, .f32⟩ : BufTy).Contents (Elt F) → (⟨S65536x560, .i1⟩ : BufTy).Contents (Elt F)),
    binary main_v82 main_v83 main_v84 (andi : (⟨S65536x560, .i1⟩ : BufTy).Contents (Elt F) → (⟨S65536x560, .i1⟩ : BufTy).Contents (Elt F) → (⟨S65536x560, .i1⟩ : BufTy).Contents (Elt F)),
    binary main_v81 main_v84 main_v85 (ori : (⟨S65536x560, .i1⟩ : BufTy).Contents (Elt F) → (⟨S65536x560, .i1⟩ : BufTy).Contents (Elt F) → (⟨S65536x560, .i1⟩ : BufTy).Contents (Elt F)),
    TRef.ternary (.of main_v85 : TRef sig ⟨S65536x560, .i1⟩) (.of main_v59 : TRef sig ⟨S65536x560, .f32⟩) (.of main_v49 : TRef sig ⟨S65536x560, .f32⟩) main_call2.v0 select,
    TRef.ternary (.of main_v85 : TRef sig ⟨S65536x560, .i1⟩) (.of main_v64 : TRef sig ⟨S65536x560, .f32⟩) (.of main_v54 : TRef sig ⟨S65536x560, .f32⟩) main_call3.v0 select,
    binary main_v43 main_v86 main_v88 ((fun a b => concatenate S65536x696 1 [⟨S65536x136, a⟩, ⟨S65536x560, b⟩] concatenates_S65536x136_S65536x560_S65536x696_d1) : (⟨S65536x136, .f32⟩ : BufTy).Contents (Elt F) → (⟨S65536x560, .f32⟩ : BufTy).Contents (Elt F) → (⟨S65536x696, .f32⟩ : BufTy).Contents (Elt F)),
    binary main_v44 main_v87 main_v89 ((fun a b => concatenate S65536x696 1 [⟨S65536x136, a⟩, ⟨S65536x560, b⟩] concatenates_S65536x136_S65536x560_S65536x696_d1) : (⟨S65536x136, .f32⟩ : BufTy).Contents (Elt F) → (⟨S65536x560, .f32⟩ : BufTy).Contents (Elt F) → (⟨S65536x696, .f32⟩ : BufTy).Contents (Elt F)) ]

/-- The second half is those two stretches in order. -/
theorem opsB_cut : (opsB : List (HloOp τ sig (Elt F))) = opsB1 ++ opsB2 := rfl

/-! ## The four gathers of the 136 columns, from any valuation that holds the tables and their masks -/

set_option maxHeartbeats 1000000 in
theorem B1_v49 (X : Valuation τ sig (Elt F)) (h5 : X (main_c_5 : DevRef τ sig) = RefTerm.tabTL)
    (h6 : X (main_c_6 : DevRef τ sig) = constantI S560 1 0#1) :
    after opsB1 X (main_v49 : DevRef τ sig) = RefTerm.gT (X (main_v43 : DevRef τ sig)) RefTerm.tabTL := by
  after_results_simp
  rw [h5, h6]
  rfl

set_option maxHeartbeats 1000000 in
theorem B1_v54 (X : Valuation τ sig (Elt F)) (h5 : X (main_c_5 : DevRef τ sig) = RefTerm.tabTL)
    (h7 : X (main_c_7 : DevRef τ sig) = constantI S560 1 0#1) :
    after opsB1 X (main_v54 : DevRef τ sig) = RefTerm.gT (X (main_v44 : DevRef τ sig)) RefTerm.tabTL := by
  after_results_simp
  rw [h5, h7]
  rfl

set_option maxHeartbeats 1000000 in
theorem B1_v59 (X : Valuation τ sig (Elt F)) (h8 : X (main_c_8 : DevRef τ sig) = RefTerm.tabTR)
    (h9 : X (main_c_9 : DevRef τ sig) = constantI S560 1 0#1) :
    after opsB1 X (main_v59 : DevRef τ sig) = RefTerm.gT (X (main_v43 : DevRef τ sig)) RefTerm.tabTR := by
  after_results_simp
  rw [h8, h9]
  rfl

set_option maxHeartbeats 1000000 in
theorem B1_v64 (X : Valuation τ sig (Elt F)) (h8 : X (main_c_8 : DevRef τ sig) = RefTerm.tabTR)
    (h10 : X (main_c_10 : DevRef τ sig) = constantI S560 1 0#1) :
    after opsB1 X (main_v64 : DevRef τ sig) = RefTerm.gT (X (main_v44 : DevRef τ sig)) RefTerm.tabTR := by
  after_results_simp
  rw [h8, h10]
  rfl

/-- The first stretch writes neither array of 136 columns nor an argument. -/
theorem B1_v43 (X : Valuation τ sig (Elt F)) : after opsB1 X (main_v43 : DevRef τ sig) = X (main_v43 : DevRef τ sig) := by after_results
theorem B1_v44 (X : Valuation τ sig (Elt F)) : after opsB1 X (main_v44 : DevRef τ sig) = X (main_v44 : DevRef τ sig) := by after_results
theorem B1_arg0 (X : Valuation τ sig (Elt F)) : after opsB1 X (main_arg0 : DevRef τ sig) = X (main_arg0 : DevRef τ sig) := by after_results
theorem B1_arg1 (X : Valuation τ sig (Elt F)) : after opsB1 X (main_arg1 : DevRef τ sig) = X (main_arg1 : DevRef τ sig) := by after_results

/-! ## The order, the selects and the concatenations, from any valuation -/

set_option maxRecDepth 8192 in
set_option maxHeartbeats 4000000 in
theorem B2_lo (X : Valuation τ sig (Elt F)) :
    after opsB2 X (main_v88 : DevRef τ sig)
      = concatenate S65536x696 1 [⟨S65536x136, X (main_v43 : DevRef τ sig)⟩, ⟨S65536x560,
          select (RefTerm.takeV S65536x560 bcast_S_S65536x560 (X (main_v49 : DevRef τ sig)) (X (main_v54 : DevRef τ sig))
            (X (main_v59 : DevRef τ sig)) (X (main_v64 : DevRef τ sig))) (X (main_v59 : DevRef τ sig)) (X (main_v49 : DevRef τ sig))⟩]
        concatenates_S65536x136_S65536x560_S65536x696_d1 := by
  after_results_simp
  rfl

set_option maxRecDepth 8192 in
set_option maxHeartbeats 4000000 in
theorem B2_hi (X : Valuation τ sig (Elt F)) :
    after opsB2 X (main_v89 : DevRef τ sig)
      = concatenate S65536x696 1 [⟨S65536x136, X (main_v44 : DevRef τ sig)⟩, ⟨S65536x560,
          select (RefTerm.takeV S65536x560 bcast_S_S65536x560 (X (main_v49 : DevRef τ sig)) (X (main_v54 : DevRef τ sig))
            (X (main_v59 : DevRef τ sig)) (X (main_v64 : DevRef τ sig))) (X (main_v64 : DevRef τ sig)) (X (main_v54 : DevRef τ sig))⟩]
        concatenates_S65536x136_S65536x560_S65536x696_d1 := by
  after_results_simp
  rfl

theorem B2_arg0 (X : Valuation τ sig (Elt F)) : after opsB2 X (main_arg0 : DevRef τ sig) = X (main_arg0 : DevRef τ sig) := by after_results_simp
theorem B2_arg1 (X : Valuation τ sig (Elt F)) : after opsB2 X (main_arg1 : DevRef τ sig) = X (main_arg1 : DevRef τ sig) := by after_results_simp

/-! ## The second half -/

/-- The second half leaves the lower ends' 696 columns at `RefTerm.out3Lo` of the two arrays of 136 columns it found. -/
theorem B_lo (W : Valuation τ sig (Elt F))
    (h5 : W (main_c_5 : DevRef τ sig) = RefTerm.tabTL) (h6 : W (main_c_6 : DevRef τ sig) = constantI S560 1 0#1)
    (h7 : W (main_c_7 : DevRef τ sig) = constantI S560 1 0#1) (h8 : W (main_c_8 : DevRef τ sig) = RefTerm.tabTR)
    (h9 : W (main_c_9 : DevRef τ sig) = constantI S560 1 0#1) (h10 : W (main_c_10 : DevRef τ sig) = constantI S560 1 0#1) :
    after opsB W (main_v88 : DevRef τ sig) = RefTerm.out3Lo (W (main_v43 : DevRef τ sig)) (W (main_v44 : DevRef τ sig)) := by
  rw [opsB_cut, after_app, B2_lo, B1_v43, B1_v49 W h5 h6, B1_v54 W h5 h7, B1_v59 W h8 h9, B1_v64 W h8 h10]
  rfl

/-- The second half leaves the upper ends' 696 columns at `RefTerm.out3Hi` of the two arrays of 136 columns it found. -/
theorem B_hi (W : Valuation τ sig (Elt F))
    (h5 : W (main_c_5 : DevRef τ sig) = RefTerm.tabTL) (h6 : W (main_c_6 : DevRef τ sig) = constantI S560 1 0#1)
    (h7 : W (main_c_7 : DevRef τ sig) = constantI S560 1 0#1) (h8 : W (main_c_8 : DevRef τ sig) = RefTerm.tabTR)
    (h9 : W (main_c_9 : DevRef τ sig) = constantI S560 1 0#1) (h10 : W (main_c_10 : DevRef τ sig) = constantI S560 1 0#1) :
    after opsB W (main_v89 : DevRef τ sig) = RefTerm.out3Hi (W (main_v43 : DevRef τ sig)) (W (main_v44 : DevRef τ sig)) := by
  rw [opsB_cut, after_app, B2_hi, B1_v44, B1_v49 W h5 h6, B1_v54 W h5 h7, B1_v59 W h8 h9, B1_v64 W h8 h10]
  rfl

/-- The second half writes neither argument. -/
theorem B_arg0 (W : Valuation τ sig (Elt F)) : after opsB W (main_arg0 : DevRef τ sig) = W (main_arg0 : DevRef τ sig) := by
  rw [opsB_cut, after_app, B2_arg0, B1_arg0]
theorem B_arg1 (W : Valuation τ sig (Elt F)) : after opsB W (main_arg1 : DevRef τ sig) = W (main_arg1 : DevRef τ sig) := by
  rw [opsB_cut, after_app, B2_arg1, B1_arg1]

end Cert.ReferenceIdeal.RefRun

end
-- ==== Proof.RefRun.lean ====
/- The reference program's run. @main is the straight line of its 118 operations; the first window's
   values (the two arrays of 136 columns, the arguments, the tables of 560 entries) and the second
   window's values over them compose to the two results, and the program's run from any memory ends
   with the results at `RefTerm.outLo` / `RefTerm.outHi` of the arguments' contents and the
   arguments unchanged. -/
import proofs.«163430_j66640712564831_1_alg».proof.Proof.RefOps
import proofs.«163430_j66640712564831_1_alg».proof.Proof.RefRunA
import proofs.«163430_j66640712564831_1_alg».proof.Proof.RefRunB

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the line is 118 steps long
set_option maxRecDepth 4096 in
set_option maxHeartbeats 4000000 in
/-- @main is that straight line: its two windows and the local functions' bodies unfolded, both sides
    are one chain of steps once sequencing is re-associated. -/
theorem main_eq (c : Dev nD) : main (F := F) c = seq ops := by
  rw [show (ops : List (HloOp τ sig (Elt F))) = opsA ++ opsB from rfl, seq_append]
  simp only [main, main_part0, main_part1, fn_where.body, fn_where_0.body, seq, bind_assoc, pure_bind] <;> rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., nullary_bufs_sub .., nullary_bufs_sub .., nullary_bufs_sub .., nullary_bufs_sub .., nullary_bufs_sub ..,
    nullary_bufs_sub .., nullary_bufs_sub .., nullary_bufs_sub .., nullary_bufs_sub .., nullary_bufs_sub .., nullary_bufs_sub ..,
    nullary_bufs_sub .., unary_bufs_sub .., binary_bufs_sub .., ternary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., binary_bufs_sub .., binary_bufs_sub ..,
    nullary_bufs_sub .., unary_bufs_sub .., binary_bufs_sub .., binary_bufs_sub .., binary_bufs_sub .., nullary_bufs_sub ..,
    unary_bufs_sub .., binary_bufs_sub .., binary_bufs_sub .., binary_bufs_sub .., nullary_bufs_sub .., unary_bufs_sub ..,
    binary_bufs_sub .., binary_bufs_sub .., binary_bufs_sub .., binary_bufs_sub .., binary_bufs_sub .., binary_bufs_sub ..,
    binary_bufs_sub .., ternary_bufs_sub .., ternary_bufs_sub .., binary_bufs_sub .., binary_bufs_sub ..⟩

theorem opsB_sub : (opsB : List (HloOp τ sig (Elt F))).Forall fun op => op.bufs ⊆ tcRefs τ sig :=
  ⟨nullary_bufs_sub .., unary_bufs_sub .., binary_bufs_sub .., ternary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., binary_bufs_sub .., binary_bufs_sub ..,
    nullary_bufs_sub .., unary_bufs_sub .., binary_bufs_sub .., binary_bufs_sub .., binary_bufs_sub .., nullary_bufs_sub ..,
    unary_bufs_sub .., binary_bufs_sub .., binary_bufs_sub .., binary_bufs_sub .., nullary_bufs_sub .., unary_bufs_sub ..,
    binary_bufs_sub .., binary_bufs_sub .., binary_bufs_sub .., binary_bufs_sub .., binary_bufs_sub .., binary_bufs_sub ..,
    binary_bufs_sub .., ternary_bufs_sub .., ternary_bufs_sub .., binary_bufs_sub .., binary_bufs_sub ..⟩

theorem ops_sub : (ops : List (HloOp τ sig (Elt F))).Forall fun op => op.bufs ⊆ tcRefs τ sig :=
  List.forall_iff_forall_mem.mpr fun op h => (List.mem_append.mp h).elim
    (List.forall_iff_forall_mem.mp opsA_sub op) (List.forall_iff_forall_mem.mp opsB_sub op)

/-! ## The whole line: the second window's values at the first window's valuation -/

theorem out_lo (V : Valuation τ sig (Elt F)) :
    after ops V (main_v88 : DevRef τ sig) = RefTerm.outLo (V (main_arg0 : DevRef τ sig)) (V (main_arg1 : DevRef τ sig)) := by
  rw [show (ops : List (HloOp τ sig (Elt F))) = opsA ++ opsB from rfl, after_app,
    B_lo _ (A_c5 V) (A_c6 V) (A_c7 V) (A_c8 V) (A_c9 V) (A_c10 V), A_lo, A_hi]
  rfl

theorem out_hi (V : Valuation τ sig (Elt F)) :
    after ops V (main_v89 : DevRef τ sig) = RefTerm.outHi (V (main_arg0 : DevRef τ sig)) (V (main_arg1 : DevRef τ sig)) := by
  rw [show (ops : List (HloOp τ sig (Elt F))) = opsA ++ opsB from rfl, after_app,
    B_hi _ (A_c5 V) (A_c6 V) (A_c7 V) (A_c8 V) (A_c9 V) (A_c10 V), A_lo, A_hi]
  rfl

theorem arg0_eq (V : Valuation τ sig (Elt F)) : after ops V (main_arg0 : DevRef τ sig) = V (main_arg0 : DevRef τ sig) := by
  rw [show (ops : List (HloOp τ sig (Elt F))) = opsA ++ opsB from rfl, after_app, B_arg0, A_arg0]

theorem arg1_eq (V : Valuation τ sig (Elt F)) : after ops V (main_arg1 : DevRef τ sig) = V (main_arg1 : DevRef τ sig) := by
  rw [show (ops : List (HloOp τ sig (Elt F))) = opsA ++ opsB from rfl, after_app, B_arg1, A_arg1]

/-- On every device, for any float values, from any memory with zero counters: every weakly fair execution of
    @main terminates with the two results at `RefTerm.outLo` / `RefTerm.outHi` of the arguments' launch
    contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v88) = RefTerm.outLo (m ((c.tc : Thread nD τ).loc main_arg0)) (m ((c.tc : Thread nD τ).loc main_arg1))
      ∧ r.2.mem ((c.tc : Thread nD τ).loc main_v89) = RefTerm.outHi (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v88).trans (out_lo _), (h c main_v89).trans (out_hi _),
      (h c main_arg0).trans (arg0_eq _), (h c main_arg1).trans (arg1_eq _)⟩)
    (run_seq scopedRefs_eq scopedSems_eq defs main (fun _ => ops) main_eq (fun _ => ops_sub) m ρ)

end Cert.ReferenceIdeal.RefRun

end
-- ==== Proof.LibColumns.lean ====
/-
  Two rank-2 shape operations READ AT AN INDEX (r, q), for any element type.

  * A COLUMN GATHER.  `x[:, idx]` of a matrix `x : [R, K]` at a list of `M` column numbers prints as
    `stablehlo.gather` with start indices `[M, 1]`, offset_dims `[0]`, collapsed_slice_dims `[1]`,
    start_index_map `[1]`, index_vector_dim `1` and slice_sizes `[R, 1]`; the result is `[R, M]`.  Its element
    (r, q) is `x` at row `r` and at the column the start index `idx[q, 0]` names, read signed and clamped into
    `[0, K − 1]`: the row axis is an offset axis (the coordinate is the result's own), the column axis is collapsed
    and named by the start index map (the coordinate is the clamped start alone; the slice size 1 leaves the clamp's
    upper bound `K − 1`).

  * TWO MATRICES SIDE BY SIDE.  `concatenate` of `a : [R, K₁]` and `b : [R, K₂]` along axis 1 reads `a` at
    (r, q) when `q < K₁` and `b` at (r, q − K₁) otherwise.
-/
import Idealize.ShloMosaic.PureOps
import Idealize.ShloMosaic.Lib.ValueIdx
import Idealize.ShloMosaic.Lib.Pipeline.Value

noncomputable section

namespace Idealize.ShloMosaic.Columns

open Idealize.ShloMosaic Idealize.ShloMosaic.ValueIdx

variable {α : Type}

/-! ## The column gather -/

/-- The dimension numbers of `x[:, idx]` for an operand `[R, K]`, start indices `[M, 1]` and result `[R, M]`; their
    conditions `wf` are decided on a program's literal shapes. -/
abbrev colGather (R K M : Nat)
    (wf : GatherDims.WF ⟨2, ![R, K]⟩ ⟨2, ![M, 1]⟩ ⟨2, ![R, M]⟩ [0] [1] [] [1] [] 1 ![R, 1]) :
    GatherDims ⟨2, ![R, K]⟩ ⟨2, ![M, 1]⟩ ⟨2, ![R, M]⟩ where
  offsetDims := [0]
  collapsedSliceDims := [1]
  operandBatchingDims := []
  startIndicesBatchingDims := []
  startIndexMap := [1]
  indexVectorDim := 1
  sliceSizes := ![R, 1]
  wf := wf

/-- THE COLUMN GATHER READ AT (r, q): the operand at row `r` and at the column `idx[q, 0]`, read signed and clamped
    into `[0, K − 1]`. -/
theorem colGather_apply {R K M w : Nat} (hK : 0 < K)
    (wf : GatherDims.WF ⟨2, ![R, K]⟩ ⟨2, ![M, 1]⟩ ⟨2, ![R, M]⟩ [0] [1] [] [1] [] 1 ![R, 1])
    (x : (⟨2, ![R, K]⟩ : Shape).Idx → α) (idx : IVec ⟨2, ![M, 1]⟩ w) (r : Fin R) (q : Fin M) :
    Host.gather (colGather R K M wf) x idx (ix2 r q)
      = x (ix2 r ⟨min (idx (ix2 q 0)).toInt.toNat (K - 1), by omega⟩) := by
  unfold Host.gather
  congr 1
  funext a
  refine Fin.ext ?_
  match a with
  | ⟨0, _⟩ =>
    -- the row axis: not in the start index map, not a batching axis, the one kept (offset) axis
    show (colGather R K M wf).start (ix2 r q) idx 0 + (colGather R K M wf).batchCoord (ix2 r q) 0
      + (colGather R K M wf).offCoord (ix2 r q) 0 = r.val
    rw [GatherDims.batchCoord_eq_zero _ _ _ List.not_mem_nil]
    unfold GatherDims.start
    rw [dif_neg (show (0 : Fin 2) ∉ ([1] : List (Fin 2)) by decide)]
    unfold GatherDims.offCoord
    rw [dif_pos ((GatherDims.mem_sKept (colGather R K M wf) 0).mpr
      ⟨show (0 : Fin 2) ∉ ([1] : List (Fin 2)) by decide, List.not_mem_nil⟩)]
    simp only [Nat.zero_add, Nat.add_zero]
    rfl
  | ⟨1, _⟩ =>
    -- the column axis: collapsed, named by the start index map
    show (colGather R K M wf).start (ix2 r q) idx 1 + (colGather R K M wf).batchCoord (ix2 r q) 1
      + (colGather R K M wf).offCoord (ix2 r q) 1 = min (idx (ix2 q 0)).toInt.toNat (K - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colGather R K M wf).startIndexMap from List.mem_singleton.mpr rfl)]
    have hsi : (colGather R K M wf).siIdx (ix2 r q) ⟨List.idxOf (1 : Fin 2) (colGather R K M wf).startIndexMap,
        List.idxOf_lt_length_iff.2 (List.mem_singleton.mpr rfl)⟩ = ix2 q 0 := by
      funext b; refine Fin.ext ?_
      match b with
      | ⟨0, _⟩ => rfl
      | ⟨1, _⟩ => rfl
    rw [hsi]
    rfl

/-! ## Two matrices side by side -/

/-- A concatenation along the columns read in the LEFT part: the left matrix at the same place. -/
theorem concat_cols_left {R K₁ K₂ K : Nat} (a : (⟨2, ![R, K₁]⟩ : Shape).Idx → α) (b : (⟨2, ![R, K₂]⟩ : Shape).Idx → α)
    (h : Shape.Concatenates [⟨2, ![R, K₁]⟩, ⟨2, ![R, K₂]⟩] ⟨2, ![R, K]⟩ 1) (r : Fin R) (q : Fin K) (hq : q.val < K₁) :
    concatenate ⟨2, ![R, K]⟩ 1 [⟨⟨2, ![R, K₁]⟩, a⟩, ⟨⟨2, ![R, K₂]⟩, b⟩] h (ix2 r q) = a (ix2 r ⟨q.val, hq⟩) := by
  refine concatenate_pair_apply_left 1 a b h (ix2 r q) rfl (ix2 r ⟨q.val, hq⟩) ?_
  intro c
  match c with
  | ⟨0, _⟩ => rfl
  | ⟨1, _⟩ => rfl

/-- A concatenation along the columns read in the RIGHT part: the right matrix, the left one's width to the left. -/
theorem concat_cols_right {R K₁ K₂ K : Nat} (a : (⟨2, ![R, K₁]⟩ : Shape).Idx → α) (b : (⟨2, ![R, K₂]⟩ : Shape).Idx → α)
    (h : Shape.Concatenates [⟨2, ![R, K₁]⟩, ⟨2, ![R, K₂]⟩] ⟨2, ![R, K]⟩ 1) (r : Fin R) (q : Fin K) (hq : K₁ ≤ q.val)
    (hq₂ : q.val - K₁ < K₂) :
    concatenate ⟨2, ![R, K]⟩ 1 [⟨⟨2, ![R, K₁]⟩, a⟩, ⟨⟨2, ![R, K₂]⟩, b⟩] h (ix2 r q) = b (ix2 r ⟨q.val - K₁, hq₂⟩) := by
  refine concatenate_pair_apply_right 1 a b h (ix2 r q) rfl rfl (ix2 r ⟨q.val - K₁, hq₂⟩) ?_ ?_
  · intro c hc
    match c with
    | ⟨0, _⟩ => rfl
    | ⟨1, _⟩ => exact absurd rfl hc
  · show q.val - K₁ + K₁ = q.val
    omega

end Idealize.ShloMosaic.Columns

end
-- ==== Proof.RefRead.lean ====
/-
  The reference program's two results READ AT AN INDEX are the entries of the subset table.

  The reference builds its results from whole arrays: four column gathers of the two arguments along the pair
  tables, the order's comparison entrywise, a select, a concatenation behind the sixteen given columns (the
  arrays of 136 columns), then the same once more along the triple tables over those arrays (the arrays of 696
  columns).  Read at (r, q) every step is one of:
    * an entrywise operation, which reads its operands at (r, q);
    * a constant spread over the shape, which reads the constant;
    * a column gather, which reads row r at the column its start index names, clamped: the start index of
      column q is entry q of the literal table (the wrap-around of negative entries is selected by a mask
      that is false everywhere), so the column is `pairLeft q`, `pairRight q`, `tripleLeft q` or
      `tripleRight q` by definition;
    * a concatenation along the columns, which reads the left part when q is below its width and the right
      part at q less that width otherwise.
  These are exactly the cases of `lo2` / `hi2` and `lo3` / `hi3`.  No law of arithmetic is used.
-/
import proofs.«163430_j66640712564831_1_alg».proof.Proof.LibColumns
import proofs.«163430_j66640712564831_1_alg».proof.Proof.Tables
import proofs.«163430_j66640712564831_1_alg».proof.Proof.RefTerm

noncomputable section

namespace Cert.ReferenceIdeal.RefRead

open Idealize.ShloMosaic Idealize.ShloMosaic.ValueIdx Idealize.ShloMosaic.Columns
open Cert.IntervalMin Cert.Tables Cert.ReferenceIdeal

variable {F : FTy → Type} [FloatOps F]

/-! ## A broadcast column and a one-axis row-major position -/

section Generic

/-- A vector of `n` entries spread as the one column of an `n × 1` matrix reads entry `q` at (q, 0). -/
theorem bcast_col_at {α : Type} {n : Nat} (h : (⟨1, ![n]⟩ : Shape).BroadcastsInDim ⟨2, ![n, 1]⟩ ![0])
    (x : (⟨1, ![n]⟩ : Shape).Idx → α) (q : Fin n) :
    broadcastInDim ⟨2, ![n, 1]⟩ ![0] h x (ix2 q 0) = x (ix1 q) := by
  refine broadcastInDim_apply ![0] h x (ix2 q 0) (ix1 q) ?_
  intro a
  match a with
  | ⟨0, _⟩ =>
    show q.val = if n = 1 then 0 else q.val
    split
    · omega
    · rfl

/-- The row-major position of a one-axis index is its coordinate. -/
theorem rowMajor_ix1 {n : Nat} (q : Fin n) : ((⟨1, ![n]⟩ : Shape).rowMajor (ix1 q)).val = q.val :=
  Shape.rowMajor_val_one _

end Generic

variable [Facts]
open Facts₀

/-! ## The start indices: entry q of the literal table -/

/-- The pair start indices at (q, 0): the table's entry q (the select's mask is the zero bit). -/
theorem idxP_at (c : IVec S120 32) (q : Fin 120) : RefTerm.idxP (F := F) c (ix2 q 0) = c (ix1 q) := by
  unfold RefTerm.idxP
  rw [bcast_col_at, select_apply]
  exact select_zero _ _

/-- The triple start indices at (q, 0): the table's entry q. -/
theorem idxT_at (c : IVec S560 32) (q : Fin 560) : RefTerm.idxT (F := F) c (ix2 q 0) = c (ix1 q) := by
  unfold RefTerm.idxT
  rw [bcast_col_at, select_apply]
  exact select_zero _ _

theorem tabPL_at (q : Fin 120) : RefTerm.tabPL (F := F) (ix1 q) = lit0 q :=
  congrArg lit0 (Fin.ext (rowMajor_ix1 q))
theorem tabPR_at (q : Fin 120) : RefTerm.tabPR (F := F) (ix1 q) = lit1 q :=
  congrArg lit1 (Fin.ext (rowMajor_ix1 q))
theorem tabTL_at (q : Fin 560) : RefTerm.tabTL (F := F) (ix1 q) = lit2 q :=
  congrArg lit2 (Fin.ext (rowMajor_ix1 q))
theorem tabTR_at (q : Fin 560) : RefTerm.tabTR (F := F) (ix1 q) = lit3 q :=
  congrArg lit3 (Fin.ext (rowMajor_ix1 q))

/-! ## The gathers: row r at the table's column -/

/-- A gather of sixteen columns along a table of 120 words, at (r, q): row r at the clamped entry q. -/
theorem gP_at (x : S65536x16.Idx → F .f32) (c : IVec S120 32) (r : Fin 65536) (q : Fin 120) :
    RefTerm.gP x c (ix2 r q) = x (ix2 r (clampCol 16 (by decide) (c (ix1 q)))) := by
  unfold RefTerm.gP
  refine (colGather_apply (by decide) gather_S65536x16_S120x1_S65536x120_0_1_n_n_1_1_655361_wf x
    (RefTerm.idxP (F := F) c) r q).trans ?_
  exact congrArg (fun v => x (ix2 r (clampCol 16 (by decide) v))) (idxP_at c q)

/-- A gather of 136 columns along a table of 560 words, at (r, q): row r at the clamped entry q. -/
theorem gT_at (y : S65536x136.Idx → F .f32) (c : IVec S560 32) (r : Fin 65536) (q : Fin 560) :
    RefTerm.gT y c (ix2 r q) = y (ix2 r (clampCol 136 (by decide) (c (ix1 q)))) := by
  unfold RefTerm.gT
  refine (colGather_apply (by decide) gather_S65536x136_S560x1_S65536x560_0_1_n_n_1_1_655361_wf y
    (RefTerm.idxT (F := F) c) r q).trans ?_
  exact congrArg (fun v => y (ix2 r (clampCol 136 (by decide) v))) (idxT_at c q)

theorem gPL_at (x : S65536x16.Idx → F .f32) (r : Fin 65536) (q : Fin 120) :
    RefTerm.gP x RefTerm.tabPL (ix2 r q) = x (ix2 r (pairLeft q)) := by
  rw [gP_at, tabPL_at]; rfl
theorem gPR_at (x : S65536x16.Idx → F .f32) (r : Fin 65536) (q : Fin 120) :
    RefTerm.gP x RefTerm.tabPR (ix2 r q) = x (ix2 r (pairRight q)) := by
  rw [gP_at, tabPR_at]; rfl
theorem gTL_at (y : S65536x136.Idx → F .f32) (r : Fin 65536) (q : Fin 560) :
    RefTerm.gT y RefTerm.tabTL (ix2 r q) = y (ix2 r (tripleLeft q)) := by
  rw [gT_at, tabTL_at]; rfl
theorem gTR_at (y : S65536x136.Idx → F .f32) (r : Fin 65536) (q : Fin 560) :
    RefTerm.gT y RefTerm.tabTR (ix2 r q) = y (ix2 r (tripleRight q)) := by
  rw [gT_at, tabTR_at]; rfl

/-! ## The order's bit, entrywise -/

/-- The entrywise bit at an index is the order's bit of the four entries (the two constants are `alpha`, `beta`). -/
theorem takeV_at (S : Shape) (bc : S_.BroadcastsInDim S (![] : Fin 0 → Fin S.rank))
    (ll lu rl ru : S.Idx → F .f32) (i : S.Idx) :
    RefTerm.takeV S bc ll lu rl ru i = takeRight (ll i) (lu i) (rl i) (ru i) := rfl

/-! ## Level two -/

/-- The lower end of pair q's minimum in row r. -/
theorem pairLo_at (xl xu : S65536x16.Idx → F .f32) (r : Fin 65536) (q : Fin 120) :
    RefTerm.pairLo xl xu (ix2 r q) = minLo (xl (ix2 r (pairLeft q))) (xu (ix2 r (pairLeft q)))
      (xl (ix2 r (pairRight q))) (xu (ix2 r (pairRight q))) := by
  unfold RefTerm.pairLo RefTerm.take2
  rw [select_apply, takeV_at, gPL_at, gPL_at, gPR_at, gPR_at]
  rfl

/-- The upper end of pair q's minimum in row r. -/
theorem pairHi_at (xl xu : S65536x16.Idx → F .f32) (r : Fin 65536) (q : Fin 120) :
    RefTerm.pairHi xl xu (ix2 r q) = minHi (xl (ix2 r (pairLeft q))) (xu (ix2 r (pairLeft q)))
      (xl (ix2 r (pairRight q))) (xu (ix2 r (pairRight q))) := by
  unfold RefTerm.pairHi RefTerm.take2
  rw [select_apply, takeV_at, gPL_at, gPL_at, gPR_at, gPR_at]
  rfl

/-- The specification's 136 columns at (r, q). -/
theorem midLo_at (xl xu : S65536x16.Idx → F .f32) (r : Fin 65536) (q : Fin 136) :
    midLo 65536 xl xu (ix2 r q) = lo2 pairLeft pairRight (rowOf xl r) (rowOf xu r) q := rfl
theorem midHi_at (xl xu : S65536x16.Idx → F .f32) (r : Fin 65536) (q : Fin 136) :
    midHi 65536 xl xu (ix2 r q) = hi2 pairLeft pairRight (rowOf xl r) (rowOf xu r) q := rfl

/-- THE ARRAYS OF 136 COLUMNS, lower ends: the sixteen given columns, then the 120 pair minima. -/
theorem midLoArr_eq (xl xu : S65536x16.Idx → F .f32) : RefTerm.midLoArr xl xu = midLo 65536 xl xu := by
  funext y
  obtain ⟨r, q, rfl⟩ : ∃ (r : Fin 65536) (q : Fin 136), y = ix2 r q := ⟨y 0, y 1, eq_ix2 y⟩
  rw [midLo_at]
  unfold RefTerm.midLoArr lo2
  by_cases h : q.val < 16
  · rw [dif_pos h]
    exact concat_cols_left xl (RefTerm.pairLo xl xu) concatenates_S65536x16_S65536x120_S65536x136_d1 r q h
  · rw [dif_neg h]
    refine (concat_cols_right xl (RefTerm.pairLo xl xu) concatenates_S65536x16_S65536x120_S65536x136_d1 r q
      (by omega) (by omega)).trans ?_
    rw [pairLo_at]
    rfl

/-- THE ARRAYS OF 136 COLUMNS, upper ends. -/
theorem midHiArr_eq (xl xu : S65536x16.Idx → F .f32) : RefTerm.midHiArr xl xu = midHi 65536 xl xu := by
  funext y
  obtain ⟨r, q, rfl⟩ : ∃ (r : Fin 65536) (q : Fin 136), y = ix2 r q := ⟨y 0, y 1, eq_ix2 y⟩
  rw [midHi_at]
  unfold RefTerm.midHiArr hi2
  by_cases h : q.val < 16
  · rw [dif_pos h]
    exact concat_cols_left xu (RefTerm.pairHi xl xu) concatenates_S65536x16_S65536x120_S65536x136_d1 r q h
  · rw [dif_neg h]
    refine (concat_cols_right xu (RefTerm.pairHi xl xu) concatenates_S65536x16_S65536x120_S65536x136_d1 r q
      (by omega) (by omega)).trans ?_
    rw [pairHi_at]
    rfl

/-! ## Level three, over any two arrays of 136 columns -/

/-- The lower end of triple q's minimum in row r. -/
theorem tripLo_at (ml mu : S65536x136.Idx → F .f32) (r : Fin 65536) (q : Fin 560) :
    RefTerm.tripLo ml mu (ix2 r q) = minLo (ml (ix2 r (tripleLeft q))) (mu (ix2 r (tripleLeft q)))
      (ml (ix2 r (tripleRight q))) (mu (ix2 r (tripleRight q))) := by
  unfold RefTerm.tripLo RefTerm.take3
  rw [select_apply, takeV_at, gTL_at, gTL_at, gTR_at, gTR_at]
  rfl

/-- The upper end of triple q's minimum in row r. -/
theorem tripHi_at (ml mu : S65536x136.Idx → F .f32) (r : Fin 65536) (q : Fin 560) :
    RefTerm.tripHi ml mu (ix2 r q) = minHi (ml (ix2 r (tripleLeft q))) (mu (ix2 r (tripleLeft q)))
      (ml (ix2 r (tripleRight q))) (mu (ix2 r (tripleRight q))) := by
  unfold RefTerm.tripHi RefTerm.take3
  rw [select_apply, takeV_at, gTL_at, gTL_at, gTR_at, gTR_at]
  rfl

/-- The specification's 696 columns at (r, q). -/
theorem specLo_at (xl xu : S65536x16.Idx → F .f32) (r : Fin 65536) (q : Fin 696) :
    specLo 65536 xl xu (ix2 r q) = lo3 pairLeft pairRight tripleLeft tripleRight (rowOf xl r) (rowOf xu r) q := rfl
theorem specHi_at (xl xu : S65536x16.Idx → F .f32) (r : Fin 65536) (q : Fin 696) :
    specHi 65536 xl xu (ix2 r q) = hi3 pairLeft pairRight tripleLeft tripleRight (rowOf xl r) (rowOf xu r) q := rfl

/-! ## The two results -/

/-- THE FIRST RESULT is the table of lower ends. -/
theorem outLo_eq (xl xu : S65536x16.Idx → F .f32) : RefTerm.outLo xl xu = specLo 65536 xl xu := by
  funext y
  obtain ⟨r, q, rfl⟩ : ∃ (r : Fin 65536) (q : Fin 696), y = ix2 r q := ⟨y 0, y 1, eq_ix2 y⟩
  rw [specLo_at]
  unfold RefTerm.outLo RefTerm.out3Lo lo3
  rw [midLoArr_eq, midHiArr_eq]
  by_cases h : q.val < 136
  · rw [dif_pos h]
    exact concat_cols_left (midLo 65536 xl xu) (RefTerm.tripLo (midLo 65536 xl xu) (midHi 65536 xl xu))
      concatenates_S65536x136_S65536x560_S65536x696_d1 r q h
  · rw [dif_neg h]
    refine (concat_cols_right (midLo 65536 xl xu) (RefTerm.tripLo (midLo 65536 xl xu) (midHi 65536 xl xu))
      concatenates_S65536x136_S65536x560_S65536x696_d1 r q (by omega) (by omega)).trans ?_
    rw [tripLo_at]
    rfl

/-- THE SECOND RESULT is the table of upper ends. -/
theorem outHi_eq (xl xu : S65536x16.Idx → F .f32) : RefTerm.outHi xl xu = specHi 65536 xl xu := by
  funext y
  obtain ⟨r, q, rfl⟩ : ∃ (r : Fin 65536) (q : Fin 696), y = ix2 r q := ⟨y 0, y 1, eq_ix2 y⟩
  rw [specHi_at]
  unfold RefTerm.outHi RefTerm.out3Hi hi3
  rw [midLoArr_eq, midHiArr_eq]
  by_cases h : q.val < 136
  · rw [dif_pos h]
    exact concat_cols_left (midHi 65536 xl xu) (RefTerm.tripHi (midLo 65536 xl xu) (midHi 65536 xl xu))
      concatenates_S65536x136_S65536x560_S65536x696_d1 r q h
  · rw [dif_neg h]
    refine (concat_cols_right (midHi 65536 xl xu) (RefTerm.tripHi (midLo 65536 xl xu) (midHi 65536 xl xu))
      concatenates_S65536x136_S65536x560_S65536x696_d1 r q (by omega) (by omega)).trans ?_
    rw [tripHi_at]
    rfl

end Cert.ReferenceIdeal.RefRead

end
-- ==== Proof.lean ====
/-
  The claim, assembled.

  Both programs take two arrays of 65536 rows and sixteen columns, the lower and upper ends of sixteen intervals a
  row, and return two arrays of 696 columns: for every subset of at most three of the sixteen columns (the sixteen
  singletons, the 120 pairs, the 560 triples, in that order) the lower and the upper end of the subset's minimum
  interval under the admissible order  K_{α,β}  (the right interval is taken when its point  l + α·(u − l)  is the
  smaller, or the two are equal and its point at β is not the larger).  A pair's minimum is taken of two singletons, a
  triple's of two entries of the first 136.

  Each program's results are proved equal to ONE function of the two argument arrays, `Cert.Tables.specLo 65536` and
  `Cert.Tables.specHi 65536`: the kernel's through its 64 blocks of 1024 rows, each block's stored columns being the
  table of that block's rows (`Cert.KernelIdeal.Final.run`); the reference's through its column gathers and
  concatenations read at an index (`Cert.ReferenceIdeal.RefRun.run` gives the results as terms of the arguments,
  `Cert.ReferenceIdeal.RefRead.outLo_eq` / `outHi_eq` read those terms entry by entry).  The two programs apply the
  same operations to the same entries in the same order, so no law of arithmetic enters, and nothing is used of the
  arguments being finite.  The three frame claims are the runs' last two conjuncts: the arguments end unchanged.
-/
import proofs.«163430_j66640712564831_1_alg».proof.Defs
import proofs.«163430_j66640712564831_1_alg».proof.Proof.Gen.Kernel
import proofs.«163430_j66640712564831_1_alg».proof.Proof.Gen.Kernel.Skeleton
import proofs.«163430_j66640712564831_1_alg».proof.Proof.Gen.Kernel.Launch
import proofs.«163430_j66640712564831_1_alg».proof.Proof.Gen.Kernel.Points
import proofs.«163430_j66640712564831_1_alg».proof.Proof.Gen.Kernel.Frame
import proofs.«163430_j66640712564831_1_alg».proof.Proof.Gen.KernelIdeal
import proofs.«163430_j66640712564831_1_alg».proof.Proof.Gen.KernelIdeal.Skeleton
import proofs.«163430_j66640712564831_1_alg».proof.Proof.Gen.KernelIdeal.Launch
import proofs.«163430_j66640712564831_1_alg».proof.Proof.Gen.KernelIdeal.Points
import proofs.«163430_j66640712564831_1_alg».proof.Proof.Gen.KernelIdeal.Frame
import proofs.«163430_j66640712564831_1_alg».proof.Proof.Gen.KernelIdeal.Value
import proofs.«163430_j66640712564831_1_alg».proof.Proof.Gen.ReferenceIdeal
import proofs.«163430_j66640712564831_1_alg».proof.Proof.Gen.Pre_finite_inputs
import proofs.«163430_j66640712564831_1_alg».proof.Proof.KernelFinal
import proofs.«163430_j66640712564831_1_alg».proof.Proof.RefRun
import proofs.«163430_j66640712564831_1_alg».proof.Proof.RefRead
import Idealize.ShloMosaic.Adequacy
import Idealize.ShloMosaic.Init

noncomputable section

namespace Cert.Proof

open Idealize.ShloMosaic Idealize.SL.Sem Cert.Kernel

/-- The kernel as printed runs and keeps its arguments. -/
theorem frame_k : Cert.frame_Kernel := fun m ρ _ => Cert.Kernel.Gen.frame m ρ

/-- The kernel over the extended reals runs and keeps its arguments. -/
theorem frame_ki : Cert.frame_KernelIdeal := fun m ρ _ => Cert.KernelIdeal.Gen.frame m ρ

/-- The reference over the extended reals runs and keeps its arguments: the last two conjuncts of its run. -/
theorem frame_ri : Cert.frame_ReferenceIdeal := fun m ρ _ =>
  (θ_run Cert.ReferenceIdeal.defs _ _).mono (fun _ h c => ⟨(h c).2.2.1, (h c).2.2.2⟩)
    (Cert.ReferenceIdeal.RefRun.run (F := Ideal) m ρ)

/-- The kernel over the extended reals has the printed kernel's operations, none rewritten: there is nothing to state. -/
theorem preserves : Cert.preserves_Kernel_KernelIdeal := trivial

/-- Over the extended reals, from arguments that agree, both programs end with the subset table of the kernel's
    arguments: the kernel by its run, the reference by its run read entry by entry. -/
theorem algebraic : Cert.algebraic_KernelIdeal_ReferenceIdeal := by
  intro m ρ m' ρ' _ hagree
  refine ⟨_, _, Cert.KernelIdeal.Final.run (F := Ideal) m ρ, ?_⟩
  refine (θ_run Cert.ReferenceIdeal.defs _ _).mono (fun _ h c => ⟨?_, ?_, (h c).2.2.1, (h c).2.2.2⟩)
    (Cert.ReferenceIdeal.RefRun.run (F := Ideal) m' ρ')
  · rw [(h c).1, Cert.ReferenceIdeal.RefRead.outLo_eq, (hagree c).1, (hagree c).2]
  · rw [(h c).2.1, Cert.ReferenceIdeal.RefRead.outHi_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
